-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x9 : Shape := ⟨2, ![200000, 9]⟩
abbrev S2x640000 : Shape := ⟨2, ![2, 640000]⟩
abbrev S200000 : Shape := ⟨1, ![200000]⟩
abbrev S9x119x128 : Shape := ⟨3, ![9, 119, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S9x119x128 : S_.BroadcastsInDim S9x119x128 (![] : Fin 0 → Fin S9x119x128.rank)
  reducesTo_S9x119x128_S_d0_1_2 : S9x119x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S200000x9 : S_.BroadcastsInDim S200000x9 (![] : Fin 0 → Fin S200000x9.rank)
  reducesTo_S200000x9_S_d0_1 : S200000x9.ReducesTo [0, 1] S_

variable [Facts]

def fn_part5 {F : FTy → Type} [FloatOps F] (main_arg0 : IVec S200000x9 32) (main_v83 : IVec S_ 1) (main_v84 : IVec S200000x9 32) : IVec S_ 1 :=
  let main_v85 : IVec S200000x9 1 := cmpi .sge main_arg0 main_v84
  let main_c_33 : IVec S_ 32 := constantI S_ 32 119#32
  let main_v86 : IVec S200000x9 32 := broadcastInDim S200000x9 ![] bcast_S_S200000x9 main_c_33
  let main_v87 : IVec S200000x9 1 := cmpi .slt main_arg0 main_v86
  let main_v88 : IVec S200000x9 1 := andi main_v85 main_v87
  let main_c_34 : IVec S_ 1 := constantI S_ 1 1#1
  let main_v89 : IVec S_ 1 := (fun x v => Host.reduce IntOp.andi x v reducesTo_S200000x9_S_d0_1 h_S_) main_v88 main_c_34
  let main_v90 : IVec S_ 1 := andi main_v83 main_v89
  main_v90

def fn_part4 {F : FTy → Type} [FloatOps F] (main_arg0 : IVec S200000x9 32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg18
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S200000x9 32 := broadcastInDim S200000x9 ![] bcast_S_S200000x9 main_c_32
  fn_part5 (F := F) main_arg0 main_v83 main_v84

def fn_part3 {F : FTy → Type} [FloatOps F] (main_arg0 : IVec S200000x9 32) (main_arg14 : FVec F S128 .f32) (main_arg15 : FVec F S128 .f32) (main_arg16 : FVec F S128x128 .f32) (main_arg17 : FVec F S128 .f32) (main_arg18 : FVec F S128x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg0 main_arg17 main_arg18 main_arg19 main_v63 main_v67

def fn_part2 {F : FTy → Type} [FloatOps F] (main_arg0 : IVec S200000x9 32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x1 .f32) (main_arg19 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg0 main_arg14 main_arg15 main_arg16 main_arg17 main_arg18 main_arg19 main_v48 main_v49 main_v50

def fn_part1 {F : FTy → Type} [FloatOps F] (main_arg0 : IVec S200000x9 32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg10 main_arg11 main_arg12 main_arg13 main_arg14 main_arg15 main_arg16 main_arg17 main_arg18 main_arg19 main_v33

def fn {F : FTy → Type} [FloatOps F] (main_arg0 : IVec S200000x9 32) (main_arg1 : IVec S2x640000 32) (main_arg2 : IVec S200000 32) (main_arg3 : FVec F S9x119x128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x1 .f32) (main_arg19 : FVec F S1 .f32) : IVec S_ 1 :=
  let main_v0 : FVec F S9x119x128 .f32 := Host.absf main_arg3
  let main_cst : FVec F S_ .f32 := constant S_ .f32 0x7F800000#32
  let main_v1 : FVec F S9x119x128 .f32 := broadcastInDim S9x119x128 ![] bcast_S_S9x119x128 main_cst
  let main_v2 : IVec S9x119x128 1 := cmpf .olt main_v0 main_v1
  let main_c : IVec S_ 1 := constantI S_ 1 1#1
  let main_v3 : IVec S_ 1 := (fun x v => Host.reduce IntOp.andi x v reducesTo_S9x119x128_S_d0_1_2 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg7 main_arg8 main_arg9 main_arg10 main_arg11 main_arg12 main_arg13 main_arg14 main_arg15 main_arg16 main_arg17 main_arg18 main_arg19 main_v13 main_v16
-- ==== Kernel.lean ====
abbrev S200000x9 : Shape := ⟨2, ![200000, 9]⟩
abbrev S2x640000 : Shape := ⟨2, ![2, 640000]⟩
abbrev S200000 : Shape := ⟨1, ![200000]⟩
abbrev S9x119x128 : Shape := ⟨3, ![9, 119, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S840000 : Shape := ⟨1, ![840000]⟩
abbrev S_ : Shape := ⟨0, ![]⟩
abbrev S640000x1 : Shape := ⟨2, ![640000, 1]⟩
abbrev S840000x1 : Shape := ⟨2, ![840000, 1]⟩
abbrev S9x128x128 : Shape := ⟨3, ![9, 128, 128]⟩
abbrev S200000x128 : Shape := ⟨2, ![200000, 128]⟩
abbrev S10000x9 : Shape := ⟨2, ![10000, 9]⟩
abbrev S10000x128 : Shape := ⟨2, ![10000, 128]⟩
abbrev S10000x1 : Shape := ⟨2, ![10000, 1]⟩
abbrev S10000 : Shape := ⟨1, ![10000]⟩
abbrev S1x128x128 : Shape := ⟨3, ![1, 128, 128]⟩
abbrev S840000x128 : Shape := ⟨2, ![840000, 128]⟩
abbrev S1x128 : Shape := ⟨2, ![1, 128]⟩
abbrev S4000 : Shape := ⟨1, ![4000]⟩
abbrev S200000x1 : Shape := ⟨2, ![200000, 1]⟩
abbrev S4000x128 : Shape := ⟨2, ![4000, 128]⟩
abbrev S4000x1 : Shape := ⟨2, ![4000, 1]⟩
abbrev S1x1 : Shape := ⟨2, ![1, 1]⟩

abbrev nBuf : Space → Nat
  | .hbm => 138
  | .vmem => 48
  | .smem => 0
  | _ => 0

abbrev hbmTy0_0 (i : Nat) : BufTy := match i % 128 with
  | 0 => ⟨S200000x9, .i32⟩
  | 1 => ⟨S2x640000, .i32⟩
  | 2 => ⟨S200000, .i32⟩
  | 3 => ⟨S9x119x128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x640000, .i32⟩
  | 21 => ⟨S640000, .i32⟩
  | 22 => ⟨S1x640000, .i32⟩
  | 23 => ⟨S640000, .i32⟩
  | 24 => ⟨S200000, .i32⟩
  | 25 => ⟨S840000, .i32⟩
  | 26 => ⟨S840000, .i32⟩
  | 27 => ⟨S_, .f32⟩
  | 28 => ⟨S640000, .f32⟩
  | 29 => ⟨S_, .f32⟩
  | 30 => ⟨S200000, .f32⟩
  | 31 => ⟨S640000x1, .i32⟩
  | 32 => ⟨S200000, .f32⟩
  | 33 => ⟨S_, .f32⟩
  | 34 => ⟨S200000, .f32⟩
  | 35 => ⟨S200000, .f32⟩
  | 36 => ⟨S200000, .f32⟩
  | 37 => ⟨S_, .i32⟩
  | 38 => ⟨S840000, .i32⟩
  | 39 => ⟨S840000, .i1⟩
  | 40 => ⟨S_, .i32⟩
  | 41 => ⟨S840000, .i32⟩
  | 42 => ⟨S840000, .i32⟩
  | 43 => ⟨S840000, .i32⟩
  | 44 => ⟨S840000x1, .i32⟩
  | 45 => ⟨S840000, .f32⟩
  | 46 => ⟨S_, .i32⟩
  | 47 => ⟨S840000, .i32⟩
  | 48 => ⟨S840000, .i1⟩
  | 49 => ⟨S_, .i32⟩
  | 50 => ⟨S840000, .i32⟩
  | 51 => ⟨S840000, .i32⟩
  | 52 => ⟨S840000, .i32⟩
  | 53 => ⟨S840000x1, .i32⟩
  | 54 => ⟨S840000, .f32⟩
  | 55 => ⟨S840000, .f32⟩
  | 56 => ⟨S_, .i32⟩
  | 57 => ⟨S_, .f32⟩
  | 58 => ⟨S9x128x128, .f32⟩
  | 59 => ⟨S200000x128, .f32⟩
  | 60 => ⟨S200000x128, .f32⟩
  | 61 => ⟨S_, .i32⟩
  | 62 => ⟨S840000, .i32⟩
  | 63 => ⟨S840000, .i1⟩
  | 64 => ⟨S_, .i32⟩
  | 65 => ⟨S840000, .i32⟩
  | 66 => ⟨S840000, .i32⟩
  | 67 => ⟨S840000, .i32⟩
  | 68 => ⟨S840000x1, .i32⟩
  | 69 => ⟨S840000x128, .f32⟩
  | 70 => ⟨S840000x1, .f32⟩
  | 71 => ⟨S840000x128, .f32⟩
  | 72 => ⟨S840000x128, .f32⟩
  | 73 => ⟨S_, .f32⟩
  | 74 => ⟨S200000x128, .f32⟩
  | 75 => ⟨S840000x1, .i32⟩
  | 76 => ⟨S200000x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S200000x128, .f32⟩
  | 83 => ⟨S200000x128, .f32⟩
  | 84 => ⟨S_, .i32⟩
  | 85 => ⟨S840000, .i32⟩
  | 86 => ⟨S840000, .i1⟩
  | 87 => ⟨S_, .i32⟩
  | 88 => ⟨S840000, .i32⟩
  | 89 => ⟨S840000, .i32⟩
  | 90 => ⟨S840000, .i32⟩
  | 91 => ⟨S840000x1, .i32⟩
  | 92 => ⟨S840000x128, .f32⟩
  | 93 => ⟨S840000x1, .f32⟩
  | 94 => ⟨S840000x128, .f32⟩
  | 95 => ⟨S840000x128, .f32⟩
  | 96 => ⟨S_, .f32⟩
  | 97 => ⟨S200000x128, .f32⟩
  | 98 => ⟨S840000x1, .i32⟩
  | 99 => ⟨S200000x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S200000x128, .f32⟩
  | 106 => ⟨S200000x128, .f32⟩
  | 107 => ⟨S_, .i32⟩
  | 108 => ⟨S840000, .i32⟩
  | 109 => ⟨S840000, .i1⟩
  | 110 => ⟨S_, .i32⟩
  | 111 => ⟨S840000, .i32⟩
  | 112 => ⟨S840000, .i32⟩
  | 113 => ⟨S840000, .i32⟩
  | 114 => ⟨S840000x1, .i32⟩
  | 115 => ⟨S840000x128, .f32⟩
  | 116 => ⟨S840000x1, .f32⟩
  | 117 => ⟨S840000x128, .f32⟩
  | 118 => ⟨S840000x128, .f32⟩
  | 119 => ⟨S_, .f32⟩
  | 120 => ⟨S200000x128, .f32⟩
  | 121 => ⟨S840000x1, .i32⟩
  | 122 => ⟨S200000x128, .f32⟩
  | 123 => ⟨S1x128, .f32⟩
  | 124 => ⟨S200000x128, .f32⟩
  | 125 => ⟨S_, .f32⟩
  | 126 => ⟨S200000, .f32⟩
  | 127 => ⟨S_, .f32⟩
  | _ => ⟨S200000x9, .i32⟩

abbrev hbmTy0_1 (i : Nat) : BufTy := match i % 128 with
  | 0 => ⟨S4000, .f32⟩
  | 1 => ⟨S200000x1, .i32⟩
  | 2 => ⟨S4000, .f32⟩
  | 3 => ⟨S_, .f32⟩
  | 4 => ⟨S4000x128, .f32⟩
  | 5 => ⟨S200000x1, .i32⟩
  | 6 => ⟨S4000x128, .f32⟩
  | 7 => ⟨S4000x1, .f32⟩
  | 8 => ⟨S1x1, .f32⟩
  | 9 => ⟨S4000x1, .f32⟩
  | _ => ⟨S200000x9, .i32⟩

abbrev hbmTy (i : Nat) : BufTy := match i / 128 with
  | 0 => hbmTy0_0 i
  | 1 => hbmTy0_1 i
  | _ => ⟨S200000x9, .i32⟩

abbrev bufTy : (tb : Table) → Fin (tcTables nBuf tb) → BufTy
  | .hbm, ⟨i, _⟩ => hbmTy i
  | .local _ .vmem, ⟨0, _⟩ => ⟨S10000x9, .i32⟩
  | .local _ .vmem, ⟨1, _⟩ => ⟨S10000x9, .i32⟩
  | .local _ .vmem, ⟨2, _⟩ => ⟨S9x128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S128x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S1x128, .f32⟩
  | .local _ .vmem, ⟨41, _⟩ => ⟨S10000x128, .f32⟩
  | .local _ .vmem, ⟨42, _⟩ => ⟨S10000x128, .f32⟩
  | .local _ .vmem, ⟨43, _⟩ => ⟨S4000x128, .f32⟩
  | .local _ .vmem, ⟨44, _⟩ => ⟨S4000x1, .f32⟩
  | .local _ .vmem, ⟨45, _⟩ => ⟨S128x1, .f32⟩
  | .local _ .vmem, ⟨46, _⟩ => ⟨S1x1, .f32⟩
  | .local _ .vmem, ⟨47, _⟩ => ⟨S4000x1, .f32⟩
  | _, _ => ⟨S200000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_call0_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_c_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_9 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_12 : Ref sig .tc := ⟨.hbm, 107, rfl⟩
abbrev main_v72 : Ref sig .tc := ⟨.hbm, 108, rfl⟩
abbrev main_v73 : Ref sig .tc := ⟨.hbm, 109, rfl⟩
abbrev main_c_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg6_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg4_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem1_0 : DmaSem sig := 44
abbrev cc7_sem2_0 : DmaSem sig := 45
abbrev cc7_sem3_0 : DmaSem sig := 46
abbrev cc7_sem4_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S4000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S4000x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S4000x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S200000_S840000_d0 : Shape.Concatenates [S640000, S200000] S840000 0
  bcast_S_S640000 : S_.BroadcastsInDim S640000 (![] : Fin 0 → Fin S640000.rank)
  bcast_S_S200000 : S_.BroadcastsInDim S200000 (![] : Fin 0 → Fin S200000.rank)
  bcast_S640000_S640000x1_0 : S640000.BroadcastsInDim S640000x1 (![0] : Fin 1 → Fin S640000x1.rank)
  bcast_S_S840000 : S_.BroadcastsInDim S840000 (![] : Fin 0 → Fin S840000.rank)
  bcast_S840000_S840000x1_0 : S840000.BroadcastsInDim S840000x1 (![0] : Fin 1 → Fin S840000x1.rank)
  pads_S9x119x128_S9x128x128_000_090_000 : S9x119x128.Pads (![0, 0, 0] : Fin 3 → Nat) ![0, 9, 0] ![0, 0, 0] S9x128x128
  h_S_ : 0 < S_.numel
  inb_S10000x9_S10000x9_0_0 : ∀ a, (![0, 0] : Fin 2 → Nat) a + S10000x9.size a ≤ S10000x9.size a
  h_S10000x9 : 0 < S10000x9.numel
  iota_S10000x128_d1_w32 : S10000x128.Iotas .tc 32 [1]
  slices_S10000x9_o0_0_S10000x1 : S10000x9.Slices ![0, 0] S10000x1
  shapeCasts_S10000x1_S10000 : S10000x1.ShapeCasts S10000
  shapeCasts_S10000_S10000x1 : S10000.ShapeCasts S10000x1
  broadcasts_S10000x1_S10000x128 : S10000x1.Broadcasts S10000x128
  natLt_1_32 : 1 < 32
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  slices_S10000x9_o0_1_S10000x1 : S10000x9.Slices ![0, 1] S10000x1
  inb_S9x128x128_S1x128x128_1_0_0 : ∀ a, (![1, 0, 0] : Fin 3 → Nat) a + S1x128x128.size a ≤ S9x128x128.size a
  slices_S10000x9_o0_2_S10000x1 : S10000x9.Slices ![0, 2] S10000x1
  inb_S9x128x128_S1x128x128_2_0_0 : ∀ a, (![2, 0, 0] : Fin 3 → Nat) a + S1x128x128.size a ≤ S9x128x128.size a
  slices_S10000x9_o0_3_S10000x1 : S10000x9.Slices ![0, 3] S10000x1
  inb_S9x128x128_S1x128x128_3_0_0 : ∀ a, (![3, 0, 0] : Fin 3 → Nat) a + S1x128x128.size a ≤ S9x128x128.size a
  slices_S10000x9_o0_4_S10000x1 : S10000x9.Slices ![0, 4] S10000x1
  inb_S9x128x128_S1x128x128_4_0_0 : ∀ a, (![4, 0, 0] : Fin 3 → Nat) a + S1x128x128.size a ≤ S9x128x128.size a
  slices_S10000x9_o0_5_S10000x1 : S10000x9.Slices ![0, 5] S10000x1
  inb_S9x128x128_S1x128x128_5_0_0 : ∀ a, (![5, 0, 0] : Fin 3 → Nat) a + S1x128x128.size a ≤ S9x128x128.size a
  slices_S10000x9_o0_6_S10000x1 : S10000x9.Slices ![0, 6] S10000x1
  inb_S9x128x128_S1x128x128_6_0_0 : ∀ a, (![6, 0, 0] : Fin 3 → Nat) a + S1x128x128.size a ≤ S9x128x128.size a
  slices_S10000x9_o0_7_S10000x1 : S10000x9.Slices ![0, 7] S10000x1
  inb_S9x128x128_S1x128x128_7_0_0 : ∀ a, (![7, 0, 0] : Fin 3 → Nat) a + S1x128x128.size a ≤ S9x128x128.size a
  slices_S10000x9_o0_8_S10000x1 : S10000x9.Slices ![0, 8] S10000x1
  inb_S9x128x128_S1x128x128_8_0_0 : ∀ a, (![8, 0, 0] : Fin 3 → Nat) a + S1x128x128.size a ≤ S9x128x128.size a
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S840000x1_S840000x128_0_1 : S840000x1.BroadcastsInDim S840000x128 (![0, 1] : Fin 2 → Fin S840000x128.rank)
  bcast_S_S200000x128 : S_.BroadcastsInDim S200000x128 (![] : Fin 0 → Fin S200000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S4000 : S_.BroadcastsInDim S4000 (![] : Fin 0 → Fin S4000.rank)
  bcast_S200000_S200000x1_0 : S200000.BroadcastsInDim S200000x1 (![0] : Fin 1 → Fin S200000x1.rank)
  bcast_S_S4000x128 : S_.BroadcastsInDim S4000x128 (![] : Fin 0 → Fin S4000x128.rank)
  shapeCasts_S4000_S4000x1 : S4000.ShapeCasts S4000x1
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S200000_S640000x1_S640000_n_0_0_1_wf : ScatterDims.WF S200000 S640000x1 S640000 [] [0] [0] 1
  gather_S200000_S840000x1_S840000_n_0_n_n_0_1_1_wf : GatherDims.WF S200000 S840000x1 S840000 [] [0] [] [0] [] 1 ![1]
  dot_S10000x128_S128x128_S10000x128_1_0_0_1_n_n_wf : DotDims.WF S10000x128 S128x128 S10000x128 [1] [0] [0] [1] [] []
  gather_S200000x128_S840000x1_S840000x128_1_0_n_n_0_1_1128_wf : GatherDims.WF S200000x128 S840000x1 S840000x128 [1] [0] [] [0] [] 1 ![1, 128]
  scatter_S200000x128_S840000x1_S840000x128_1_0_0_1_wf : ScatterDims.WF S200000x128 S840000x1 S840000x128 [1] [0] [0] 1
  scatter_S4000_S200000x1_S200000_n_0_0_1_wf : ScatterDims.WF S4000 S200000x1 S200000 [] [0] [0] 1
  scatter_S4000x128_S200000x1_S200000x128_1_0_0_1_wf : ScatterDims.WF S4000x128 S200000x1 S200000x128 [1] [0] [0] 1
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S200000x9.size a
  hwx0_0 : ∀ i : grid0.Coords, EltTy.bits .i32 = 32 ∨ (Rect.block (s := S200000x9) S10000x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x128.size a ≤ S9x128x128.size a
  hwx0_1 : ∀ i : grid0.Coords, EltTy.bits .f32 = 32 ∨ (Rect.block (s := S9x128x128) S9x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S200000x128.size a
  hwx0_2 : ∀ i : grid0.Coords, EltTy.bits .f32 = 32 ∨ (Rect.block (s := S200000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S200000x128.size a
  hwx1_2 : ∀ i : grid1.Coords, EltTy.bits .f32 = 32 ∨ (Rect.block (s := S200000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S200000x128.size a
  hwx2_0 : ∀ i : grid2.Coords, EltTy.bits .f32 = 32 ∨ (Rect.block (s := S200000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S200000x128.size a
  hwx2_6 : ∀ i : grid2.Coords, EltTy.bits .f32 = 32 ∨ (Rect.block (s := S200000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S200000x128.size a
  hwx3_0 : ∀ i : grid3.Coords, EltTy.bits .f32 = 32 ∨ (Rect.block (s := S200000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S200000x128.size a
  hwx3_2 : ∀ i : grid3.Coords, EltTy.bits .f32 = 32 ∨ (Rect.block (s := S200000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x128.size a ≤ S200000x128.size a
  hwx4_6 : ∀ i : grid4.Coords, EltTy.bits .f32 = 32 ∨ (Rect.block (s := S200000x128) S10000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S200000x128.size a
  hwx5_0 : ∀ i : grid5.Coords, EltTy.bits .f32 = 32 ∨ (Rect.block (s := S200000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S200000x128.size a
  hwx5_2 : ∀ i : grid5.Coords, EltTy.bits .f32 = 32 ∨ (Rect.block (s := S200000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S200000x128.size a
  hwx6_0 : ∀ i : grid6.Coords, EltTy.bits .f32 = 32 ∨ (Rect.block (s := S200000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S200000x128.size a
  hwx6_2 : ∀ i : grid6.Coords, EltTy.bits .f32 = 32 ∨ (Rect.block (s := S200000x128) S10000x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S4000x128.size a
  hwx7_0 : ∀ i : grid7.Coords, EltTy.bits .f32 = 32 ∨ (Rect.block (s := S4000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S4000x1.size a
  hwx7_1 : ∀ i : grid7.Coords, EltTy.bits .f32 = 32 ∨ (Rect.block (s := S4000x1) S4000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x1.size a ≤ S128x1.size a
  hwx7_2 : ∀ i : grid7.Coords, EltTy.bits .f32 = 32 ∨ (Rect.block (s := S128x1) S128x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S4000x1.size a ≤ S4000x1.size a
  hwx7_4 : ∀ i : grid7.Coords, EltTy.bits .f32 = 32 ∨ (Rect.block (s := S4000x1) S4000x1.size (cc7_transform_4 i) (hinb7_4 i)).WholeWords (EltTy.packing .f32)

variable [Facts₀]

def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf
def gather_S200000_S840000x1_S840000_n_0_n_n_0_1_1 : GatherDims S200000 S840000x1 S840000 where
  offsetDims := []
  collapsedSliceDims := [0]
  operandBatchingDims := []
  startIndicesBatchingDims := []
  startIndexMap := [0]
  indexVectorDim := 1
  sliceSizes := ![1]
  wf := gather_S200000_S840000x1_S840000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S200000x128_S840000x1_S840000x128_1_0_n_n_0_1_1128 : GatherDims S200000x128 S840000x1 S840000x128 where
  offsetDims := [1]
  collapsedSliceDims := [0]
  operandBatchingDims := []
  startIndicesBatchingDims := []
  startIndexMap := [0]
  indexVectorDim := 1
  sliceSizes := ![1, 128]
  wf := gather_S200000x128_S840000x1_S840000x128_1_0_n_n_0_1_1128_wf
def scatter_S200000x128_S840000x1_S840000x128_1_0_0_1 : ScatterDims S200000x128 S840000x1 S840000x128 where
  updateWindowDims := [1]
  insertedWindowDims := [0]
  scatterDimsToOperandDims := [0]
  indexVectorDim := 1
  wf := scatter_S200000x128_S840000x1_S840000x128_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def scatter_S4000x128_S200000x1_S200000x128_1_0_0_1 : ScatterDims S4000x128 S200000x1 S200000x128 where
  updateWindowDims := [1]
  insertedWindowDims := [0]
  scatterDimsToOperandDims := [0]
  indexVectorDim := 1
  wf := scatter_S4000x128_S200000x1_S200000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S9x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v70) S10000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v70) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S4000x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v94) S4000x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg18) S128x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v96) S4000x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S200000x9 : Shape := ⟨2, ![200000, 9]⟩
abbrev S2x640000 : Shape := ⟨2, ![2, 640000]⟩
abbrev S200000 : Shape := ⟨1, ![200000]⟩
abbrev S9x119x128 : Shape := ⟨3, ![9, 119, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S9 : Shape := ⟨1, ![9]⟩
abbrev S1x9 : Shape := ⟨2, ![1, 9]⟩
abbrev S200000x9x1 : Shape := ⟨3, ![200000, 9, 1]⟩
abbrev S200000x9x2 : Shape := ⟨3, ![200000, 9, 2]⟩
abbrev S200000x9x128 : Shape := ⟨3, ![200000, 9, 128]⟩
abbrev S200000x128 : Shape := ⟨2, ![200000, 128]⟩
abbrev S640000x128 : Shape := ⟨2, ![640000, 128]⟩
abbrev S200000x1 : Shape := ⟨2, ![200000, 1]⟩
abbrev S1x128 : Shape := ⟨2, ![1, 128]⟩
abbrev S4000 : Shape := ⟨1, ![4000]⟩
abbrev S4000x128 : Shape := ⟨2, ![4000, 128]⟩
abbrev S4000x1 : Shape := ⟨2, ![4000, 1]⟩
abbrev S1x1 : Shape := ⟨2, ![1, 1]⟩

abbrev nBuf : Space → Nat
  | .hbm => 247
  | .vmem => 0
  | .smem => 0
  | _ => 0

abbrev hbmTy0_0 (i : Nat) : BufTy := match i % 128 with
  | 0 => ⟨S200000x9, .i32⟩
  | 1 => ⟨S2x640000, .i32⟩
  | 2 => ⟨S200000, .i32⟩
  | 3 => ⟨S9x119x128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x640000, .i32⟩
  | 21 => ⟨S640000, .i32⟩
  | 22 => ⟨S1x640000, .i32⟩
  | 23 => ⟨S640000, .i32⟩
  | 24 => ⟨S_, .f32⟩
  | 25 => ⟨S640000, .f32⟩
  | 26 => ⟨S_, .f32⟩
  | 27 => ⟨S200000, .f32⟩
  | 28 => ⟨S640000x1, .i32⟩
  | 29 => ⟨S200000, .f32⟩
  | 30 => ⟨S_, .f32⟩
  | 31 => ⟨S200000, .f32⟩
  | 32 => ⟨S200000, .f32⟩
  | 33 => ⟨S200000, .f32⟩
  | 34 => ⟨S9, .i32⟩
  | 35 => ⟨S1x9, .i32⟩
  | 36 => ⟨S_, .i32⟩
  | 37 => ⟨S1x9, .i32⟩
  | 38 => ⟨S1x9, .i1⟩
  | 39 => ⟨S_, .i32⟩
  | 40 => ⟨S1x9, .i32⟩
  | 41 => ⟨S1x9, .i32⟩
  | 42 => ⟨S1x9, .i32⟩
  | 43 => ⟨S_, .i32⟩
  | 44 => ⟨S200000x9, .i32⟩
  | 45 => ⟨S200000x9, .i1⟩
  | 46 => ⟨S_, .i32⟩
  | 47 => ⟨S200000x9, .i32⟩
  | 48 => ⟨S200000x9, .i32⟩
  | 49 => ⟨S200000x9, .i32⟩
  | 50 => ⟨S200000x9, .i32⟩
  | 51 => ⟨S200000x9x1, .i32⟩
  | 52 => ⟨S200000x9x1, .i32⟩
  | 53 => ⟨S200000x9x2, .i32⟩
  | 54 => ⟨S200000x9x128, .f32⟩
  | 55 => ⟨S_, .f32⟩
  | 56 => ⟨S200000x128, .f32⟩
  | 57 => ⟨S200000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000, .f32⟩
  | 76 => ⟨S640000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S640000x1, .f32⟩
  | 87 => ⟨S640000x128, .f32⟩
  | 88 => ⟨S640000x128, .f32⟩
  | 89 => ⟨S_, .f32⟩
  | 90 => ⟨S200000x128, .f32⟩
  | 91 => ⟨S640000x1, .i32⟩
  | 92 => ⟨S200000x128, .f32⟩
  | 93 => ⟨S200000, .f32⟩
  | 94 => ⟨S200000x1, .f32⟩
  | 95 => ⟨S200000x128, .f32⟩
  | 96 => ⟨S200000x128, .f32⟩
  | 97 => ⟨S200000x128, .f32⟩
  | 98 => ⟨S1x128, .f32⟩
  | 99 => ⟨S200000x128, .f32⟩
  | 100 => ⟨S200000x128, .f32⟩
  | 101 => ⟨S1x128, .f32⟩
  | 102 => ⟨S200000x128, .f32⟩
  | 103 => ⟨S200000x128, .f32⟩
  | 104 => ⟨S1x128, .f32⟩
  | 105 => ⟨S200000x128, .f32⟩
  | 106 => ⟨S200000x128, .f32⟩
  | 107 => ⟨S_, .f32⟩
  | 108 => ⟨S128, .f32⟩
  | 109 => ⟨S128, .f32⟩
  | 110 => ⟨S128, .f32⟩
  | 111 => ⟨S1x128, .f32⟩
  | 112 => ⟨S200000x128, .f32⟩
  | 113 => ⟨S200000x128, .f32⟩
  | 114 => ⟨S1x128, .f32⟩
  | 115 => ⟨S200000x128, .f32⟩
  | 116 => ⟨S200000x128, .f32⟩
  | 117 => ⟨S_, .f32⟩
  | 118 => ⟨S200000x128, .f32⟩
  | 119 => ⟨S200000x128, .f32⟩
  | 120 => ⟨S200000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S200000x9, .i32⟩

abbrev hbmTy0_1 (i : Nat) : BufTy := match i % 128 with
  | 0 => ⟨S640000x1, .i32⟩
  | 1 => ⟨S640000, .f32⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000, .f32⟩
  | 11 => ⟨S640000, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S640000x1, .f32⟩
  | 22 => ⟨S640000x128, .f32⟩
  | 23 => ⟨S640000x128, .f32⟩
  | 24 => ⟨S_, .f32⟩
  | 25 => ⟨S200000x128, .f32⟩
  | 26 => ⟨S640000x1, .i32⟩
  | 27 => ⟨S200000x128, .f32⟩
  | 28 => ⟨S200000, .f32⟩
  | 29 => ⟨S200000x1, .f32⟩
  | 30 => ⟨S200000x128, .f32⟩
  | 31 => ⟨S200000x128, .f32⟩
  | 32 => ⟨S200000x128, .f32⟩
  | 33 => ⟨S1x128, .f32⟩
  | 34 => ⟨S200000x128, .f32⟩
  | 35 => ⟨S200000x128, .f32⟩
  | 36 => ⟨S1x128, .f32⟩
  | 37 => ⟨S200000x128, .f32⟩
  | 38 => ⟨S200000x128, .f32⟩
  | 39 => ⟨S1x128, .f32⟩
  | 40 => ⟨S200000x128, .f32⟩
  | 41 => ⟨S200000x128, .f32⟩
  | 42 => ⟨S_, .f32⟩
  | 43 => ⟨S128, .f32⟩
  | 44 => ⟨S128, .f32⟩
  | 45 => ⟨S128, .f32⟩
  | 46 => ⟨S1x128, .f32⟩
  | 47 => ⟨S200000x128, .f32⟩
  | 48 => ⟨S200000x128, .f32⟩
  | 49 => ⟨S1x128, .f32⟩
  | 50 => ⟨S200000x128, .f32⟩
  | 51 => ⟨S200000x128, .f32⟩
  | 52 => ⟨S_, .f32⟩
  | 53 => ⟨S200000x128, .f32⟩
  | 54 => ⟨S200000x128, .f32⟩
  | 55 => ⟨S200000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000, .f32⟩
  | 74 => ⟨S640000, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S640000x128, .f32⟩
  | 84 => ⟨S640000x1, .f32⟩
  | 85 => ⟨S640000x128, .f32⟩
  | 86 => ⟨S640000x128, .f32⟩
  | 87 => ⟨S_, .f32⟩
  | 88 => ⟨S200000x128, .f32⟩
  | 89 => ⟨S640000x1, .i32⟩
  | 90 => ⟨S200000x128, .f32⟩
  | 91 => ⟨S200000, .f32⟩
  | 92 => ⟨S200000x1, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S_, .f32⟩
  | 100 => ⟨S200000, .f32⟩
  | 101 => ⟨S_, .f32⟩
  | 102 => ⟨S4000, .f32⟩
  | 103 => ⟨S200000x1, .i32⟩
  | 104 => ⟨S4000, .f32⟩
  | 105 => ⟨S_, .f32⟩
  | 106 => ⟨S4000x128, .f32⟩
  | 107 => ⟨S200000x1, .i32⟩
  | 108 => ⟨S4000x128, .f32⟩
  | 109 => ⟨S_, .f32⟩
  | 110 => ⟨S4000, .f32⟩
  | 111 => ⟨S4000, .f32⟩
  | 112 => ⟨S4000x1, .f32⟩
  | 113 => ⟨S4000x128, .f32⟩
  | 114 => ⟨S4000x128, .f32⟩
  | 115 => ⟨S4000x1, .f32⟩
  | 116 => ⟨S1x1, .f32⟩
  | 117 => ⟨S4000x1, .f32⟩
  | 118 => ⟨S4000x1, .f32⟩
  | _ => ⟨S200000x9, .i32⟩

abbrev hbmTy (i : Nat) : BufTy := match i / 128 with
  | 0 => hbmTy0_0 i
  | 1 => hbmTy0_1 i
  | _ => ⟨S200000x9, .i32⟩

abbrev bufTy : (tb : Table) → Fin (tcTables nBuf tb) → BufTy
  | .hbm, ⟨i, _⟩ => hbmTy i
  | _, _ => ⟨S200000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call0_cst : Ref sig .tc := ⟨.hbm, 117, rfl⟩
abbrev main_call0_v0 : Ref sig .tc := ⟨.hbm, 118, rfl⟩
abbrev main_v81 : Ref sig .tc := ⟨.hbm, 119, rfl⟩
abbrev main_v82 : Ref sig .tc := ⟨.hbm, 120, rfl⟩
abbrev main_c_14 : Ref sig .tc := ⟨.hbm, 121, rfl⟩
abbrev main_v83 : Ref sig .tc := ⟨.hbm, 122, rfl⟩
abbrev main_v84 : Ref sig .tc := ⟨.hbm, 123, rfl⟩
abbrev main_c_15 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_16 : Ref sig .tc := ⟨.hbm, 130, rfl⟩
abbrev main_v90 : Ref sig .tc := ⟨.hbm, 131, rfl⟩
abbrev main_v91 : Ref sig .tc := ⟨.hbm, 132, rfl⟩
abbrev main_c_17 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_18 : Ref sig .tc := ⟨.hbm, 140, rfl⟩
abbrev main_v98 : Ref sig .tc := ⟨.hbm, 141, rfl⟩
abbrev main_v99 : Ref sig .tc := ⟨.hbm, 142, rfl⟩
abbrev main_c_19 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_21 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_call1_cst : Ref sig .tc := ⟨.hbm, 180, rfl⟩
abbrev main_call1_v0 : Ref sig .tc := ⟨.hbm, 181, rfl⟩
abbrev main_v134 : Ref sig .tc := ⟨.hbm, 182, rfl⟩
abbrev main_v135 : Ref sig .tc := ⟨.hbm, 183, rfl⟩
abbrev main_c_22 : Ref sig .tc := ⟨.hbm, 184, rfl⟩
abbrev main_v136 : Ref sig .tc := ⟨.hbm, 185, rfl⟩
abbrev main_v137 : Ref sig .tc := ⟨.hbm, 186, rfl⟩
abbrev main_c_23 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_24 : Ref sig .tc := ⟨.hbm, 193, rfl⟩
abbrev main_v143 : Ref sig .tc := ⟨.hbm, 194, rfl⟩
abbrev main_v144 : Ref sig .tc := ⟨.hbm, 195, rfl⟩
abbrev main_c_25 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_26 : Ref sig .tc := ⟨.hbm, 203, rfl⟩
abbrev main_v151 : Ref sig .tc := ⟨.hbm, 204, rfl⟩
abbrev main_v152 : Ref sig .tc := ⟨.hbm, 205, rfl⟩
abbrev main_c_27 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_28 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_29 : Ref sig .tc := ⟨.hbm, 227, rfl⟩
abbrev main_v172 : Ref sig .tc := ⟨.hbm, 228, rfl⟩
abbrev main_cst_30 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_31 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_32 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S200000 : S_.BroadcastsInDim S200000 (![] : Fin 0 → Fin S200000.rank)
  bcast_S640000_S640000x1_0 : S640000.BroadcastsInDim S640000x1 (![0] : Fin 1 → Fin S640000x1.rank)
  bcast_S9_S1x9_1 : S9.BroadcastsInDim S1x9 (![1] : Fin 1 → Fin S1x9.rank)
  bcast_S_S1x9 : S_.BroadcastsInDim S1x9 (![] : Fin 0 → Fin S1x9.rank)
  bcast_S_S200000x9 : S_.BroadcastsInDim S200000x9 (![] : Fin 0 → Fin S200000x9.rank)
  bcast_S1x9_S200000x9_0_1 : S1x9.BroadcastsInDim S200000x9 (![0, 1] : Fin 2 → Fin S200000x9.rank)
  bcast_S200000x9_S200000x9x1_0_1 : S200000x9.BroadcastsInDim S200000x9x1 (![0, 1] : Fin 2 → Fin S200000x9x1.rank)
  concatenates_S200000x9x1_S200000x9x1_S200000x9x2_d2 : Shape.Concatenates [S200000x9x1, S200000x9x1] S200000x9x2 2
  reducesTo_S200000x9x128_S200000x128_d1 : S200000x9x128.ReducesTo [1] S200000x128
  h_S_ : 0 < S_.numel
  bcast_S640000x1_S640000x128_0_1 : S640000x1.BroadcastsInDim S640000x128 (![0, 1] : Fin 2 → Fin S640000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S128 : S_.BroadcastsInDim S128 (![] : Fin 0 → Fin S128.rank)
  bcast_S_S4000 : S_.BroadcastsInDim S4000 (![] : Fin 0 → Fin S4000.rank)
  bcast_S_S4000x128 : S_.BroadcastsInDim S4000x128 (![] : Fin 0 → Fin S4000x128.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  bcast_S1_S1x1_1 : S1.BroadcastsInDim S1x1 (![1] : Fin 1 → Fin S1x1.rank)
  bcast_S1x1_S4000x1_0_1 : S1x1.BroadcastsInDim S4000x1 (![0, 1] : Fin 2 → Fin S4000x1.rank)
  scatter_S200000_S640000x1_S640000_n_0_0_1_wf : ScatterDims.WF S200000 S640000x1 S640000 [] [0] [0] 1
  gather_S9x119x128_S200000x9x2_S200000x9x128_2_01_n_n_01_2_11128_wf : GatherDims.WF S9x119x128 S200000x9x2 S200000x9x128 [2] [0, 1] [] [0, 1] [] 2 ![1, 1, 128]
  dot_S200000x128_S128x128_S200000x128_1_0_0_1_n_n_wf : DotDims.WF S200000x128 S128x128 S200000x128 [1] [0] [0] [1] [] []
  gather_S200000_S640000x1_S640000_n_0_n_n_0_1_1_wf : GatherDims.WF S200000 S640000x1 S640000 [] [0] [] [0] [] 1 ![1]
  gather_S200000x128_S640000x1_S640000x128_1_0_n_n_0_1_1128_wf : GatherDims.WF S200000x128 S640000x1 S640000x128 [1] [0] [] [0] [] 1 ![1, 128]
  scatter_S200000x128_S640000x1_S640000x128_1_0_0_1_wf : ScatterDims.WF S200000x128 S640000x1 S640000x128 [1] [0] [0] 1
  scatter_S4000_S200000x1_S200000_n_0_0_1_wf : ScatterDims.WF S4000 S200000x1 S200000 [] [0] [0] 1
  scatter_S4000x128_S200000x1_S200000x128_1_0_0_1_wf : ScatterDims.WF S4000x128 S200000x1 S200000x128 [1] [0] [0] 1
  dot_S4000x128_S128x1_S4000x1_1_0_0_1_n_n_wf : DotDims.WF S4000x128 S128x1 S4000x1 [1] [0] [0] [1] [] []

variable [Facts₀]

def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf
def gather_S9x119x128_S200000x9x2_S200000x9x128_2_01_n_n_01_2_11128 : GatherDims S9x119x128 S200000x9x2 S200000x9x128 where
  offsetDims := [2]
  collapsedSliceDims := [0, 1]
  operandBatchingDims := []
  startIndicesBatchingDims := []
  startIndexMap := [0, 1]
  indexVectorDim := 2
  sliceSizes := ![1, 1, 128]
  wf := gather_S9x119x128_S200000x9x2_S200000x9x128_2_01_n_n_01_2_11128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000_S640000x1_S640000_n_0_n_n_0_1_1 : GatherDims S200000 S640000x1 S640000 where
  offsetDims := []
  collapsedSliceDims := [0]
  operandBatchingDims := []
  startIndicesBatchingDims := []
  startIndexMap := [0]
  indexVectorDim := 1
  sliceSizes := ![1]
  wf := gather_S200000_S640000x1_S640000_n_0_n_n_0_1_1_wf
def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def scatter_S4000x128_S200000x1_S200000x128_1_0_0_1 : ScatterDims S4000x128 S200000x1 S200000x128 where
  updateWindowDims := [1]
  insertedWindowDims := [0]
  scatterDimsToOperandDims := [0]
  indexVectorDim := 1
  wf := scatter_S4000x128_S200000x1_S200000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

class Facts : Prop extends Facts₀ where

variable [Facts]
-- ==== Proof.KLayers.lean ====
/-
  The host side of the kernel's program, as functions of what each stretch of host operations reads.

  The edge list with one self-loop per node appended (srcAug, dstAug); the degree normalisation
  dinv n = (1 + #{e | dst e = n})^(-1/2); the weight dinv[src] · dinv[dst] of each augmented edge (normAug); one
  aggregation agg[n] = Σ_{e : dstAug e = n} hw[srcAug e] · normAug e (aggF); the embedding tables padded from 119
  to 128 rows with zeros (padEmb); a parameter vector as one row (row); the pooling's counts and sums per graph id.
-/
import proofs.«418650_j59313498358439_1_alg».proof.KernelIdeal

noncomputable section

namespace Cert.KernelIdeal.KL

open Idealize.ShloMosaic Cert.KernelIdeal Cert.KernelIdeal.Facts₀ Cert.KernelIdeal.Facts

variable [Cert.KernelIdeal.Facts] {F : FTy → Type} [FloatOps F]

/-- The source node of each edge: row 0 of the edge list. -/
def src (x1 : IVec S2x640000 32) : IVec S640000 32 := (shapeCast _ (extractStridedSlice S1x640000 ![0, 0] x1 slices_S2x640000_S1x640000_0_0) shapeCasts_S1x640000_S640000)
/-- The target node of each edge: row 1 of the edge list. -/
def dst (x1 : IVec S2x640000 32) : IVec S640000 32 := (shapeCast _ (extractStridedSlice S1x640000 ![1, 0] x1 slices_S2x640000_S1x640000_1_0) shapeCasts_S1x640000_S640000)
/-- Sources, then every node once (the self-loops). -/
def srcAug (x1 : IVec S2x640000 32) : IVec S840000 32 := (concatenate S840000 0 [⟨S640000, (src x1)⟩, ⟨S200000, (iotaInDim S200000 32 0)⟩] concatenates_S640000_S200000_S840000_d0)
/-- Targets, then every node once (the self-loops). -/
def dstAug (x1 : IVec S2x640000 32) : IVec S840000 32 := (concatenate S840000 0 [⟨S640000, (dst x1)⟩, ⟨S200000, (iotaInDim S200000 32 0)⟩] concatenates_S640000_S200000_S840000_d0)
/-- (1 + in-degree)^(-1/2) per node. -/
def dinv (x1 : IVec S2x640000 32) : FVec F S200000 .f32 := (Host.rsqrt (addf (broadcastInDim S200000 ![] bcast_S_S200000 (constant S_ .f32 0x3F800000#32)) (Host.scatterAdd scatter_S200000_S640000x1_S640000_n_0_0_1 (broadcastInDim S200000 ![] bcast_S_S200000 (constant S_ .f32 0x00000000#32)) (broadcastInDim S640000x1 ![0] bcast_S640000_S640000x1_0 (dst x1)) (broadcastInDim S640000 ![] bcast_S_S640000 (constant S_ .f32 0x3F800000#32)))))
/-- A negative index wraps once by the node count; the result as a column of start indices. -/
def nidx (v : IVec S840000 32) : IVec S840000x1 32 := (broadcastInDim S840000x1 ![0] bcast_S840000_S840000x1_0 (select (cmpi .slt v (broadcastInDim S840000 ![] bcast_S_S840000 (constantI S_ 32 0#32))) (addi v (broadcastInDim S840000 ![] bcast_S_S840000 (constantI S_ 32 200000#32))) v))
/-- The weight of each augmented edge: dinv at its source times dinv at its target. -/
def normAug (x1 : IVec S2x640000 32) : FVec F S840000 .f32 := (mulf (Host.gather gather_S200000_S840000x1_S840000_n_0_n_n_0_1_1 (dinv (F := F) x1) (nidx (srcAug x1))) (Host.gather gather_S200000_S840000x1_S840000_n_0_n_n_0_1_1 (dinv (F := F) x1) (nidx (dstAug x1))))
/-- One aggregation over the augmented edges: the rows of hw at the sources, each scaled by its edge's weight, added into
    the rows the targets name. -/
def aggF (hw : FVec F S200000x128 .f32) (sA dA : IVec S840000 32) (nA : FVec F S840000 .f32) : FVec F S200000x128 .f32 :=
  (Host.scatterAdd scatter_S200000x128_S840000x1_S840000x128_1_0_0_1 (broadcastInDim S200000x128 ![] bcast_S_S200000x128 (constant S_ .f32 0x00000000#32)) (broadcastInDim S840000x1 ![0] bcast_S840000_S840000x1_0 dA) (mulf (Host.gather gather_S200000x128_S840000x1_S840000x128_1_0_n_n_0_1_1128 hw (nidx sA)) (broadcastInDim S840000x128 ![0, 1] bcast_S840000x1_S840000x128_0_1 (broadcastInDim S840000x1 ![0] bcast_S840000_S840000x1_0 nA))))
/-- The embedding tables with their 119 rows padded to 128 by zeros. -/
def padEmb (x3 : FVec F S9x119x128 .f32) : FVec F S9x128x128 .f32 :=
  pad S9x128x128 ![0, 0, 0] ![0, 9, 0] ![0, 0, 0] x3 (sitofp .f32 (constantI S_ 32 0#32)) pads_S9x119x128_S9x128x128_000_090_000 h_S_
/-- A parameter vector as a one-row matrix. -/
def row (b : FVec F S128 .f32) : FVec F S1x128 .f32 := (shapeCast _ b shapeCasts_S128_S1x128)
/-- How many nodes carry each graph id. -/
def counts (x2 : IVec S200000 32) : FVec F S4000 .f32 := (Host.scatterAdd scatter_S4000_S200000x1_S200000_n_0_0_1 (broadcastInDim S4000 ![] bcast_S_S4000 (constant S_ .f32 0x00000000#32)) (broadcastInDim S200000x1 ![0] bcast_S200000_S200000x1_0 x2) (broadcastInDim S200000 ![] bcast_S_S200000 (constant S_ .f32 0x3F800000#32)))
/-- The counts as a column. -/
def countsCol (x2 : IVec S200000 32) : FVec F S4000x1 .f32 := (shapeCast _ (counts (F := F) x2) shapeCasts_S4000_S4000x1)
/-- The node rows summed per graph id. -/
def sums (h : FVec F S200000x128 .f32) (x2 : IVec S200000 32) : FVec F S4000x128 .f32 := (Host.scatterAdd scatter_S4000x128_S200000x1_S200000x128_1_0_0_1 (broadcastInDim S4000x128 ![] bcast_S_S4000x128 (constant S_ .f32 0x00000000#32)) (broadcastInDim S200000x1 ![0] bcast_S200000_S200000x1_0 x2) h)
/-- The head's bias as a one-by-one matrix. -/
def bias11 (x19 : FVec F S1 .f32) : FVec F S1x1 .f32 := (shapeCast _ x19 shapeCasts_S1_S1x1)

end Cert.KernelIdeal.KL

end
-- ==== Proof.Spec.lean ====
/-
  What each kernel region leaves in its output array, as one function of the arrays it reads, index by index, over the
  extended reals.

  `atom`: the atom encoder. A node's row is the sum over its nine features `f` of the one-hot row of `x[n, f]` (over
  128 lanes) times the padded table `f`: `Σ_f Σ_v [v = x[n, f]] · ep[f, v, h]`.
  `mm`: a dense layer `Σ_k h[n, k] · w[k, j]`.
  `bnrelu`: bias, batch normalisation with stored statistics, rectifier:
  `max (g[j] · ((agg[n, j] + b[j]) − μ[j]) · (var[j] + ε)^(-1/2) + β[j]) 0`, the parameters one-row matrices.
  `bias`: `agg[n, j] + b[j]`.
  `pool`: the mean over a graph's nodes, then the head: `Σ_k (s[g, k] / max cnt[g] 1) · wh[k, 0] + bh`.
-/
import Idealize.ShloMosaic.Lib.ValueIdx

noncomputable section

open scoped BigOperators

namespace Cert.Spec

open Idealize.ShloMosaic Idealize.ShloMosaic.ValueIdx

/-- The atom encoder's node rows: per feature the one-hot row of the feature's value times the feature's padded table. -/
def atom (x : IVec ⟨2, ![200000, 9]⟩ 32) (ep : FVec Ideal ⟨3, ![9, 128, 128]⟩ .f32) : FVec Ideal ⟨2, ![200000, 128]⟩ .f32 :=
  fun i => ∑ f : Fin 9, ∑ v : Fin 128,
    (if BitVec.ofNat 32 v.val = x (ix2 (i 0) f) then (1 : EReal) else 0) * ep (ix3 f v (i 1))

/-- A dense layer: rows times a square weight matrix. -/
def mm (h : FVec Ideal ⟨2, ![200000, 128]⟩ .f32) (w : FVec Ideal ⟨2, ![128, 128]⟩ .f32) : FVec Ideal ⟨2, ![200000, 128]⟩ .f32 :=
  fun i => ∑ k : Fin 128, h (ix2 (i 0) k) * w (ix2 k (i 1))

/-- Bias, batch normalisation with the stored mean and variance, and the rectifier; the parameters are one-row matrices. -/
def bnrelu (agg : FVec Ideal ⟨2, ![200000, 128]⟩ .f32) (b g be mu var : FVec Ideal ⟨2, ![1, 128]⟩ .f32) :
    FVec Ideal ⟨2, ![200000, 128]⟩ .f32 :=
  fun i => max (g (ix2 0 (i 1)) * (agg i + b (ix2 0 (i 1)) - mu (ix2 0 (i 1)))
      * (rsqrt (F := Ideal) (addf var (broadcast ⟨2, ![1, 128]⟩ (Scalar.ofBits .f32 0x3727C5AC#32)))) (ix2 0 (i 1)) + be (ix2 0 (i 1)))
    (Scalar.ofBits (F := Ideal) .f32 0x00000000#32)

/-- The last layer's bias. -/
def bias (agg : FVec Ideal ⟨2, ![200000, 128]⟩ .f32) (b : FVec Ideal ⟨2, ![1, 128]⟩ .f32) : FVec Ideal ⟨2, ![200000, 128]⟩ .f32 :=
  fun i => agg i + b (ix2 0 (i 1))

/-- Mean pooling by graph (sums over counts, the count at least one) and the linear head. -/
def pool (s : FVec Ideal ⟨2, ![4000, 128]⟩ .f32) (cnt : FVec Ideal ⟨2, ![4000, 1]⟩ .f32) (wh : FVec Ideal ⟨2, ![128, 1]⟩ .f32)
    (bh : FVec Ideal ⟨2, ![1, 1]⟩ .f32) : FVec Ideal ⟨2, ![4000, 1]⟩ .f32 :=
  fun i => (∑ k : Fin 128, Ideal.div (s (ix2 (i 0) k)) (max (cnt (ix2 (i 0) 0)) (Scalar.ofBits (F := Ideal) .f32 0x3F800000#32)) * wh (ix2 k (i 1)))
    + bh (ix2 0 (i 1))

end Cert.Spec

end
-- ==== Proof.KOut.lean ====
/-
  The kernel program's value as a composition: one graph-convolution layer is a dense layer followed by the aggregation
  over the self-loop-augmented edge list; the network is the atom encoder, two layers each followed by bias, batch
  normalisation and the rectifier, a third followed by its bias, then mean pooling by graph and the linear head.
-/
import proofs.«418650_j59313498358439_1_alg».proof.Proof.KLayers
import proofs.«418650_j59313498358439_1_alg».proof.Proof.Spec

noncomputable section

namespace Cert.KernelIdeal.KO

open Idealize.ShloMosaic Cert.KernelIdeal

variable [Cert.KernelIdeal.Facts]

/-- One graph convolution before its bias: `h · w`, then the aggregation over the augmented edges of `x1`. -/
def layer (h : FVec Ideal S200000x128 .f32) (w : FVec Ideal S128x128 .f32) (x1 : IVec S2x640000 32) : FVec Ideal S200000x128 .f32 :=
  KL.aggF (Cert.Spec.mm h w) (KL.srcAug x1) (KL.dstAug x1) (KL.normAug x1)

/-- The first hidden state: the atom encoder, a layer, then bias, batch normalisation and the rectifier. -/
def h1 (x0 : IVec S200000x9 32) (x1 : IVec S2x640000 32) (x3 : FVec Ideal S9x119x128 .f32) (x4 : FVec Ideal S128x128 .f32)
    (x5 x6 x7 x8 x9 : FVec Ideal S128 .f32) : FVec Ideal S200000x128 .f32 :=
  Cert.Spec.bnrelu (layer (Cert.Spec.atom x0 (KL.padEmb x3)) x4 x1) (KL.row x5) (KL.row x6) (KL.row x7) (KL.row x8) (KL.row x9)

/-- A further hidden state from the one before it. -/
def h2 (h : FVec Ideal S200000x128 .f32) (x1 : IVec S2x640000 32) (x10 : FVec Ideal S128x128 .f32)
    (x11 x12 x13 x14 x15 : FVec Ideal S128 .f32) : FVec Ideal S200000x128 .f32 :=
  Cert.Spec.bnrelu (layer h x10 x1) (KL.row x11) (KL.row x12) (KL.row x13) (KL.row x14) (KL.row x15)

/-- The result from the second hidden state: the last layer with its bias, mean pooling by graph, the head. -/
def out (h : FVec Ideal S200000x128 .f32) (x1 : IVec S2x640000 32) (x2 : IVec S200000 32) (x16 : FVec Ideal S128x128 .f32)
    (x17 : FVec Ideal S128 .f32) (x18 : FVec Ideal S128x1 .f32) (x19 : FVec Ideal S1 .f32) : FVec Ideal S4000x1 .f32 :=
  Cert.Spec.pool (KL.sums (Cert.Spec.bias (layer h x16 x1) (KL.row x17)) x2) (KL.countsCol x2) x18 (KL.bias11 x19)

end Cert.KernelIdeal.KO

end
-- ==== Proof.RegAtom.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

/-! # Region 0, the atom encoder: its output array is `Spec.atom` of the two arrays it reads

The body adds, feature by feature, the product of a one-hot block of rows (lane `v` of row `p` is one exactly when
`v` is the value of the row's feature) with the feature's table, each product into a zero accumulator. Read at an
entry `(p, h)` that is `0 + D₀ + D₁ + … + D₈` with `D_f = Σ_v [v = x[p, f]] · ep[f, v, h]`, the sum over the nine
features that the specification states. Each of the twenty grid points writes the block of 10000 rows it was handed,
so the blocks tile the array. -/

/-! ## The one-hot entry -/

/-- The widened compare bit, converted: one where the two words agree, zero elsewhere. -/
theorem atom_bit (a b : BitVec 32) :
    (FloatOps.sitofp (F := Ideal) .f32 ((IntOp.cmpi .eq a b).setWidth 32) : EReal) = if a = b then (1 : EReal) else 0 := by
  show (((((IntOp.cmpi .eq a b).setWidth 32).toInt : ℝ)) : EReal) = _
  rw [toInt_setWidth_bit]
  by_cases h : a = b
  · subst h; simp [IntOp.cmpi]
  · simp [IntOp.cmpi, h]

/-- A column laid along 128 lanes reads its row's entry. -/
theorem atom_col_apply (y : IVec S10000x1 32) (hb : S10000x1.Broadcasts S10000x128) (p : Fin 10000) (v : Fin 128) :
    broadcastTo S10000x128 y hb (ix2 p v) = y (ix2 p (0 : Fin 1)) :=
  broadcastTo_apply y hb _ _ (fun a => by
    match a with
    | ⟨0, _⟩ => rfl
    | ⟨1, _⟩ => rfl)

/-- Feature column `o` of a block of features, laid along the lanes. -/
theorem atom_featcol_apply (x0 : IVec S10000x9 32) (o : Nat) (hs : S10000x9.Slices ![0, o] S10000x1)
    (h1 : S10000x1.ShapeCasts S10000) (h2 : S10000.ShapeCasts S10000x1) (hb : S10000x1.Broadcasts S10000x128)
    (p : Fin 10000) (v : Fin 128) (f : Fin 9) (hf : f.val = o) :
    broadcastTo S10000x128 (shapeCast S10000x1 (shapeCast S10000 (extractStridedSlice S10000x1 ![0, o] x0 hs) h1) h2) hb (ix2 p v)
      = x0 (ix2 p f) := by
  rw [atom_col_apply, shapeCast_shapeCast]
  exact slice2_axis1_apply o x0 hs p (0 : Fin 1) f (by rw [hf]; rfl)

/-- THE ONE-HOT ENTRY: lane `v` of row `p` is one when `v` is the row's feature value, zero otherwise. -/
theorem atom_hot_apply (x0 : IVec S10000x9 32) (o : Nat) (hs : S10000x9.Slices ![0, o] S10000x1)
    (hi : S10000x128.Iotas .tc 32 [1])
    (h1 : S10000x1.ShapeCasts S10000) (h2 : S10000.ShapeCasts S10000x1) (hb : S10000x1.Broadcasts S10000x128) (hlt : 1 < 32)
    (p : Fin 10000) (v : Fin 128) (f : Fin 9) (hf : f.val = o) :
    (sitofp .f32 (extui 32 (cmpi .eq (iota .tc S10000x128 32 [1] hi)
        (broadcastTo S10000x128 (shapeCast S10000x1 (shapeCast S10000 (extractStridedSlice S10000x1 ![0, o] x0 hs) h1) h2) hb)) hlt)
        : FVec Ideal S10000x128 .f32) (ix2 p v)
      = if BitVec.ofNat 32 v.val = x0 (ix2 p f) then (1 : EReal) else 0 := by
  rw [sitofp_apply, extui_apply]
  show FloatOps.sitofp (F := Ideal) .f32 ((IntOp.cmpi .eq (iota .tc S10000x128 32 [1] hi (ix2 p v)) _).setWidth 32) = _
  rw [atom_featcol_apply x0 o hs h1 h2 hb p v f hf, iota_single_apply]
  exact atom_bit _ _

/-! ## The product of a block of rows with one table -/

/-- The four coordinates of the product's operand indices: the row and the column pass through, the contracted lane is the
    sum's index. -/
theorem atom_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem atom_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem atom_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem atom_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Rows times one table (a `[1,128,128]` slab viewed `[128,128]`) into a zero accumulator, at `(p, h)`: the sum over
    the 128 lanes of the row's entry times the table's. -/
theorem atom_mm_apply (lhs : FVec Ideal S10000x128 .f32) (w : Vec Ideal S1x128x128 .f32) (hc : S1x128x128.ShapeCasts S128x128)
    (p : Fin 10000) (h : Fin 128) :
    matmul dot_S10000x128_S128x128_S10000x128_1_0_0_1_n_n none lhs (shapeCast S128x128 w hc : FVec Ideal S128x128 .f32) (constant S10000x128 .f32 0x00000000#32) (ix2 p h)
      = ∑ k : Fin 128, lhs (ix2 p k) * w (ix3 (0 : Fin 1) k h) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p h) ((ValueIdx.contrEquiv1 dot_S10000x128_S128x128_S10000x128_1_0_0_1_n_n 128 rfl rfl).symm k) = ix2 p k := funext fun a => Fin.ext (by
    match a with
    | ⟨0, _⟩ => exact atom_lhs_0 _ _
    | ⟨1, _⟩ => exact (atom_lhs_1 _ _).trans hk)
  have er : dot_S10000x128_S128x128_S10000x128_1_0_0_1_n_n.rhsIdx (ix2 p h) ((ValueIdx.contrEquiv1 dot_S10000x128_S128x128_S10000x128_1_0_0_1_n_n 128 rfl rfl).symm k) = ix2 k h := funext fun a => Fin.ext (by
    match a with
    | ⟨0, _⟩ => exact (atom_rhs_0 _ _).trans hk
    | ⟨1, _⟩ => exact atom_rhs_1 _ _)
  rw [el, er, shapeCast_1ab_ab_apply]

/-- One table of the nine, loaded as a `[1,128,128]` slab from slab offset `o`, read at `(0, k, h)`. -/
theorem atom_table_apply (x1 : Vec Ideal S9x128x128 .f32) (o : Nat) (inb : ∀ a, (![o, 0, 0] : Fin 3 → Nat) a + S1x128x128.size a ≤ S9x128x128.size a)
    (k h : Fin 128) (f : Fin 9) (hf : f.val = o) :
    View.ld x1 (Rect.unit (s := S9x128x128) ![o, 0, 0] S1x128x128.size inb) (ix3 (0 : Fin 1) k h) = x1 (ix3 f k h) := by
  show x1 ((Rect.unit (s := S9x128x128) ![o, 0, 0] S1x128x128.size inb).idx (ix3 (0 : Fin 1) k h)) = _
  refine congrArg x1 (funext fun a => Fin.ext ?_)
  match a with
  | ⟨0, _⟩ => show o + 1 * 0 = f.val; omega
  | ⟨1, _⟩ => show 0 + 1 * k.val = k.val; omega
  | ⟨2, _⟩ => show 0 + 1 * h.val = h.val; omega

/-! ## The body's arithmetic at an entry -/

/-- Feature `f`'s share of the entry `(p, h)`: the one-hot row of the feature's value against table `f`. -/
def atomFeat {n : Nat} (x : IVec ⟨2, ![n, 9]⟩ 32) (ep : Vec Ideal S9x128x128 .f32) (p : Fin n) (h : Fin 128) (f : Fin 9) : EReal :=
  ∑ v : Fin 128, (if BitVec.ofNat 32 v.val = x (ix2 p f) then (1 : EReal) else 0) * ep (ix3 f v h)

/-- A one-hot block of rows times the table loaded from slab `o`, into a zero accumulator, is the feature's share. -/
theorem atom_share (x0 : IVec S10000x9 32) (x1 : Vec Ideal S9x128x128 .f32) (lhs : FVec Ideal S10000x128 .f32)
    (o : Nat) (inb : ∀ a, (![o, 0, 0] : Fin 3 → Nat) a + S1x128x128.size a ≤ S9x128x128.size a) (hc : S1x128x128.ShapeCasts S128x128)
    (p : Fin 10000) (h : Fin 128) (f : Fin 9) (hf : f.val = o)
    (hl : ∀ k : Fin 128, lhs (ix2 p k) = if BitVec.ofNat 32 k.val = x0 (ix2 p f) then (1 : EReal) else 0) :
    matmul dot_S10000x128_S128x128_S10000x128_1_0_0_1_n_n none lhs
        (shapeCast S128x128 (View.ld x1 (Rect.unit (s := S9x128x128) ![o, 0, 0] S1x128x128.size inb)) hc : FVec Ideal S128x128 .f32)
        (constant S10000x128 .f32 0x00000000#32) (ix2 p h)
      = atomFeat x0 x1 p h f := by
  rw [atom_mm_apply]
  unfold atomFeat
  refine Finset.sum_congr rfl fun k _ => ?_
  rw [hl k, atom_table_apply x1 o inb k h f hf]

/-- The one-hot blocks of features 3 and 7, which the body carries across its parts. -/
theorem atom_pay3_apply (x0 : Vec Ideal S10000x9 .i32) (p : Fin 10000) (v : Fin 128) :
    k0_pay3 (F := Ideal) x0 (ix2 p v) = if BitVec.ofNat 32 v.val = x0 (ix2 p (3 : Fin 9)) then (1 : EReal) else 0 := by
  unfold k0_pay3
  exact atom_hot_apply x0 3 _ _ _ _ _ _ p v 3 rfl

theorem atom_pay5_apply (x0 : Vec Ideal S10000x9 .i32) (p : Fin 10000) (v : Fin 128) :
    k0_pay5 (F := Ideal) x0 (iota .tc S10000x128 32 [1] iota_S10000x128_d1_w32) (ix2 p v)
      = if BitVec.ofNat 32 v.val = x0 (ix2 p (7 : Fin 9)) then (1 : EReal) else 0 := by
  unfold k0_pay5
  exact atom_hot_apply x0 7 _ _ _ _ _ _ p v 7 rfl

/-- The body's three parts at an entry: shares 0 to 2 onto the zero splat, shares 3 to 6 onto that, shares 7 and 8 onto that. -/
theorem atom_pay2_apply (x0 : Vec Ideal S10000x9 .i32) (x1 : Vec Ideal S9x128x128 .f32) (p : Fin 10000) (h : Fin 128) :
    k0_pay2 (F := Ideal) x0 (View.ld x1 r0_1) (View.ld x1 r0_2) (View.ld x1 r0_3) (ix2 p h)
      = atomFeat x0 x1 p h 0 + atomFeat x0 x1 p h 1 + atomFeat x0 x1 p h 2 := by
  unfold k0_pay2
  dsimp only
  rw [addf_apply, addf_apply, addf_apply, broadcast_apply,
    atom_share x0 x1 _ 0 _ _ p h 0 rfl (fun k => atom_hot_apply x0 0 _ _ _ _ _ _ p k 0 rfl),
    atom_share x0 x1 _ 1 _ _ p h 1 rfl (fun k => atom_hot_apply x0 1 _ _ _ _ _ _ p k 1 rfl),
    atom_share x0 x1 _ 2 _ _ p h 2 rfl (fun k => atom_hot_apply x0 2 _ _ _ _ _ _ p k 2 rfl)]
  show Ideal.ofBits .f32 0x00000000#32 + _ + _ + _ = _
  rw [Ideal.ofBits_zero_f32, zero_add]

theorem atom_pay4_apply (x0 : Vec Ideal S10000x9 .i32) (x1 : Vec Ideal S9x128x128 .f32) (v35 v42 : FVec Ideal S10000x128 .f32)
    (p : Fin 10000) (h : Fin 128)
    (hl : ∀ k : Fin 128, v42 (ix2 p k) = if BitVec.ofNat 32 k.val = x0 (ix2 p (3 : Fin 9)) then (1 : EReal) else 0) :
    k0_pay4 (F := Ideal) x0 (iota .tc S10000x128 32 [1] iota_S10000x128_d1_w32) v35 v42
        (View.ld x1 r0_4) (View.ld x1 r0_5) (View.ld x1 r0_6) (View.ld x1 r0_7) (ix2 p h)
      = v35 (ix2 p h) + atomFeat x0 x1 p h 3 + atomFeat x0 x1 p h 4 + atomFeat x0 x1 p h 5 + atomFeat x0 x1 p h 6 := by
  unfold k0_pay4
  dsimp only
  rw [addf_apply, addf_apply, addf_apply, addf_apply,
    atom_share x0 x1 v42 3 _ _ p h 3 rfl hl,
    atom_share x0 x1 _ 4 _ _ p h 4 rfl (fun k => atom_hot_apply x0 4 _ _ _ _ _ _ p k 4 rfl),
    atom_share x0 x1 _ 5 _ _ p h 5 rfl (fun k => atom_hot_apply x0 5 _ _ _ _ _ _ p k 5 rfl),
    atom_share x0 x1 _ 6 _ _ p h 6 rfl (fun k => atom_hot_apply x0 6 _ _ _ _ _ _ p k 6 rfl)]

theorem atom_pay1_apply (x0 : Vec Ideal S10000x9 .i32) (x1 : Vec Ideal S9x128x128 .f32) (v79 v86 : FVec Ideal S10000x128 .f32)
    (p : Fin 10000) (h : Fin 128)
    (hl : ∀ k : Fin 128, v86 (ix2 p k) = if BitVec.ofNat 32 k.val = x0 (ix2 p (7 : Fin 9)) then (1 : EReal) else 0) :
    k0_pay1 (F := Ideal) x0 (iota .tc S10000x128 32 [1] iota_S10000x128_d1_w32) v79 v86 (View.ld x1 r0_8) (View.ld x1 r0_9) (ix2 p h)
      = v79 (ix2 p h) + atomFeat x0 x1 p h 7 + atomFeat x0 x1 p h 8 := by
  unfold k0_pay1
  dsimp only
  rw [addf_apply, addf_apply,
    atom_share x0 x1 v86 7 _ _ p h 7 rfl hl,
    atom_share x0 x1 _ 8 _ _ p h 8 rfl (fun k => atom_hot_apply x0 8 _ _ _ _ _ _ p k 8 rfl)]

/-- THE BODY AT AN ENTRY: the nine shares added in order are the sum over the nine features. -/
theorem atom_body_apply (x0 : Vec Ideal S10000x9 .i32) (x1 : Vec Ideal S9x128x128 .f32) (p : Fin 10000) (h : Fin 128) :
    k0_pay1 (F := Ideal) x0 (iota .tc S10000x128 32 [1] iota_S10000x128_d1_w32)
        (k0_pay4 x0 (iota .tc S10000x128 32 [1] iota_S10000x128_d1_w32)
          (k0_pay2 x0 (View.ld x1 r0_1) (View.ld x1 r0_2) (View.ld x1 r0_3)) (k0_pay3 x0)
          (View.ld x1 r0_4) (View.ld x1 r0_5) (View.ld x1 r0_6) (View.ld x1 r0_7))
        (k0_pay5 x0 (iota .tc S10000x128 32 [1] iota_S10000x128_d1_w32)) (View.ld x1 r0_8) (View.ld x1 r0_9) (ix2 p h)
      = ∑ f : Fin 9, atomFeat x0 x1 p h f := by
  rw [atom_pay1_apply x0 x1 _ _ p h (fun k => atom_pay5_apply x0 p k),
    atom_pay4_apply x0 x1 _ _ p h (fun k => atom_pay3_apply x0 p k), atom_pay2_apply,
    Fin.sum_univ_castSucc, Fin.sum_univ_eight]
  rfl

/-- The specification at `(r, h)` is the same sum of shares, over the whole arrays. -/
theorem atom_spec_apply (X : IVec ⟨2, ![200000, 9]⟩ 32) (Ep : FVec Ideal ⟨3, ![9, 128, 128]⟩ .f32) (r : Fin 200000) (h : Fin 128) :
    Cert.Spec.atom X Ep (ix2 r h) = ∑ f : Fin 9, atomFeat X Ep r h f := rfl

/-! ## From blocks to the array -/

theorem atom_hz : (![0, 0] : Fin 2 → Nat) = fun _ => 0 := funext fun a => by fin_cases a <;> rfl

/-- The printed index maps over the twenty points: the feature rows and the output rows move with the point, the tables
    stay. -/
theorem atom_idx : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `p` of point `t`'s block is row `10000 t + p` of the array. -/
def atomRow (t : Fin cfg0.N) (p : Fin 10000) : Fin 200000 :=
  ⟨t.val * 10000 + p.val, by have h1 := t.isLt; have hN : cfg0.N = 20 := N_0; have := p.isLt; omega⟩

variable (V : (c : Dev nD) → (b : Ref sig .tc) → Buf (Elt Ideal) ((c : Thread nD τ).loc b))

/-- The output block's entry `(p, h)` at point `t` is the array's `(10000 t + p, h)`; so is the feature block's row, and the
    table block is the whole table array. -/
theorem atom_oemb (t : Fin cfg0.N) (p : Fin 10000) (h : Fin 128) :
    (((cfg0.win 2).blk t).view.emb (ix2 p h) : S200000x128.Idx) = ix2 (atomRow t p) h := by
  obtain ⟨-, -, -, -, -, e0, e1⟩ := atom_idx t
  funext a; apply Fin.ext
  match a with
  | ⟨0, _⟩ => show win0_2.index t (0 : Fin 2) * 10000 + 1 * p.val = t.val * 10000 + p.val; omega
  | ⟨1, _⟩ => show win0_2.index t (1 : Fin 2) * 128 + 1 * h.val = h.val; omega

theorem atom_xblk (c : Dev nD) (t : Fin cfg0.N) (p : Fin 10000) (f : Fin 9) :
    (iblk0 V c 0 t : Vec Ideal S10000x9 .i32) (ix2 p f) = (V c (Pipeline.arrRef spec0 0) : IVec S200000x9 32) (ix2 (atomRow t p) f) := by
  obtain ⟨e0, e1, -⟩ := atom_idx t
  show V c (Pipeline.arrRef spec0 0) (((cfg0.win 0).blk t).view.emb (ix2 p f)) = _
  refine congrArg (V c (Pipeline.arrRef spec0 0)) (funext fun a => Fin.ext ?_)
  match a with
  | ⟨0, _⟩ => show win0_0.index t (0 : Fin 2) * 10000 + 1 * p.val = t.val * 10000 + p.val; omega
  | ⟨1, _⟩ => show win0_0.index t (1 : Fin 2) * 9 + 1 * f.val = f.val; omega

theorem atom_tblk (c : Dev nD) (t : Fin cfg0.N) (f : Fin 9) (k h : Fin 128) :
    (iblk0 V c 1 t : Vec Ideal S9x128x128 .f32) (ix3 f k h) = (V c (Pipeline.arrRef spec0 1) : Vec Ideal S9x128x128 .f32) (ix3 f k h) := by
  obtain ⟨-, -, e0, e1, e2, -⟩ := atom_idx t
  show V c (Pipeline.arrRef spec0 1) (((cfg0.win 1).blk t).view.emb (ix3 f k h)) = _
  refine congrArg (V c (Pipeline.arrRef spec0 1)) (funext fun a => Fin.ext ?_)
  match a with
  | ⟨0, _⟩ => show win0_1.index t (0 : Fin 3) * 9 + 1 * f.val = f.val; omega
  | ⟨1, _⟩ => show win0_1.index t (1 : Fin 3) * 128 + 1 * k.val = k.val; omega
  | ⟨2, _⟩ => show win0_1.index t (2 : Fin 3) * 128 + 1 * h.val = h.val; omega

/-- WHAT POINT `t` WRITES BACK is block `t` of the specification of the arrays as the region found them. -/
theorem atom_flushed (c : Dev nD) (t : Fin cfg0.N) :
    (dat0 (F := Ideal) V c).flushed 2 t = ((cfg0.win 2).blk t).view.read (Elt Ideal)
      (Cert.Spec.atom (V c (Pipeline.arrRef spec0 0)) (V c (Pipeline.arrRef spec0 1))) := by
  show (cfg0.win 2).cut (grid0.coords t) ((dat0 V c).after 2 t) = _
  rw [after0_2]
  unfold out0_2
  rw [View.canon_unit_zero atom_hz]
  simp only [View.ld_unit_zero (S := S10000x9) atom_hz]
  funext j
  obtain ⟨p, h, rfl⟩ : ∃ (p : Fin 10000) (h : Fin 128), j = ix2 p h := ⟨j 0, j 1, eq_ix2 j⟩
  show _ = Cert.Spec.atom (V c (Pipeline.arrRef spec0 0)) (V c (Pipeline.arrRef spec0 1)) (((cfg0.win 2).blk t).view.emb (ix2 p h))
  rw [atom_oemb, atom_spec_apply]
  refine (atom_body_apply (iblk0 V c 0 t) (iblk0 V c 1 t) p h).trans ?_
  refine Finset.sum_congr rfl fun f _ => ?_
  unfold atomFeat
  refine Finset.sum_congr rfl fun v _ => ?_
  rw [atom_xblk V c t p f, atom_tblk V c t f v h]

/-- An index of the array is in point `t`'s block iff each coordinate is in the block's range on its axis. -/
theorem atom_mem_blk (t : Fin cfg0.N) (i : S200000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every row is in the block of the point `row / 10000`. -/
theorem atom_cover (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  have hN : cfg0.N = 20 := N_0
  refine ⟨⟨(i 0).val / 10000, by omega⟩, flush0_2 _, ?_⟩
  rw [atom_mem_blk]
  obtain ⟨-, -, -, -, -, e0, e1⟩ := atom_idx ⟨(i 0).val / 10000, by omega⟩
  intro a
  match a with
  | ⟨0, _⟩ => show win0_2.index _ (0 : Fin 2) * 10000 ≤ (i 0).val ∧ (i 0).val < win0_2.index _ (0 : Fin 2) * 10000 + 10000; rw [e0]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e1]; omega

/-- REGION 0, the atom encoder, from ANY entry contents `V`: after its twenty grid points the output array holds
    `Spec.atom` of the feature array and the padded tables as the region found them. -/
theorem atom_value (c : Dev nD) :
    (dat0 (F := Ideal) V c).arrAt 2 cfg0.N = Cert.Spec.atom (V c (Pipeline.arrRef spec0 0)) (V c (Pipeline.arrRef spec0 1)) := by
  exact (dat0 (F := Ideal) V c).arrAt_eq_of_cover 2 _ (fun t _ => atom_flushed V c t) atom_cover

end Cert.KernelIdeal.Gen

end
-- ==== Proof.RegMM1.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's product at an entry -/

/-- The product's left operand index keeps the output's row. -/
theorem mm_lhs_row_r1 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Its column is the contracted coordinate. -/
theorem mm_lhs_col_r1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted coordinate. -/
theorem mm_rhs_row_r1 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Its column is the output's column. -/
theorem mm_rhs_col_r1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at entry (p, q) of a block: row p of the loaded rows times column q of the weights. -/
theorem mm_pay_apply_r1 (x0 : FVec Ideal S10000x128 .f32) (x1 : FVec Ideal S128x128 .f32) (p : Fin 10000) (q : Fin 128) :
    k1_pay1 (F := Ideal) x0 x1 (ix2 p q) = ∑ k : Fin 128, x0 (ix2 p k) * x1 (ix2 k q) := by
  unfold k1_pay1
  refine (Ideal.matmul_constant_zero_apply dot_S10000x128_S128x128_S10000x128_1_0_0_1_n_n none _ x1 (ix2 p q)).trans ?_
  rw [shapeCast_self, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm_lhs_row_r1 _ _
    | ⟨1, _⟩ => exact (mm_lhs_col_r1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm_rhs_row_r1 _ _).trans hk
    | ⟨1, _⟩ => exact mm_rhs_col_r1 _ _)
  rw [el, er]

/-! ## From the blocks to the array -/

theorem mm_zero_offsets_r1 : (![0, 0] : Fin 2 → Nat) = fun _ => 0 := funext fun a => by fin_cases a <;> rfl

/-- Where each window's block sits at a grid point, decided over the grid: the row windows' block index is the point
    on the row axis and zero on the lane axis; the weights' window is the whole matrix. -/
theorem mm_idx_facts_r1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the rows' block at point `t` is the array's entry 10000·t rows further down. -/
theorem mm_rows_blk_r1 (c : Dev nD) (t : Fin cfg1.N) (p : Fin 10000) (k : Fin 128) (i : S200000x128.Idx)
    (h0 : (i 0).val = t.val * 10000 + p.val) (h1 : (i 1).val = k.val) :
    (iblk1 V c 0 t : Vec Ideal S10000x128 .f32) (ix2 p k) = (V c (Pipeline.arrRef spec1 0) : S200000x128.Idx → EReal) i := by
  obtain ⟨e0, e1, -⟩ := mm_idx_facts_r1 t
  show V c (Pipeline.arrRef spec1 0) (((cfg1.win 0).blk t).view.emb (ix2 p k)) = V c (Pipeline.arrRef spec1 0) i
  refine congrArg _ (funext fun a => Fin.ext ?_)
  match a with
  | ⟨0, _⟩ => show win1_0.index t (0 : Fin 2) * 10000 + 1 * p.val = (i 0).val; omega
  | ⟨1, _⟩ => show win1_0.index t (1 : Fin 2) * 128 + 1 * k.val = (i 1).val; omega

/-- The weights' block at any point is the weight matrix. -/
theorem mm_weights_blk_r1 (c : Dev nD) (t : Fin cfg1.N) (k q : Fin 128) :
    (iblk1 V c 1 t : Vec Ideal S128x128 .f32) (ix2 k q) = (V c (Pipeline.arrRef spec1 1) : S128x128.Idx → EReal) (ix2 k q) := by
  obtain ⟨-, -, e2, e3, -⟩ := mm_idx_facts_r1 t
  show V c (Pipeline.arrRef spec1 1) (((cfg1.win 1).blk t).view.emb (ix2 k q)) = V c (Pipeline.arrRef spec1 1) (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The body's stored value at entry (p, q) of point `t`'s block is the product's entry at the array index `i` that
    sits 10000·t rows further down. -/
theorem mm_block_entry_r1 (c : Dev nD) (t : Fin cfg1.N) (p : Fin 10000) (q : Fin 128) (i : S200000x128.Idx)
    (h0 : (i 0).val = t.val * 10000 + p.val) (h1 : (i 1).val = q.val) :
    k1_pay1 (F := Ideal) (iblk1 V c 0 t) (iblk1 V c 1 t) (ix2 p q)
      = Cert.Spec.mm (V c (Pipeline.arrRef spec1 0)) (V c (Pipeline.arrRef spec1 1)) i := by
  refine (mm_pay_apply_r1 (iblk1 V c 0 t) (iblk1 V c 1 t) p q).trans ?_
  unfold Cert.Spec.mm
  refine Finset.sum_congr rfl fun k _ => ?_
  have hq : (ix2 k q : S128x128.Idx) = ix2 k (i 1) := congrArg (ix2 k) (Fin.ext h1.symm : q = i 1)
  exact congrArg₂ (· * ·) (mm_rows_blk_r1 V c t p k (ix2 (i 0) k : S200000x128.Idx) h0 rfl)
    ((mm_weights_blk_r1 V c t k q).trans (congrArg _ hq))

/-- WHAT POINT `t` WRITES BACK is block `t` of the product of the two arrays as the region finds them. -/
theorem mm_flushed_eq_r1 (c : Dev nD) (t : Fin cfg1.N) :
    (dat1 (F := Ideal) V c).flushed 2 t = ((cfg1.win 2).blk t).view.read (Elt Ideal) (Cert.Spec.mm (V c (Pipeline.arrRef spec1 0)) (V c (Pipeline.arrRef spec1 1))) := by
  show (cfg1.win 2).cut (grid1.coords t) ((dat1 V c).after 2 t) = _
  rw [after1_2]
  unfold out1_2
  rw [View.canon_unit_zero mm_zero_offsets_r1]
  simp only [View.ld_unit_zero (S := S10000x128) mm_zero_offsets_r1, View.ld_unit_zero (S := S128x128) mm_zero_offsets_r1]
  obtain ⟨-, -, -, -, e4, e5⟩ := mm_idx_facts_r1 t
  funext j
  obtain ⟨p, q, rfl⟩ : ∃ (p : Fin 10000) (q : Fin 128), j = ix2 p q := ⟨j 0, j 1, eq_ix2 j⟩
  exact mm_block_entry_r1 V c t p q _
    (by show win1_2.index t (0 : Fin 2) * 10000 + 1 * p.val = _; omega)
    (by show win1_2.index t (1 : Fin 2) * 128 + 1 * q.val = _; omega)

/-- An index of the array is in point `t`'s block iff each coordinate is in the block's range on its axis. -/
theorem mm_mem_blk_r1 (t : Fin cfg1.N) (i : S200000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- The blocks cover the array: row `r` lies in the block of point `r / 10000`. -/
theorem mm_cover_r1 (i : S200000x128.Idx) :
    ∃ t : Fin cfg1.N, (cfg1.win 2).flush t = true ∧ i ∈ ((cfg1.win 2).blk t).view.set := by
  have hi0 : (i 0).val < 200000 := (i 0).isLt
  have hi1 : (i 1).val < 128 := (i 1).isLt
  have hN : grid1.N = 20 := N_1
  obtain ⟨t, ht⟩ : ∃ t : Fin cfg1.N, t.val = (i 0).val / 10000 := ⟨⟨(i 0).val / 10000, by show _ < grid1.N; rw [hN]; omega⟩, rfl⟩
  obtain ⟨-, -, -, -, e4, e5⟩ := mm_idx_facts_r1 t
  refine ⟨t, flush1_2 t, ?_⟩
  rw [mm_mem_blk_r1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- REGION 1, a dense layer, from ANY entry contents `V`: the output array holds `Spec.mm` of the two input arrays. -/
theorem mm_value1 (c : Dev nD) :
    (dat1 (F := Ideal) V c).arrAt 2 cfg1.N = Cert.Spec.mm (V c (Pipeline.arrRef spec1 0)) (V c (Pipeline.arrRef spec1 1)) :=
  (dat1 (F := Ideal) V c).arrAt_eq_of_cover 2 _ (fun t _ => mm_flushed_eq_r1 V c t) mm_cover_r1

end Cert.KernelIdeal.Gen

end
-- ==== Proof.RegBN2.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

/-- The body's value at row `p`, lane `q` of its block: the one-row parameters are read at lane `q` of their row, the
    reciprocal square root stays the vector operation on `var + ε`, read at lane `q`. -/
theorem bn2_pay_apply (agg : Vec Ideal S10000x128 .f32) (b g mu var be : Vec Ideal S1x128 .f32) (p : Fin 10000) (q : Fin 128) :
    k2_pay1 (F := Ideal) agg b g mu var be (ix2 p q)
      = max (g (ix2 0 q) * (agg (ix2 p q) + b (ix2 0 q) - mu (ix2 0 q))
          * (rsqrt (F := Ideal) (addf var (broadcast ⟨2, ![1, 128]⟩ (Scalar.ofBits .f32 0x3727C5AC#32)))) (ix2 0 q) + be (ix2 0 q))
        (Scalar.ofBits (F := Ideal) .f32 0x00000000#32) := by
  unfold k2_pay1
  simp only [shapeCast_self]
  simp only [maximumf_apply, addf_apply, mulf_apply, subf_apply, broadcast_apply, broadcastTo_1b_ab_apply]

/-- The body's value on a block whose rows are rows of an array `A` (block index `j` sits at array index `e j`, in the
    same lane) and whose parameter rows are the whole parameter arrays: the block of `Spec.bnrelu` at `e`. -/
theorem bn2_block_eq (agg : Vec Ideal S10000x128 .f32) (b g be mu var : Vec Ideal S1x128 .f32)
    (A : FVec Ideal S200000x128 .f32) (B G BE MU VAR : FVec Ideal S1x128 .f32)
    (e : S10000x128.Idx → S200000x128.Idx)
    (he : ∀ j, (e j 1).val = (j 1).val)
    (hagg : ∀ j, agg j = A (e j)) (hb : b = B) (hg : g = G) (hbe : be = BE) (hmu : mu = MU) (hvar : var = VAR) :
    k2_pay1 (F := Ideal) agg b g mu var be = fun j => Cert.Spec.bnrelu A B G BE MU VAR (e j) := by
  subst hb hg hbe hmu hvar
  funext j
  obtain ⟨p, q, rfl⟩ : ∃ (p : Fin 10000) (q : Fin 128), j = ix2 p q := ⟨j 0, j 1, eq_ix2 j⟩
  have h1 : e (ix2 p q) 1 = q := Fin.ext (he (ix2 p q))
  rw [bn2_pay_apply, hagg]
  unfold Cert.Spec.bnrelu
  rw [h1]

/-! ## From the blocks to the array -/

theorem bn2_zero_off : (![0, 0] : Fin 2 → Nat) = fun _ => 0 := funext fun a => by
  match a with | ⟨0, _⟩ => rfl | ⟨1, _⟩ => rfl

/-- The printed index maps, decided once over the grid: the row-tiled windows (input 0, output 6) are at block
    `(t, 0)`; the parameter windows are whole, at block `(0, 0)`. -/
theorem bn2_idx_facts : ∀ t : Fin cfg2.N, win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Input window 0's block at point `t` reads the array where the output's block sits. -/
theorem bn2_blk0 (c : Dev nD) (t : Fin cfg2.N) (j : S10000x128.Idx) :
    iblk2 V c 0 t j = V c (Pipeline.arrRef spec2 0) (((cfg2.win 6).blk t).view.emb j) := by
  obtain ⟨e0, e1, e2, e3, -⟩ := bn2_idx_facts t
  show V c (Pipeline.arrRef spec2 0) (((cfg2.win 0).blk t).view.emb j) = _
  refine congrArg _ (funext fun a => Fin.ext ?_)
  match a with
  | ⟨0, _⟩ => show win2_0.index t (0 : Fin 2) * 10000 + 1 * (j 0).val = win2_6.index t (0 : Fin 2) * 10000 + 1 * (j 0).val; omega
  | ⟨1, _⟩ => show win2_0.index t (1 : Fin 2) * 128 + 1 * (j 1).val = win2_6.index t (1 : Fin 2) * 128 + 1 * (j 1).val; omega

/-- The output's block keeps the lane. -/
theorem bn2_emb_lane (t : Fin cfg2.N) (j : S10000x128.Idx) : ((((cfg2.win 6).blk t).view.emb j) 1).val = (j 1).val := by
  obtain ⟨e0, e1, e2, e3, -⟩ := bn2_idx_facts t
  show win2_6.index t (1 : Fin 2) * 128 + 1 * (j 1).val = (j 1).val
  omega

/-- A parameter window's block is its whole one-row array. -/
theorem bn2_blk1 (c : Dev nD) (t : Fin cfg2.N) : iblk2 V c 1 t = V c (Pipeline.arrRef spec2 1) := by
  obtain ⟨-, -, -, -, e0, e1, -⟩ := bn2_idx_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem bn2_blk2 (c : Dev nD) (t : Fin cfg2.N) : iblk2 V c 2 t = V c (Pipeline.arrRef spec2 2) := by
  obtain ⟨-, -, -, -, -, -, e0, e1, -⟩ := bn2_idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem bn2_blk3 (c : Dev nD) (t : Fin cfg2.N) : iblk2 V c 3 t = V c (Pipeline.arrRef spec2 3) := by
  obtain ⟨-, -, -, -, -, -, -, -, e0, e1, -⟩ := bn2_idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem bn2_blk4 (c : Dev nD) (t : Fin cfg2.N) : iblk2 V c 4 t = V c (Pipeline.arrRef spec2 4) := by
  obtain ⟨-, -, -, -, -, -, -, -, -, -, e0, e1, -⟩ := bn2_idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem bn2_blk5 (c : Dev nD) (t : Fin cfg2.N) : iblk2 V c 5 t = V c (Pipeline.arrRef spec2 5) := by
  obtain ⟨-, -, -, -, -, -, -, -, -, -, -, -, e0, e1⟩ := bn2_idx_facts t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

set_option maxHeartbeats 2000000 in
/-- WHAT POINT `t` WRITES BACK is block `t` of `Spec.bnrelu` of the six arrays as the region finds them. -/
theorem bn2_flushed_eq (c : Dev nD) (t : Fin cfg2.N) :
    (dat2 (F := Ideal) V c).flushed 6 t = ((cfg2.win 6).blk t).view.read (Elt Ideal)
      (Cert.Spec.bnrelu (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero bn2_zero_off]
  simp only [View.ld_unit_zero (S := S10000x128) bn2_zero_off, View.ld_unit_zero (S := S1x128) bn2_zero_off]
  exact bn2_block_eq (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    ((cfg2.win 6).blk t).view.emb (bn2_emb_lane t) (bn2_blk0 V c t) (bn2_blk1 V c t) (bn2_blk2 V c t) (bn2_blk3 V c t) (bn2_blk4 V c t) (bn2_blk5 V c t)

/-- An index of the array is in point `t`'s block iff each coordinate is in the block's range on its axis. -/
theorem bn2_mem_blk (t : Fin cfg2.N) (i : S200000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v50).slice (win2_6.rect t)).set ↔ _
  rw [View.set_slice_whole, Rect.mem_set_unit]
  exact Iff.rfl

/-- Row `r` of the array is in the block of point `r / 10000`. -/
theorem bn2_cover (i : S200000x128.Idx) : ∃ t : Fin cfg2.N, (cfg2.win 6).flush t = true ∧ i ∈ ((cfg2.win 6).blk t).view.set := by
  have hi0 : (i 0).val < 200000 := (i 0).isLt
  have hi1 : (i 1).val < 128 := (i 1).isLt
  have hN : cfg2.N = 20 := N_2
  let t : Fin cfg2.N := ⟨(i 0).val / 10000, by rw [hN]; omega⟩
  obtain ⟨-, -, e2, e3, -⟩ := bn2_idx_facts t
  have ht : t.val = (i 0).val / 10000 := rfl
  refine ⟨t, flush2_6 t, ?_⟩
  rw [bn2_mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- REGION 2, bias + batch normalisation + rectifier, from ANY entry contents `V`: the output array holds `Spec.bnrelu` of
    the six input arrays. -/
theorem bn_value2 (c : Dev nD) :
    (dat2 (F := Ideal) V c).arrAt 6 cfg2.N
      = Cert.Spec.bnrelu (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => bn2_flushed_eq V c t) bn2_cover

end Cert.KernelIdeal.Gen

end
-- ==== Proof.ChainA.lean ====
import proofs.«418650_j59313498358439_1_alg».proof.Proof.Gen.KernelIdeal.Frame
import proofs.«418650_j59313498358439_1_alg».proof.Proof.KOut
import proofs.«418650_j59313498358439_1_alg».proof.Proof.RegAtom
import proofs.«418650_j59313498358439_1_alg».proof.Proof.RegMM1
import proofs.«418650_j59313498358439_1_alg».proof.Proof.RegBN2
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.SL.Sem Cert.KernelIdeal
open Idealize.ShloMosaic.Pipeline (Dat Cfg Window)

variable (m : (ℓ : Loc nD τ sig) → Buf (Elt Ideal) ℓ) (ρ : Dev nD → PrngReg)

/-! ## What a stretch of host operations leaves, from any contents `V` it starts at -/

/-- No operation of the named stretch writes the buffer: the list's conjunction, one inequality of references each. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

namespace ChainA

/-- The first stretch leaves the augmented source list of the edge list it reads. -/
theorem ops0_v5 (V : Valuation τ sig (Elt Ideal)) :
    StableHlo.after hostOps0 V (Proc.devRef .tc main_v5) = KL.srcAug (V (Proc.devRef .tc main_arg1)) := by
  after_results
  rfl
/-- Likewise the augmented target list. -/
theorem ops0_v6 (V : Valuation τ sig (Elt Ideal)) :
    StableHlo.after hostOps0 V (Proc.devRef .tc main_v6) = KL.dstAug (V (Proc.devRef .tc main_arg1)) := by
  after_results
  rfl
-- thirty-seven operations, the two index columns and the normalisation read twice each
set_option maxHeartbeats 4000000 in
/-- Likewise the augmented edges' weights. -/
theorem ops0_v28 (V : Valuation τ sig (Elt Ideal)) :
    StableHlo.after hostOps0 V (Proc.devRef .tc main_v28) = KL.normAug (F := Ideal) (V (Proc.devRef .tc main_arg1)) := by
  after_results
  rfl
/-- The first stretch's last operation leaves the integer zero the padding is made from. -/
theorem ops0_c5 (V : Valuation τ sig (Elt Ideal)) :
    StableHlo.after hostOps0 V (Proc.devRef .tc main_c_5) = constantI S_ 32 0#32 := by
  after_results
/-- The padding stretch, entered with the integer zero in its scalar, leaves the padded tables. -/
theorem ops01_v29 (V : Valuation τ sig (Elt Ideal)) (hz : V (Proc.devRef .tc main_c_5) = constantI S_ 32 0#32) :
    StableHlo.after hostOps0_1 V (Proc.devRef .tc main_v29) = KL.padEmb (F := Ideal) (V (Proc.devRef .tc main_arg3)) := by
  after_results
  rw [hz]
  rfl
/-- The stretch before region 2 leaves the aggregation of the four buffers it reads. -/
theorem ops2_v44 (V : Valuation τ sig (Elt Ideal)) :
    StableHlo.after hostOps2 V (Proc.devRef .tc main_v44)
      = KL.aggF (F := Ideal) (V (Proc.devRef .tc main_v31)) (V (Proc.devRef .tc main_v5)) (V (Proc.devRef .tc main_v6))
          (V (Proc.devRef .tc main_v28)) := by
  after_results_simp
  rfl
/-- And each parameter vector as one row. -/
theorem ops2_v45 (V : Valuation τ sig (Elt Ideal)) :
    StableHlo.after hostOps2 V (Proc.devRef .tc main_v45) = KL.row (F := Ideal) (V (Proc.devRef .tc main_arg5)) := by
  after_results
  rfl
theorem ops2_v46 (V : Valuation τ sig (Elt Ideal)) :
    StableHlo.after hostOps2 V (Proc.devRef .tc main_v46) = KL.row (F := Ideal) (V (Proc.devRef .tc main_arg6)) := by
  after_results
  rfl
theorem ops2_v47 (V : Valuation τ sig (Elt Ideal)) :
    StableHlo.after hostOps2 V (Proc.devRef .tc main_v47) = KL.row (F := Ideal) (V (Proc.devRef .tc main_arg7)) := by
  after_results
  rfl
theorem ops2_v48 (V : Valuation τ sig (Elt Ideal)) :
    StableHlo.after hostOps2 V (Proc.devRef .tc main_v48) = KL.row (F := Ideal) (V (Proc.devRef .tc main_arg8)) := by
  after_results
  rfl
theorem ops2_v49 (V : Valuation τ sig (Elt Ideal)) :
    StableHlo.after hostOps2 V (Proc.devRef .tc main_v49) = KL.row (F := Ideal) (V (Proc.devRef .tc main_arg9)) := by
  after_results
  rfl

/-! ## The arguments, read back to the launch memory -/

/-- A buffer neither of the first two stretches writes holds at region 0's entry what it held at launch. -/
theorem W2_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes) :
    W2 m ρ c (Proc.devRef .tc b) = m ((c : Thread nD τ).loc b) :=
  (StableHlo.after_of_forall_not_mem (b := Proc.devRef .tc b) _ _ h1).trans
    ((StableHlo.after_of_forall_not_mem (b := Proc.devRef .tc b) _ _ h0).trans rfl)
/-- If moreover it is no array of regions 0 and 1, it still holds that at region 1's exit. -/
theorem W4_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h3 : ∀ w, Pipeline.arrRef spec0 w ≠ b) (h4 : ∀ w, Pipeline.arrRef spec1 w ≠ b) :
    W4 m ρ c (Proc.devRef .tc b) = m ((c : Thread nD τ).loc b) :=
  (W4_of_ne m ρ c b h4).trans ((W3_of_ne m ρ c b h3).trans (W2_launch m ρ c b h0 h1))

theorem W2_arg0 (c : Dev nD) : W2 m ρ c (Proc.devRef .tc main_arg0) = m ((c : Thread nD τ).loc main_arg0) :=
  W2_launch m ρ c main_arg0 (by not_written hostOps0) (by not_written hostOps0_1)
theorem W1_arg3 (c : Dev nD) : W1 m ρ c (Proc.devRef .tc main_arg3) = m ((c : Thread nD τ).loc main_arg3) :=
  (StableHlo.after_of_forall_not_mem (b := Proc.devRef .tc main_arg3) _ _ (by not_written hostOps0)).trans rfl
theorem W3_arg4 (c : Dev nD) : W3 m ρ c (Proc.devRef .tc main_arg4) = m ((c : Thread nD τ).loc main_arg4) :=
  (W3_of_ne m ρ c main_arg4 (by decide)).trans
    (W2_launch m ρ c main_arg4 (by not_written hostOps0) (by not_written hostOps0_1))
theorem W4_arg5 (c : Dev nD) : W4 m ρ c (Proc.devRef .tc main_arg5) = m ((c : Thread nD τ).loc main_arg5) :=
  W4_launch m ρ c main_arg5 (by not_written hostOps0) (by not_written hostOps0_1) (by decide) (by decide)
theorem W4_arg6 (c : Dev nD) : W4 m ρ c (Proc.devRef .tc main_arg6) = m ((c : Thread nD τ).loc main_arg6) :=
  W4_launch m ρ c main_arg6 (by not_written hostOps0) (by not_written hostOps0_1) (by decide) (by decide)
theorem W4_arg7 (c : Dev nD) : W4 m ρ c (Proc.devRef .tc main_arg7) = m ((c : Thread nD τ).loc main_arg7) :=
  W4_launch m ρ c main_arg7 (by not_written hostOps0) (by not_written hostOps0_1) (by decide) (by decide)
theorem W4_arg8 (c : Dev nD) : W4 m ρ c (Proc.devRef .tc main_arg8) = m ((c : Thread nD τ).loc main_arg8) :=
  W4_launch m ρ c main_arg8 (by not_written hostOps0) (by not_written hostOps0_1) (by decide) (by decide)
theorem W4_arg9 (c : Dev nD) : W4 m ρ c (Proc.devRef .tc main_arg9) = m ((c : Thread nD τ).loc main_arg9) :=
  W4_launch m ρ c main_arg9 (by not_written hostOps0) (by not_written hostOps0_1) (by decide) (by decide)

/-! ## Regions 0 and 1 -/

/-- At region 0's entry the second window's array holds the padded tables. -/
theorem W2_v29 (c : Dev nD) :
    W2 m ρ c (Proc.devRef .tc main_v29) = KL.padEmb (F := Ideal) (m ((c : Thread nD τ).loc main_arg3)) :=
  (ops01_v29 (W1 m ρ c) (ops0_c5 (W0 m ρ c))).trans (congrArg (KL.padEmb (F := Ideal)) (W1_arg3 m ρ c))
/-- At region 0's exit its output array holds the atom encoder's rows. -/
theorem W3_v30 (c : Dev nD) : W3 m ρ c (Proc.devRef .tc main_v30)
    = Cert.Spec.atom (m ((c : Thread nD τ).loc main_arg0)) (KL.padEmb (F := Ideal) (m ((c : Thread nD τ).loc main_arg3))) :=
  ((W3_arr m ρ c 2).trans (atom_value (V2 m ρ) c)).trans (congrArg₂ Cert.Spec.atom (W2_arg0 m ρ c) (W2_v29 m ρ c))
/-- At region 1's exit its output array holds the first dense layer of those rows. -/
theorem W4_v31 (c : Dev nD) : W4 m ρ c (Proc.devRef .tc main_v31)
    = Cert.Spec.mm (Cert.Spec.atom (m ((c : Thread nD τ).loc main_arg0)) (KL.padEmb (F := Ideal) (m ((c : Thread nD τ).loc main_arg3))))
        (m ((c : Thread nD τ).loc main_arg4)) :=
  ((W4_arr m ρ c 2).trans (mm_value1 (V3 m ρ) c)).trans (congrArg₂ Cert.Spec.mm (W3_v30 m ρ c) (W3_arg4 m ρ c))

/-- At region 1's exit the three edge buffers: written by the first stretch, touched by nothing after it. -/
theorem keep14 (c : Dev nD) (b : Ref sig .tc)
    (h1 : ∀ op ∈ (hostOps0_1 : List (HloOp τ sig (Elt Ideal))), Proc.devRef .tc b ∉ op.writes)
    (h3 : ∀ w, Pipeline.arrRef spec0 w ≠ b) (h4 : ∀ w, Pipeline.arrRef spec1 w ≠ b) :
    W4 m ρ c (Proc.devRef .tc b) = W1 m ρ c (Proc.devRef .tc b) :=
  (W4_of_ne m ρ c b h4).trans ((W3_of_ne m ρ c b h3).trans
    (StableHlo.after_of_forall_not_mem (b := Proc.devRef .tc b) _ _ h1))

/-- Equal arguments, equal aggregations. -/
theorem aggF_congr {hw hw' : FVec Ideal S200000x128 .f32} {sA sA' dA dA' : IVec S840000 32} {nA nA' : FVec Ideal S840000 .f32}
    (h0 : hw = hw') (h1 : sA = sA') (h2 : dA = dA') (h3 : nA = nA') :
    KL.aggF (F := Ideal) hw sA dA nA = KL.aggF (F := Ideal) hw' sA' dA' nA' := by
  subst h0 h1 h2 h3; rfl
/-- Equal arguments, equal normalised and rectified rows. -/
theorem bnrelu_congr {a a' : FVec Ideal S200000x128 .f32} {b b' g g' be be' mu mu' var var' : FVec Ideal S1x128 .f32}
    (h0 : a = a') (h1 : b = b') (h2 : g = g') (h3 : be = be') (h4 : mu = mu') (h5 : var = var') :
    Cert.Spec.bnrelu a b g be mu var = Cert.Spec.bnrelu a' b' g' be' mu' var' := by
  subst h0 h1 h2 h3 h4 h5; rfl

end ChainA

open ChainA

/-- At region 1's exit the augmented source list still holds what the first host stretch computed from the edge list. -/
theorem A_src (c : Dev nD) : W4 m ρ c (Proc.devRef .tc main_v5) = KL.srcAug (m ((c : Thread nD τ).loc main_arg1)) := by
  exact (keep14 m ρ c main_v5 (by not_written hostOps0_1) (by decide) (by decide)).trans (ops0_v5 (W0 m ρ c))
/-- Likewise the augmented target list. -/
theorem A_dst (c : Dev nD) : W4 m ρ c (Proc.devRef .tc main_v6) = KL.dstAug (m ((c : Thread nD τ).loc main_arg1)) := by
  exact (keep14 m ρ c main_v6 (by not_written hostOps0_1) (by decide) (by decide)).trans (ops0_v6 (W0 m ρ c))
/-- Likewise the augmented edges' weights. -/
theorem A_norm (c : Dev nD) : W4 m ρ c (Proc.devRef .tc main_v28) = KL.normAug (F := Ideal) (m ((c : Thread nD τ).loc main_arg1)) := by
  exact (keep14 m ρ c main_v28 (by not_written hostOps0_1) (by decide) (by decide)).trans (ops0_v28 (W0 m ρ c))
/-- At region 2's exit its output array holds the first hidden state `KO.h1` of the launch contents of the arguments. -/
theorem A_out (c : Dev nD) : W6 m ρ c (Proc.devRef .tc main_v50)
    = KO.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e44 : W5 m ρ c (Proc.devRef .tc main_v44)
      = KO.layer (Cert.Spec.atom (m ((c : Thread nD τ).loc main_arg0)) (KL.padEmb (F := Ideal) (m ((c : Thread nD τ).loc main_arg3))))
          (m ((c : Thread nD τ).loc main_arg4)) (m ((c : Thread nD τ).loc main_arg1)) :=
    (ops2_v44 (W4 m ρ c)).trans (aggF_congr (W4_v31 m ρ c) (A_src m ρ c) (A_dst m ρ c) (A_norm m ρ c))
  have e45 : W5 m ρ c (Proc.devRef .tc main_v45) = KL.row (F := Ideal) (m ((c : Thread nD τ).loc main_arg5)) :=
    (ops2_v45 (W4 m ρ c)).trans (congrArg (KL.row (F := Ideal)) (W4_arg5 m ρ c))
  have e46 : W5 m ρ c (Proc.devRef .tc main_v46) = KL.row (F := Ideal) (m ((c : Thread nD τ).loc main_arg6)) :=
    (ops2_v46 (W4 m ρ c)).trans (congrArg (KL.row (F := Ideal)) (W4_arg6 m ρ c))
  have e47 : W5 m ρ c (Proc.devRef .tc main_v47) = KL.row (F := Ideal) (m ((c : Thread nD τ).loc main_arg7)) :=
    (ops2_v47 (W4 m ρ c)).trans (congrArg (KL.row (F := Ideal)) (W4_arg7 m ρ c))
  have e48 : W5 m ρ c (Proc.devRef .tc main_v48) = KL.row (F := Ideal) (m ((c : Thread nD τ).loc main_arg8)) :=
    (ops2_v48 (W4 m ρ c)).trans (congrArg (KL.row (F := Ideal)) (W4_arg8 m ρ c))
  have e49 : W5 m ρ c (Proc.devRef .tc main_v49) = KL.row (F := Ideal) (m ((c : Thread nD τ).loc main_arg9)) :=
    (ops2_v49 (W4 m ρ c)).trans (congrArg (KL.row (F := Ideal)) (W4_arg9 m ρ c))
  exact ((W6_arr m ρ c 6).trans (bn_value2 (V5 m ρ) c)).trans (bnrelu_congr e44 e45 e46 e47 e48 e49)

end Cert.KernelIdeal.Gen

end
-- ==== Proof.RegMM3.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's product at an entry -/

/-- The product's left operand index keeps the output's row. -/
theorem mm_lhs_row_r3 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Its column is the contracted coordinate. -/
theorem mm_lhs_col_r3 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted coordinate. -/
theorem mm_rhs_row_r3 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Its column is the output's column. -/
theorem mm_rhs_col_r3 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at entry (p, q) of a block: row p of the loaded rows times column q of the weights. -/
theorem mm_pay_apply_r3 (x0 : FVec Ideal S10000x128 .f32) (x1 : FVec Ideal S128x128 .f32) (p : Fin 10000) (q : Fin 128) :
    k3_pay1 (F := Ideal) x0 x1 (ix2 p q) = ∑ k : Fin 128, x0 (ix2 p k) * x1 (ix2 k q) := by
  unfold k3_pay1
  refine (Ideal.matmul_constant_zero_apply dot_S10000x128_S128x128_S10000x128_1_0_0_1_n_n none _ x1 (ix2 p q)).trans ?_
  rw [shapeCast_self, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm_lhs_row_r3 _ _
    | ⟨1, _⟩ => exact (mm_lhs_col_r3 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm_rhs_row_r3 _ _).trans hk
    | ⟨1, _⟩ => exact mm_rhs_col_r3 _ _)
  rw [el, er]

/-! ## From the blocks to the array -/

theorem mm_zero_offsets_r3 : (![0, 0] : Fin 2 → Nat) = fun _ => 0 := funext fun a => by fin_cases a <;> rfl

/-- Where each window's block sits at a grid point, decided over the grid: the row windows' block index is the point
    on the row axis and zero on the lane axis; the weights' window is the whole matrix. -/
theorem mm_idx_facts_r3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An entry of the rows' block at point `t` is the array's entry 10000·t rows further down. -/
theorem mm_rows_blk_r3 (c : Dev nD) (t : Fin cfg3.N) (p : Fin 10000) (k : Fin 128) (i : S200000x128.Idx)
    (h0 : (i 0).val = t.val * 10000 + p.val) (h1 : (i 1).val = k.val) :
    (iblk3 V c 0 t : Vec Ideal S10000x128 .f32) (ix2 p k) = (V c (Pipeline.arrRef spec3 0) : S200000x128.Idx → EReal) i := by
  obtain ⟨e0, e1, -⟩ := mm_idx_facts_r3 t
  show V c (Pipeline.arrRef spec3 0) (((cfg3.win 0).blk t).view.emb (ix2 p k)) = V c (Pipeline.arrRef spec3 0) i
  refine congrArg _ (funext fun a => Fin.ext ?_)
  match a with
  | ⟨0, _⟩ => show win3_0.index t (0 : Fin 2) * 10000 + 1 * p.val = (i 0).val; omega
  | ⟨1, _⟩ => show win3_0.index t (1 : Fin 2) * 128 + 1 * k.val = (i 1).val; omega

/-- The weights' block at any point is the weight matrix. -/
theorem mm_weights_blk_r3 (c : Dev nD) (t : Fin cfg3.N) (k q : Fin 128) :
    (iblk3 V c 1 t : Vec Ideal S128x128 .f32) (ix2 k q) = (V c (Pipeline.arrRef spec3 1) : S128x128.Idx → EReal) (ix2 k q) := by
  obtain ⟨-, -, e2, e3, -⟩ := mm_idx_facts_r3 t
  show V c (Pipeline.arrRef spec3 1) (((cfg3.win 1).blk t).view.emb (ix2 k q)) = V c (Pipeline.arrRef spec3 1) (ix2 k q)
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The body's stored value at entry (p, q) of point `t`'s block is the product's entry at the array index `i` that
    sits 10000·t rows further down. -/
theorem mm_block_entry_r3 (c : Dev nD) (t : Fin cfg3.N) (p : Fin 10000) (q : Fin 128) (i : S200000x128.Idx)
    (h0 : (i 0).val = t.val * 10000 + p.val) (h1 : (i 1).val = q.val) :
    k3_pay1 (F := Ideal) (iblk3 V c 0 t) (iblk3 V c 1 t) (ix2 p q)
      = Cert.Spec.mm (V c (Pipeline.arrRef spec3 0)) (V c (Pipeline.arrRef spec3 1)) i := by
  refine (mm_pay_apply_r3 (iblk3 V c 0 t) (iblk3 V c 1 t) p q).trans ?_
  unfold Cert.Spec.mm
  refine Finset.sum_congr rfl fun k _ => ?_
  have hq : (ix2 k q : S128x128.Idx) = ix2 k (i 1) := congrArg (ix2 k) (Fin.ext h1.symm : q = i 1)
  exact congrArg₂ (· * ·) (mm_rows_blk_r3 V c t p k (ix2 (i 0) k : S200000x128.Idx) h0 rfl)
    ((mm_weights_blk_r3 V c t k q).trans (congrArg _ hq))

/-- WHAT POINT `t` WRITES BACK is block `t` of the product of the two arrays as the region finds them. -/
theorem mm_flushed_eq_r3 (c : Dev nD) (t : Fin cfg3.N) :
    (dat3 (F := Ideal) V c).flushed 2 t = ((cfg3.win 2).blk t).view.read (Elt Ideal) (Cert.Spec.mm (V c (Pipeline.arrRef spec3 0)) (V c (Pipeline.arrRef spec3 1))) := by
  show (cfg3.win 2).cut (grid3.coords t) ((dat3 V c).after 2 t) = _
  rw [after3_2]
  unfold out3_2
  rw [View.canon_unit_zero mm_zero_offsets_r3]
  simp only [View.ld_unit_zero (S := S10000x128) mm_zero_offsets_r3, View.ld_unit_zero (S := S128x128) mm_zero_offsets_r3]
  obtain ⟨-, -, -, -, e4, e5⟩ := mm_idx_facts_r3 t
  funext j
  obtain ⟨p, q, rfl⟩ : ∃ (p : Fin 10000) (q : Fin 128), j = ix2 p q := ⟨j 0, j 1, eq_ix2 j⟩
  exact mm_block_entry_r3 V c t p q _
    (by show win3_2.index t (0 : Fin 2) * 10000 + 1 * p.val = _; omega)
    (by show win3_2.index t (1 : Fin 2) * 128 + 1 * q.val = _; omega)

/-- An index of the array is in point `t`'s block iff each coordinate is in the block's range on its axis. -/
theorem mm_mem_blk_r3 (t : Fin cfg3.N) (i : S200000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- The blocks cover the array: row `r` lies in the block of point `r / 10000`. -/
theorem mm_cover_r3 (i : S200000x128.Idx) :
    ∃ t : Fin cfg3.N, (cfg3.win 2).flush t = true ∧ i ∈ ((cfg3.win 2).blk t).view.set := by
  have hi0 : (i 0).val < 200000 := (i 0).isLt
  have hi1 : (i 1).val < 128 := (i 1).isLt
  have hN : grid3.N = 20 := N_3
  obtain ⟨t, ht⟩ : ∃ t : Fin cfg3.N, t.val = (i 0).val / 10000 := ⟨⟨(i 0).val / 10000, by show _ < grid3.N; rw [hN]; omega⟩, rfl⟩
  obtain ⟨-, -, -, -, e4, e5⟩ := mm_idx_facts_r3 t
  refine ⟨t, flush3_2 t, ?_⟩
  rw [mm_mem_blk_r3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- REGION 3, a dense layer, from ANY entry contents `V`: the output array holds `Spec.mm` of the two input arrays. -/
theorem mm_value3 (c : Dev nD) :
    (dat3 (F := Ideal) V c).arrAt 2 cfg3.N = Cert.Spec.mm (V c (Pipeline.arrRef spec3 0)) (V c (Pipeline.arrRef spec3 1)) :=
  (dat3 (F := Ideal) V c).arrAt_eq_of_cover 2 _ (fun t _ => mm_flushed_eq_r3 V c t) mm_cover_r3

end Cert.KernelIdeal.Gen

end
-- ==== Proof.RegBN4.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

/-- The body's value at row `p`, lane `q` of its block: the one-row parameters are read at lane `q` of their row, the
    reciprocal square root stays the vector operation on `var + ε`, read at lane `q`. -/
theorem bn4_pay_apply (agg : Vec Ideal S10000x128 .f32) (b g mu var be : Vec Ideal S1x128 .f32) (p : Fin 10000) (q : Fin 128) :
    k4_pay1 (F := Ideal) agg b g mu var be (ix2 p q)
      = max (g (ix2 0 q) * (agg (ix2 p q) + b (ix2 0 q) - mu (ix2 0 q))
          * (rsqrt (F := Ideal) (addf var (broadcast ⟨2, ![1, 128]⟩ (Scalar.ofBits .f32 0x3727C5AC#32)))) (ix2 0 q) + be (ix2 0 q))
        (Scalar.ofBits (F := Ideal) .f32 0x00000000#32) := by
  unfold k4_pay1
  simp only [shapeCast_self]
  simp only [maximumf_apply, addf_apply, mulf_apply, subf_apply, broadcast_apply, broadcastTo_1b_ab_apply]

/-- The body's value on a block whose rows are rows of an array `A` (block index `j` sits at array index `e j`, in the
    same lane) and whose parameter rows are the whole parameter arrays: the block of `Spec.bnrelu` at `e`. -/
theorem bn4_block_eq (agg : Vec Ideal S10000x128 .f32) (b g be mu var : Vec Ideal S1x128 .f32)
    (A : FVec Ideal S200000x128 .f32) (B G BE MU VAR : FVec Ideal S1x128 .f32)
    (e : S10000x128.Idx → S200000x128.Idx)
    (he : ∀ j, (e j 1).val = (j 1).val)
    (hagg : ∀ j, agg j = A (e j)) (hb : b = B) (hg : g = G) (hbe : be = BE) (hmu : mu = MU) (hvar : var = VAR) :
    k4_pay1 (F := Ideal) agg b g mu var be = fun j => Cert.Spec.bnrelu A B G BE MU VAR (e j) := by
  subst hb hg hbe hmu hvar
  funext j
  obtain ⟨p, q, rfl⟩ : ∃ (p : Fin 10000) (q : Fin 128), j = ix2 p q := ⟨j 0, j 1, eq_ix2 j⟩
  have h1 : e (ix2 p q) 1 = q := Fin.ext (he (ix2 p q))
  rw [bn4_pay_apply, hagg]
  unfold Cert.Spec.bnrelu
  rw [h1]

/-! ## From the blocks to the array -/

theorem bn4_zero_off : (![0, 0] : Fin 2 → Nat) = fun _ => 0 := funext fun a => by
  match a with | ⟨0, _⟩ => rfl | ⟨1, _⟩ => rfl

/-- The printed index maps, decided once over the grid: the row-tiled windows (input 0, output 6) are at block
    `(t, 0)`; the parameter windows are whole, at block `(0, 0)`. -/
theorem bn4_idx_facts : ∀ t : Fin cfg4.N, win4_0.index t (0 : Fin 2) = t.val ∧ win4_0.index t (1 : Fin 2) = 0
    ∧ win4_6.index t (0 : Fin 2) = t.val ∧ win4_6.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Input window 0's block at point `t` reads the array where the output's block sits. -/
theorem bn4_blk0 (c : Dev nD) (t : Fin cfg4.N) (j : S10000x128.Idx) :
    iblk4 V c 0 t j = V c (Pipeline.arrRef spec4 0) (((cfg4.win 6).blk t).view.emb j) := by
  obtain ⟨e0, e1, e2, e3, -⟩ := bn4_idx_facts t
  show V c (Pipeline.arrRef spec4 0) (((cfg4.win 0).blk t).view.emb j) = _
  refine congrArg _ (funext fun a => Fin.ext ?_)
  match a with
  | ⟨0, _⟩ => show win4_0.index t (0 : Fin 2) * 10000 + 1 * (j 0).val = win4_6.index t (0 : Fin 2) * 10000 + 1 * (j 0).val; omega
  | ⟨1, _⟩ => show win4_0.index t (1 : Fin 2) * 128 + 1 * (j 1).val = win4_6.index t (1 : Fin 2) * 128 + 1 * (j 1).val; omega

/-- The output's block keeps the lane. -/
theorem bn4_emb_lane (t : Fin cfg4.N) (j : S10000x128.Idx) : ((((cfg4.win 6).blk t).view.emb j) 1).val = (j 1).val := by
  obtain ⟨e0, e1, e2, e3, -⟩ := bn4_idx_facts t
  show win4_6.index t (1 : Fin 2) * 128 + 1 * (j 1).val = (j 1).val
  omega

/-- A parameter window's block is its whole one-row array. -/
theorem bn4_blk1 (c : Dev nD) (t : Fin cfg4.N) : iblk4 V c 1 t = V c (Pipeline.arrRef spec4 1) := by
  obtain ⟨-, -, -, -, e0, e1, -⟩ := bn4_idx_facts t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega

theorem bn4_blk2 (c : Dev nD) (t : Fin cfg4.N) : iblk4 V c 2 t = V c (Pipeline.arrRef spec4 2) := by
  obtain ⟨-, -, -, -, -, -, e0, e1, -⟩ := bn4_idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem bn4_blk3 (c : Dev nD) (t : Fin cfg4.N) : iblk4 V c 3 t = V c (Pipeline.arrRef spec4 3) := by
  obtain ⟨-, -, -, -, -, -, -, -, e0, e1, -⟩ := bn4_idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem bn4_blk4 (c : Dev nD) (t : Fin cfg4.N) : iblk4 V c 4 t = V c (Pipeline.arrRef spec4 4) := by
  obtain ⟨-, -, -, -, -, -, -, -, -, -, e0, e1, -⟩ := bn4_idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem bn4_blk5 (c : Dev nD) (t : Fin cfg4.N) : iblk4 V c 5 t = V c (Pipeline.arrRef spec4 5) := by
  obtain ⟨-, -, -, -, -, -, -, -, -, -, -, -, e0, e1⟩ := bn4_idx_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

set_option maxHeartbeats 2000000 in
/-- WHAT POINT `t` WRITES BACK is block `t` of `Spec.bnrelu` of the six arrays as the region finds them. -/
theorem bn4_flushed_eq (c : Dev nD) (t : Fin cfg4.N) :
    (dat4 (F := Ideal) V c).flushed 6 t = ((cfg4.win 6).blk t).view.read (Elt Ideal)
      (Cert.Spec.bnrelu (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero bn4_zero_off]
  simp only [View.ld_unit_zero (S := S10000x128) bn4_zero_off, View.ld_unit_zero (S := S1x128) bn4_zero_off]
  exact bn4_block_eq (iblk4 V c 0 t) (iblk4 V c 1 t) (iblk4 V c 2 t) (iblk4 V c 3 t) (iblk4 V c 4 t) (iblk4 V c 5 t)
    (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    ((cfg4.win 6).blk t).view.emb (bn4_emb_lane t) (bn4_blk0 V c t) (bn4_blk1 V c t) (bn4_blk2 V c t) (bn4_blk3 V c t) (bn4_blk4 V c t) (bn4_blk5 V c t)

/-- An index of the array is in point `t`'s block iff each coordinate is in the block's range on its axis. -/
theorem bn4_mem_blk (t : Fin cfg4.N) (i : S200000x128.Idx) :
    i ∈ ((cfg4.win 6).blk t).view.set ↔ ∀ a : Fin 2, win4_6.index t a * S10000x128.size a ≤ (i a).val ∧ (i a).val < win4_6.index t a * S10000x128.size a + S10000x128.size a := by
  show i ∈ ((View.whole main_v70).slice (win4_6.rect t)).set ↔ _
  rw [View.set_slice_whole, Rect.mem_set_unit]
  exact Iff.rfl

/-- Row `r` of the array is in the block of point `r / 10000`. -/
theorem bn4_cover (i : S200000x128.Idx) : ∃ t : Fin cfg4.N, (cfg4.win 6).flush t = true ∧ i ∈ ((cfg4.win 6).blk t).view.set := by
  have hi0 : (i 0).val < 200000 := (i 0).isLt
  have hi1 : (i 1).val < 128 := (i 1).isLt
  have hN : cfg4.N = 20 := N_4
  let t : Fin cfg4.N := ⟨(i 0).val / 10000, by rw [hN]; omega⟩
  obtain ⟨-, -, e2, e3, -⟩ := bn4_idx_facts t
  have ht : t.val = (i 0).val / 10000 := rfl
  refine ⟨t, flush4_6 t, ?_⟩
  rw [bn4_mem_blk]
  intro a
  match a with
  | ⟨0, _⟩ => show win4_6.index t (0 : Fin 2) * 10000 ≤ (i 0).val ∧ (i 0).val < win4_6.index t (0 : Fin 2) * 10000 + 10000; omega
  | ⟨1, _⟩ => show win4_6.index t (1 : Fin 2) * 128 ≤ (i 1).val ∧ (i 1).val < win4_6.index t (1 : Fin 2) * 128 + 128; omega

/-- REGION 4, bias + batch normalisation + rectifier, from ANY entry contents `V`: the output array holds `Spec.bnrelu` of
    the six input arrays. -/
theorem bn_value4 (c : Dev nD) :
    (dat4 (F := Ideal) V c).arrAt 6 cfg4.N
      = Cert.Spec.bnrelu (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6 _ (fun t _ => bn4_flushed_eq V c t) bn4_cover

end Cert.KernelIdeal.Gen

end
-- ==== Proof.ChainB.lean ====
import proofs.«418650_j59313498358439_1_alg».proof.Proof.Gen.KernelIdeal.Frame
import proofs.«418650_j59313498358439_1_alg».proof.Proof.KOut
import proofs.«418650_j59313498358439_1_alg».proof.Proof.ChainA
import proofs.«418650_j59313498358439_1_alg».proof.Proof.RegMM3
import proofs.«418650_j59313498358439_1_alg».proof.Proof.RegBN4
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.SL.Sem Cert.KernelIdeal
open Idealize.ShloMosaic.Pipeline (Dat Cfg Window)

variable (m : (ℓ : Loc nD τ sig) → Buf (Elt Ideal) ℓ) (ρ : Dev nD → PrngReg)

/-- A buffer that no operation of a stretch of host operations writes holds after the stretch what it held before it:
    every operation's result buffer is another reference. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The augmented edge list and its weights at region 3's exit

Regions 2 and 3 have none of the three buffers among their windows' arrays, and the host operations between regions 1
and 2 write none of them, so each holds at region 3's exit what it held at region 1's. -/

/-- At region 3's exit the augmented source list is unchanged. -/
theorem B_src (c : Dev nD) : W7 m ρ c (Proc.devRef .tc main_v5) = KL.srcAug (m ((c : Thread nD τ).loc main_arg1)) := by
  exact calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by not_written hostOps2
    _ = _ := A_src m ρ c
theorem B_dst (c : Dev nD) : W7 m ρ c (Proc.devRef .tc main_v6) = KL.dstAug (m ((c : Thread nD τ).loc main_arg1)) := by
  exact calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by not_written hostOps2
    _ = _ := A_dst m ρ c
theorem B_norm (c : Dev nD) : W7 m ρ c (Proc.devRef .tc main_v28) = KL.normAug (F := Ideal) (m ((c : Thread nD τ).loc main_arg1)) := by
  exact calc W7 m ρ c (Proc.devRef .tc main_v28)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := by not_written hostOps2
    _ = _ := A_norm m ρ c

/-! ## The second layer's parameters where they are read

No host operation before region 3 writes an argument's buffer and none of these arguments is an array of a window of
regions 0, 1 or 2, so at region 2's exit each still holds what was launched. The walk goes boundary by boundary back to
the launch memory; it is the same for every such buffer `b`, and is stated once. -/

set_option hygiene false in
/-- The contents of `b` at region 2's exit are the launch contents (for the core `c` and the memory `m` in scope). -/
local macro "launched_at_region2_exit" b:ident : tactic =>
  `(tactic| exact
    calc W6 m ρ c (Proc.devRef .tc $b)
      _ = W5 m ρ c (Proc.devRef .tc $b) := W6_of_ne m ρ c $b (by decide)
      _ = W4 m ρ c (Proc.devRef .tc $b) := by not_written hostOps2
      _ = W3 m ρ c (Proc.devRef .tc $b) := W4_of_ne m ρ c $b (by decide)
      _ = W2 m ρ c (Proc.devRef .tc $b) := W3_of_ne m ρ c $b (by decide)
      _ = W1 m ρ c (Proc.devRef .tc $b) := by not_written hostOps0_1
      _ = W0 m ρ c (Proc.devRef .tc $b) := by not_written hostOps0
      _ = m ((c : Thread nD τ).loc $b) := rfl)

theorem ChB_W6_arg10 (c : Dev nD) : W6 m ρ c (Proc.devRef .tc main_arg10) = m ((c : Thread nD τ).loc main_arg10) := by
  launched_at_region2_exit main_arg10
theorem ChB_W6_arg11 (c : Dev nD) : W6 m ρ c (Proc.devRef .tc main_arg11) = m ((c : Thread nD τ).loc main_arg11) := by
  launched_at_region2_exit main_arg11
theorem ChB_W6_arg12 (c : Dev nD) : W6 m ρ c (Proc.devRef .tc main_arg12) = m ((c : Thread nD τ).loc main_arg12) := by
  launched_at_region2_exit main_arg12
theorem ChB_W6_arg13 (c : Dev nD) : W6 m ρ c (Proc.devRef .tc main_arg13) = m ((c : Thread nD τ).loc main_arg13) := by
  launched_at_region2_exit main_arg13
theorem ChB_W6_arg14 (c : Dev nD) : W6 m ρ c (Proc.devRef .tc main_arg14) = m ((c : Thread nD τ).loc main_arg14) := by
  launched_at_region2_exit main_arg14
theorem ChB_W6_arg15 (c : Dev nD) : W6 m ρ c (Proc.devRef .tc main_arg15) = m ((c : Thread nD τ).loc main_arg15) := by
  launched_at_region2_exit main_arg15

/-- Region 3's windows' arrays are region 2's output, the weight matrix and its own output: the five normalisation
    parameters are none of them, so they pass region 3 unchanged. -/
theorem ChB_W7_arg11 (c : Dev nD) : W7 m ρ c (Proc.devRef .tc main_arg11) = m ((c : Thread nD τ).loc main_arg11) :=
  (W7_of_ne m ρ c main_arg11 (by decide)).trans (ChB_W6_arg11 m ρ c)
theorem ChB_W7_arg12 (c : Dev nD) : W7 m ρ c (Proc.devRef .tc main_arg12) = m ((c : Thread nD τ).loc main_arg12) :=
  (W7_of_ne m ρ c main_arg12 (by decide)).trans (ChB_W6_arg12 m ρ c)
theorem ChB_W7_arg13 (c : Dev nD) : W7 m ρ c (Proc.devRef .tc main_arg13) = m ((c : Thread nD τ).loc main_arg13) :=
  (W7_of_ne m ρ c main_arg13 (by decide)).trans (ChB_W6_arg13 m ρ c)
theorem ChB_W7_arg14 (c : Dev nD) : W7 m ρ c (Proc.devRef .tc main_arg14) = m ((c : Thread nD τ).loc main_arg14) :=
  (W7_of_ne m ρ c main_arg14 (by decide)).trans (ChB_W6_arg14 m ρ c)
theorem ChB_W7_arg15 (c : Dev nD) : W7 m ρ c (Proc.devRef .tc main_arg15) = m ((c : Thread nD τ).loc main_arg15) :=
  (W7_of_ne m ρ c main_arg15 (by decide)).trans (ChB_W6_arg15 m ρ c)

/-! ## Region 3's output array at its exit: the dense layer of the hidden state it read

Region 3 reads region 2's output array and the weight matrix as it finds them at its entry; the weight matrix there is
the launched one. -/

theorem ChB_W7_v51 (c : Dev nD) : W7 m ρ c (Proc.devRef .tc main_v51)
    = Cert.Spec.mm (W6 m ρ c (Proc.devRef .tc main_v50)) (m ((c : Thread nD τ).loc main_arg10)) := by
  rw [← ChB_W6_arg10 m ρ c]
  exact (W7_arr m ρ c 2).trans (mm_value3 (V6 m ρ) c)

/-! ## Region 4's six input arrays at its entry: what the host operations before it leave

The first (window 0's array) is the aggregation of region 3's output over the augmented edges: the host operations'
composed term is `KL.aggF` of the four buffers they read. The other five (windows 1 to 5) are the normalisation
parameters, each reshaped to one row. -/

theorem ChB_W8_v64 (c : Dev nD) : W8 m ρ c (Proc.devRef .tc main_v64)
    = KL.aggF (F := Ideal) (W7 m ρ c (Proc.devRef .tc main_v51)) (W7 m ρ c (Proc.devRef .tc main_v5))
        (W7 m ρ c (Proc.devRef .tc main_v6)) (W7 m ρ c (Proc.devRef .tc main_v28)) := by
  show StableHlo.after hostOps4 (W7 m ρ c) (Proc.devRef .tc main_v64) = _
  after_results_simp
  rfl
theorem ChB_in4_1 (c : Dev nD) : V8 m ρ c (Pipeline.arrRef spec4 1) = KL.row (F := Ideal) (m ((c : Thread nD τ).loc main_arg11)) := by
  rw [← ChB_W7_arg11 m ρ c]
  show StableHlo.after hostOps4 (W7 m ρ c) (Proc.devRef .tc main_v65) = _
  after_results
  rfl
theorem ChB_in4_2 (c : Dev nD) : V8 m ρ c (Pipeline.arrRef spec4 2) = KL.row (F := Ideal) (m ((c : Thread nD τ).loc main_arg12)) := by
  rw [← ChB_W7_arg12 m ρ c]
  show StableHlo.after hostOps4 (W7 m ρ c) (Proc.devRef .tc main_v66) = _
  after_results
  rfl
theorem ChB_in4_3 (c : Dev nD) : V8 m ρ c (Pipeline.arrRef spec4 3) = KL.row (F := Ideal) (m ((c : Thread nD τ).loc main_arg13)) := by
  rw [← ChB_W7_arg13 m ρ c]
  show StableHlo.after hostOps4 (W7 m ρ c) (Proc.devRef .tc main_v67) = _
  after_results
  rfl
theorem ChB_in4_4 (c : Dev nD) : V8 m ρ c (Pipeline.arrRef spec4 4) = KL.row (F := Ideal) (m ((c : Thread nD τ).loc main_arg14)) := by
  rw [← ChB_W7_arg14 m ρ c]
  show StableHlo.after hostOps4 (W7 m ρ c) (Proc.devRef .tc main_v68) = _
  after_results
  rfl
theorem ChB_in4_5 (c : Dev nD) : V8 m ρ c (Pipeline.arrRef spec4 5) = KL.row (F := Ideal) (m ((c : Thread nD τ).loc main_arg15)) := by
  rw [← ChB_W7_arg15 m ρ c]
  show StableHlo.after hostOps4 (W7 m ρ c) (Proc.devRef .tc main_v69) = _
  after_results
  rfl

/-- The first of them in the network's terms: one graph convolution, before its bias, of region 2's output. -/
theorem ChB_in4_0 (c : Dev nD) : V8 m ρ c (Pipeline.arrRef spec4 0)
    = KO.layer (W6 m ρ c (Proc.devRef .tc main_v50)) (m ((c : Thread nD τ).loc main_arg10)) (m ((c : Thread nD τ).loc main_arg1)) := by
  unfold KO.layer
  rw [← ChB_W7_v51 m ρ c, ← B_src m ρ c, ← B_dst m ρ c, ← B_norm m ρ c]
  exact ChB_W8_v64 m ρ c

/-! ## Region 4's output array at its exit -/

/-- Equal arguments give equal values. -/
theorem ChB_bnrelu_congr {a a' : FVec Ideal ⟨2, ![200000, 128]⟩ .f32} {b g be mu var b' g' be' mu' var' : FVec Ideal ⟨2, ![1, 128]⟩ .f32}
    (h0 : a = a') (h1 : b = b') (h2 : g = g') (h3 : be = be') (h4 : mu = mu') (h5 : var = var') :
    Cert.Spec.bnrelu a b g be mu var = Cert.Spec.bnrelu a' b' g' be' mu' var' := by
  subst h0 h1 h2 h3 h4 h5; rfl

/-- At region 4's exit its output array holds `KO.h2` of region 2's output array at region 2's exit. -/
theorem B_out (c : Dev nD) : W9 m ρ c (Proc.devRef .tc main_v70)
    = KO.h2 (W6 m ρ c (Proc.devRef .tc main_v50)) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  exact (W9_arr m ρ c 6).trans ((bn_value4 (V8 m ρ) c).trans
    (ChB_bnrelu_congr (ChB_in4_0 m ρ c) (ChB_in4_1 m ρ c) (ChB_in4_2 m ρ c) (ChB_in4_3 m ρ c) (ChB_in4_4 m ρ c) (ChB_in4_5 m ρ c)))

end Cert.KernelIdeal.Gen

end
-- ==== Proof.RegMM5.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's product at an entry -/

/-- The product's left operand index keeps the output's row. -/
theorem mm_lhs_row_r5 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Its column is the contracted coordinate. -/
theorem mm_lhs_col_r5 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted coordinate. -/
theorem mm_rhs_row_r5 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Its column is the output's column. -/
theorem mm_rhs_col_r5 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at entry (p, q) of a block: row p of the loaded rows times column q of the weights. -/
theorem mm_pay_apply_r5 (x0 : FVec Ideal S10000x128 .f32) (x1 : FVec Ideal S128x128 .f32) (p : Fin 10000) (q : Fin 128) :
    k5_pay1 (F := Ideal) x0 x1 (ix2 p q) = ∑ k : Fin 128, x0 (ix2 p k) * x1 (ix2 k q) := by
  unfold k5_pay1
  refine (Ideal.matmul_constant_zero_apply dot_S10000x128_S128x128_S10000x128_1_0_0_1_n_n none _ x1 (ix2 p q)).trans ?_
  rw [shapeCast_self, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm_lhs_row_r5 _ _
    | ⟨1, _⟩ => exact (mm_lhs_col_r5 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (mm_rhs_row_r5 _ _).trans hk
    | ⟨1, _⟩ => exact mm_rhs_col_r5 _ _)
  rw [el, er]

/-! ## From the blocks to the array -/

theorem mm_zero_offsets_r5 : (![0, 0] : Fin 2 → Nat) = fun _ => 0 := funext fun a => by fin_cases a <;> rfl

/-- Where each window's block sits at a grid point, decided over the grid: the row windows' block index is the point
    on the row axis and zero on the lane axis; the weights' window is the whole matrix. -/
theorem mm_idx_facts_r5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An entry of the rows' block at point `t` is the array's entry 10000·t rows further down. -/
theorem mm_rows_blk_r5 (c : Dev nD) (t : Fin cfg5.N) (p : Fin 10000) (k : Fin 128) (i : S200000x128.Idx)
    (h0 : (i 0).val = t.val * 10000 + p.val) (h1 : (i 1).val = k.val) :
    (iblk5 V c 0 t : Vec Ideal S10000x128 .f32) (ix2 p k) = (V c (Pipeline.arrRef spec5 0) : S200000x128.Idx → EReal) i := by
  obtain ⟨e0, e1, -⟩ := mm_idx_facts_r5 t
  show V c (Pipeline.arrRef spec5 0) (((cfg5.win 0).blk t).view.emb (ix2 p k)) = V c (Pipeline.arrRef spec5 0) i
  refine congrArg _ (funext fun a => Fin.ext ?_)
  match a with
  | ⟨0, _⟩ => show win5_0.index t (0 : Fin 2) * 10000 + 1 * p.val = (i 0).val; omega
  | ⟨1, _⟩ => show win5_0.index t (1 : Fin 2) * 128 + 1 * k.val = (i 1).val; omega

/-- The weights' block at any point is the weight matrix. -/
theorem mm_weights_blk_r5 (c : Dev nD) (t : Fin cfg5.N) (k q : Fin 128) :
    (iblk5 V c 1 t : Vec Ideal S128x128 .f32) (ix2 k q) = (V c (Pipeline.arrRef spec5 1) : S128x128.Idx → EReal) (ix2 k q) := by
  obtain ⟨-, -, e2, e3, -⟩ := mm_idx_facts_r5 t
  show V c (Pipeline.arrRef spec5 1) (((cfg5.win 1).blk t).view.emb (ix2 k q)) = V c (Pipeline.arrRef spec5 1) (ix2 k q)
  refine congrArg _ (funext fun a => Fin.ext ?_)
  match a with
  | ⟨0, _⟩ => show win5_1.index t (0 : Fin 2) * 128 + 1 * k.val = k.val; omega
  | ⟨1, _⟩ => show win5_1.index t (1 : Fin 2) * 128 + 1 * q.val = q.val; omega

/-- The body's stored value at entry (p, q) of point `t`'s block is the product's entry at the array index `i` that
    sits 10000·t rows further down. -/
theorem mm_block_entry_r5 (c : Dev nD) (t : Fin cfg5.N) (p : Fin 10000) (q : Fin 128) (i : S200000x128.Idx)
    (h0 : (i 0).val = t.val * 10000 + p.val) (h1 : (i 1).val = q.val) :
    k5_pay1 (F := Ideal) (iblk5 V c 0 t) (iblk5 V c 1 t) (ix2 p q)
      = Cert.Spec.mm (V c (Pipeline.arrRef spec5 0)) (V c (Pipeline.arrRef spec5 1)) i := by
  refine (mm_pay_apply_r5 (iblk5 V c 0 t) (iblk5 V c 1 t) p q).trans ?_
  unfold Cert.Spec.mm
  refine Finset.sum_congr rfl fun k _ => ?_
  have hq : (ix2 k q : S128x128.Idx) = ix2 k (i 1) := congrArg (ix2 k) (Fin.ext h1.symm : q = i 1)
  exact congrArg₂ (· * ·) (mm_rows_blk_r5 V c t p k (ix2 (i 0) k : S200000x128.Idx) h0 rfl)
    ((mm_weights_blk_r5 V c t k q).trans (congrArg _ hq))

/-- WHAT POINT `t` WRITES BACK is block `t` of the product of the two arrays as the region finds them. -/
theorem mm_flushed_eq_r5 (c : Dev nD) (t : Fin cfg5.N) :
    (dat5 (F := Ideal) V c).flushed 2 t = ((cfg5.win 2).blk t).view.read (Elt Ideal) (Cert.Spec.mm (V c (Pipeline.arrRef spec5 0)) (V c (Pipeline.arrRef spec5 1))) := by
  show (cfg5.win 2).cut (grid5.coords t) ((dat5 V c).after 2 t) = _
  rw [after5_2]
  unfold out5_2
  rw [View.canon_unit_zero mm_zero_offsets_r5]
  simp only [View.ld_unit_zero (S := S10000x128) mm_zero_offsets_r5, View.ld_unit_zero (S := S128x128) mm_zero_offsets_r5]
  obtain ⟨-, -, -, -, e4, e5⟩ := mm_idx_facts_r5 t
  funext j
  obtain ⟨p, q, rfl⟩ : ∃ (p : Fin 10000) (q : Fin 128), j = ix2 p q := ⟨j 0, j 1, eq_ix2 j⟩
  exact mm_block_entry_r5 V c t p q _
    (by show win5_2.index t (0 : Fin 2) * 10000 + 1 * p.val = _; omega)
    (by show win5_2.index t (1 : Fin 2) * 128 + 1 * q.val = _; omega)

/-- An index of the array is in point `t`'s block iff each coordinate is in the block's range on its axis. -/
theorem mm_mem_blk_r5 (t : Fin cfg5.N) (i : S200000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole (Pipeline.arrRef spec5 2)).slice (win5_2.rect t)).set ↔ _
  rw [View.set_slice_whole, Rect.mem_set_unit]
  exact Iff.rfl

/-- The blocks cover the array: row `r` lies in the block of point `r / 10000`. -/
theorem mm_cover_r5 (i : S200000x128.Idx) :
    ∃ t : Fin cfg5.N, (cfg5.win 2).flush t = true ∧ i ∈ ((cfg5.win 2).blk t).view.set := by
  have hi0 : (i 0).val < 200000 := (i 0).isLt
  have hi1 : (i 1).val < 128 := (i 1).isLt
  have hN : grid5.N = 20 := N_5
  obtain ⟨t, ht⟩ : ∃ t : Fin cfg5.N, t.val = (i 0).val / 10000 := ⟨⟨(i 0).val / 10000, by show _ < grid5.N; rw [hN]; omega⟩, rfl⟩
  obtain ⟨-, -, -, -, e4, e5⟩ := mm_idx_facts_r5 t
  refine ⟨t, flush5_2 t, ?_⟩
  rw [mm_mem_blk_r5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- REGION 5, a dense layer, from ANY entry contents `V`: the output array holds `Spec.mm` of the two input arrays. -/
theorem mm_value5 (c : Dev nD) :
    (dat5 (F := Ideal) V c).arrAt 2 cfg5.N = Cert.Spec.mm (V c (Pipeline.arrRef spec5 0)) (V c (Pipeline.arrRef spec5 1)) :=
  (dat5 (F := Ideal) V c).arrAt_eq_of_cover 2 _ (fun t _ => mm_flushed_eq_r5 V c t) mm_cover_r5

end Cert.KernelIdeal.Gen

end
-- ==== Proof.RegBias6.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

/-- The body's value at row `p`, lane `q` of its block: the block's entry plus the bias row's lane `q`. -/
theorem bias6_pay_apply (agg : Vec Ideal S10000x128 .f32) (b : Vec Ideal S1x128 .f32) (p : Fin 10000) (q : Fin 128) :
    k6_pay1 (F := Ideal) agg b (ix2 p q) = agg (ix2 p q) + b (ix2 0 q) := by
  unfold k6_pay1
  simp only [shapeCast_self]
  simp only [addf_apply, broadcastTo_1b_ab_apply]

/-- On a block whose rows are rows of an array `A` (block index `j` at array index `e j`, same lane) and whose bias
    row is the whole bias array, the body leaves the block of `Spec.bias` at `e`. -/
theorem bias6_block_eq (agg : Vec Ideal S10000x128 .f32) (b : Vec Ideal S1x128 .f32)
    (A : FVec Ideal S200000x128 .f32) (B : FVec Ideal S1x128 .f32) (e : S10000x128.Idx → S200000x128.Idx)
    (he : ∀ j, (e j 1).val = (j 1).val) (hagg : ∀ j, agg j = A (e j)) (hb : b = B) :
    k6_pay1 (F := Ideal) agg b = fun j => Cert.Spec.bias A B (e j) := by
  subst hb
  funext j
  obtain ⟨p, q, rfl⟩ : ∃ (p : Fin 10000) (q : Fin 128), j = ix2 p q := ⟨j 0, j 1, eq_ix2 j⟩
  have h1 : e (ix2 p q) 1 = q := Fin.ext (he (ix2 p q))
  rw [bias6_pay_apply, hagg]
  unfold Cert.Spec.bias
  rw [h1]

/-! ## From the blocks to the array -/

theorem bias6_zero_off : (![0, 0] : Fin 2 → Nat) = fun _ => 0 := funext fun a => by
  match a with | ⟨0, _⟩ => rfl | ⟨1, _⟩ => rfl

/-- The printed index maps over the grid: the row-tiled windows (input 0, output 2) sit at block `(t, 0)`, the bias
    window is whole, at block `(0, 0)`. -/
theorem bias6_idx_facts : ∀ t : Fin cfg6.N, win6_0.index t (0 : Fin 2) = t.val ∧ win6_0.index t (1 : Fin 2) = 0
    ∧ win6_2.index t (0 : Fin 2) = t.val ∧ win6_2.index t (1 : Fin 2) = 0
    ∧ win6_1.index t (0 : Fin 2) = 0 ∧ win6_1.index t (1 : Fin 2) = 0 :=
  (by decide +kernel : ∀ t : Fin grid6.N, _)

/-- Input window 0's block at point `t` reads the array where the output's block sits. -/
theorem bias6_blk0 (c : Dev nD) (t : Fin cfg6.N) (j : S10000x128.Idx) :
    iblk6 V c 0 t j = V c (Pipeline.arrRef spec6 0) (((cfg6.win 2).blk t).view.emb j) := by
  obtain ⟨e0, e1, e2, e3, -⟩ := bias6_idx_facts t
  show V c (Pipeline.arrRef spec6 0) (((cfg6.win 0).blk t).view.emb j) = _
  refine congrArg _ (funext fun a => Fin.ext ?_)
  match a with
  | ⟨0, _⟩ => show win6_0.index t (0 : Fin 2) * 10000 + 1 * (j 0).val = win6_2.index t (0 : Fin 2) * 10000 + 1 * (j 0).val; omega
  | ⟨1, _⟩ => show win6_0.index t (1 : Fin 2) * 128 + 1 * (j 1).val = win6_2.index t (1 : Fin 2) * 128 + 1 * (j 1).val; omega

/-- The output's block keeps the lane. -/
theorem bias6_emb_lane (t : Fin cfg6.N) (j : S10000x128.Idx) : ((((cfg6.win 2).blk t).view.emb j) 1).val = (j 1).val := by
  obtain ⟨-, -, -, e3, -⟩ := bias6_idx_facts t
  show win6_2.index t (1 : Fin 2) * 128 + 1 * (j 1).val = (j 1).val
  omega

/-- The bias window's block is the whole one-row array. -/
theorem bias6_blk1 (c : Dev nD) (t : Fin cfg6.N) : iblk6 V c 1 t = V c (Pipeline.arrRef spec6 1) := by
  obtain ⟨-, -, -, -, e0, e1⟩ := bias6_idx_facts t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 128 + 1 * (y 1).val = (y 1).val; omega

set_option maxHeartbeats 2000000 in
/-- WHAT POINT `t` WRITES BACK is block `t` of `Spec.bias` of the two arrays as the region finds them. -/
theorem bias6_flushed_eq (c : Dev nD) (t : Fin cfg6.N) :
    (dat6 (F := Ideal) V c).flushed 2 t = ((cfg6.win 2).blk t).view.read (Elt Ideal)
      (Cert.Spec.bias (V c (Pipeline.arrRef spec6 0)) (V c (Pipeline.arrRef spec6 1))) := by
  show (cfg6.win 2).cut (grid6.coords t) ((dat6 V c).after 2 t) = _
  rw [after6_2]
  unfold out6_2
  rw [View.canon_unit_zero bias6_zero_off]
  simp only [View.ld_unit_zero (S := S10000x128) bias6_zero_off, View.ld_unit_zero (S := S1x128) bias6_zero_off]
  exact bias6_block_eq (iblk6 V c 0 t) (iblk6 V c 1 t) (V c (Pipeline.arrRef spec6 0)) (V c (Pipeline.arrRef spec6 1))
    ((cfg6.win 2).blk t).view.emb (bias6_emb_lane t) (bias6_blk0 V c t) (bias6_blk1 V c t)

/-- An index of the array is in point `t`'s block iff each coordinate is in the block's range on its axis. -/
theorem bias6_mem_blk (t : Fin cfg6.N) (i : S200000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v86).slice (win6_2.rect t)).set ↔ _
  rw [View.set_slice_whole, Rect.mem_set_unit]
  exact Iff.rfl

/-- Row `r` of the array is in the block of point `r / 10000`. -/
theorem bias6_cover (i : S200000x128.Idx) : ∃ t : Fin cfg6.N, (cfg6.win 2).flush t = true ∧ i ∈ ((cfg6.win 2).blk t).view.set := by
  have hi0 : (i 0).val < 200000 := (i 0).isLt
  have hi1 : (i 1).val < 128 := (i 1).isLt
  have hN : cfg6.N = 20 := N_6
  let t : Fin cfg6.N := ⟨(i 0).val / 10000, by rw [hN]; omega⟩
  obtain ⟨-, -, e2, e3, -⟩ := bias6_idx_facts t
  have ht : t.val = (i 0).val / 10000 := rfl
  refine ⟨t, flush6_2 t, ?_⟩
  rw [bias6_mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 128 ≤ (i 1).val ∧ (i 1).val < win6_2.index t (1 : Fin 2) * 128 + 128; omega

/-- REGION 6, the last layer's bias, from ANY entry contents `V`. -/
theorem bias_value6 (c : Dev nD) :
    (dat6 (F := Ideal) V c).arrAt 2 cfg6.N = Cert.Spec.bias (V c (Pipeline.arrRef spec6 0)) (V c (Pipeline.arrRef spec6 1)) :=
  (dat6 (F := Ideal) V c).arrAt_eq_of_cover 2 _ (fun t _ => bias6_flushed_eq V c t) bias6_cover

end Cert.KernelIdeal.Gen

end
-- ==== Proof.RegPool7.lean ====
import proofs.«418650_j59313498358439_1_alg».proof.Proof.Gen.KernelIdeal.Frame
import proofs.«418650_j59313498358439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Pool7

/-! ## The head's product: its operand indices, axis by axis -/

/-- The left operand's row is the output's row. -/
theorem lhs_head_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
/-- The left operand's column is the contraction position. -/
theorem lhs_head_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
/-- The right operand's row is the contraction position. -/
theorem rhs_head_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
/-- The right operand's column is the output's column. -/
theorem rhs_head_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A product of a [4000,128] matrix with a [128,1] column into the zero splat, read at an entry: the sum over the
    128 contraction positions of the row's entries times the column's. -/
theorem head_matmul_apply (a : FVec Ideal S4000x128 .f32) (b : FVec Ideal S128x1 .f32) (g : Fin 4000) (z : Fin 1) :
    matmul dot_S4000x128_S128x1_S4000x1_1_0_0_1_n_n none a b (constant (F := Ideal) S4000x1 .f32 0x00000000#32) (ix2 g z)
      = ∑ k : Fin 128, a (ix2 g k) * b (ix2 k z) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 g z) ((ValueIdx.contrEquiv1 dot_S4000x128_S128x1_S4000x1_1_0_0_1_n_n 128 rfl rfl).symm k) = ix2 g k := funext fun a => Fin.ext (by
    match a with
    | ⟨0, _⟩ => exact lhs_head_0 _ _
    | ⟨1, _⟩ => exact (lhs_head_1 _ _).trans hk)
  have er : dot_S4000x128_S128x1_S4000x1_1_0_0_1_n_n.rhsIdx (ix2 g z) ((ValueIdx.contrEquiv1 dot_S4000x128_S128x1_S4000x1_1_0_0_1_n_n 128 rfl rfl).symm k) = ix2 k z := funext fun a => Fin.ext (by
    match a with
    | ⟨0, _⟩ => exact (rhs_head_0 _ _).trans hk
    | ⟨1, _⟩ => exact rhs_head_1 _ _)
  rw [el, er]

/-! ## The two spreads, read at an entry -/

/-- A [4000,1] column spread over 128 lanes reads, at (g, k), the column's entry of row g. -/
theorem spread_col_apply {α : Type} (x : S4000x1.Idx → α) (g : Fin 4000) (k : Fin 128) :
    broadcastTo S4000x128 x broadcasts_S4000x1_S4000x128 (ix2 g k) = x (ix2 g 0) :=
  broadcastTo_apply x broadcasts_S4000x1_S4000x128 (ix2 g k) (ix2 g 0) (fun a => match a with
    | ⟨0, _⟩ => by show g.val = if (4000 : Nat) = 1 then 0 else g.val; rw [if_neg (by decide)]
    | ⟨1, _⟩ => by show 0 = if (1 : Nat) = 1 then 0 else _; rw [if_pos rfl])

/-- The one-entry matrix spread down the [4000,1] column reads its entry in every row. -/
theorem spread_one_apply {α : Type} (x : S1x1.Idx → α) (g : Fin 4000) (z : Fin 1) :
    broadcastTo S4000x1 x broadcasts_S1x1_S4000x1 (ix2 g z) = x (ix2 0 z) :=
  broadcastTo_apply x broadcasts_S1x1_S4000x1 (ix2 g z) (ix2 0 z) (fun a => match a with
    | ⟨0, _⟩ => by show 0 = if (1 : Nat) = 1 then 0 else _; rw [if_pos rfl]
    | ⟨1, _⟩ => by show z.val = if (1 : Nat) = 1 then 0 else _; rw [if_pos rfl]; have := z.isLt; omega)

/-! ## The body's arithmetic at an entry -/

/-- The body's result at entry (g, z): the row's sums over the row's count (at least one), lane by lane, times the
    head's weights, summed over the 128 lanes, plus the head's bias. -/
theorem pool_payload_apply (x0 : Vec Ideal S4000x128 .f32) (x1 : Vec Ideal S4000x1 .f32) (x2 : Vec Ideal S128x1 .f32)
    (x3 : Vec Ideal S1x1 .f32) (g : Fin 4000) (z : Fin 1) :
    k7_pay1 (F := Ideal) x0 x1 x2 x3 (ix2 g z)
      = (∑ k : Fin 128, Ideal.div (x0 (ix2 g k)) (max (x1 (ix2 g 0)) (Scalar.ofBits (F := Ideal) .f32 0x3F800000#32)) * x2 (ix2 k z))
        + x3 (ix2 0 z) := by
  unfold k7_pay1
  simp only [shapeCast_self]
  rw [addf_apply, head_matmul_apply, spread_one_apply]
  refine congrArg (· + x3 (ix2 0 z)) (Finset.sum_congr rfl fun k _ => ?_)
  rw [divf_apply, spread_col_apply, maximumf_apply, broadcast_apply]

/-! ## From the one grid point's block to the array -/

theorem origin2 : (![0, 0] : Fin 2 → Nat) = fun _ => 0 := funext fun a => by fin_cases a <;> rfl

/-- Every window of the region is its whole array: at the one grid point each block index is zero on both axes. -/
theorem whole_blocks : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- The sums' block, entry (g, k), is the sums' array there. -/
theorem sums_blk (c : Dev nD) (t : Fin cfg7.N) (g : Fin 4000) (k : Fin 128) :
    (iblk7 V c 0 t : Vec Ideal S4000x128 .f32) (ix2 g k)
      = (V c (Pipeline.arrRef spec7 0) : S4000x128.Idx → Elt Ideal .f32) (ix2 g k) := by
  obtain ⟨e0, e1, -⟩ := whole_blocks t
  show V c (Pipeline.arrRef spec7 0) (((cfg7.win 0).blk t).view.emb (ix2 g k)) = _
  refine congrArg _ (funext fun a => Fin.ext ?_)
  match a with
  | ⟨0, _⟩ => show win7_0.index t (0 : Fin 2) * 4000 + 1 * g.val = g.val; omega
  | ⟨1, _⟩ => show win7_0.index t (1 : Fin 2) * 128 + 1 * k.val = k.val; omega

/-- The counts' block, entry (g, z), is the counts' array there. -/
theorem counts_blk (c : Dev nD) (t : Fin cfg7.N) (g : Fin 4000) (z : Fin 1) :
    (iblk7 V c 1 t : Vec Ideal S4000x1 .f32) (ix2 g z)
      = (V c (Pipeline.arrRef spec7 1) : S4000x1.Idx → Elt Ideal .f32) (ix2 g z) := by
  obtain ⟨-, -, e0, e1, -⟩ := whole_blocks t
  show V c (Pipeline.arrRef spec7 1) (((cfg7.win 1).blk t).view.emb (ix2 g z)) = _
  refine congrArg _ (funext fun a => Fin.ext ?_)
  match a with
  | ⟨0, _⟩ => show win7_1.index t (0 : Fin 2) * 4000 + 1 * g.val = g.val; omega
  | ⟨1, _⟩ => show win7_1.index t (1 : Fin 2) * 1 + 1 * z.val = z.val; omega

/-- The head weights' block, entry (k, z), is the weights' array there. -/
theorem weights_blk (c : Dev nD) (t : Fin cfg7.N) (k : Fin 128) (z : Fin 1) :
    (iblk7 V c 2 t : Vec Ideal S128x1 .f32) (ix2 k z)
      = (V c (Pipeline.arrRef spec7 2) : S128x1.Idx → Elt Ideal .f32) (ix2 k z) := by
  obtain ⟨-, -, -, -, e0, e1, -⟩ := whole_blocks t
  show V c (Pipeline.arrRef spec7 2) (((cfg7.win 2).blk t).view.emb (ix2 k z)) = _
  refine congrArg _ (funext fun a => Fin.ext ?_)
  match a with
  | ⟨0, _⟩ => show win7_2.index t (0 : Fin 2) * 128 + 1 * k.val = k.val; omega
  | ⟨1, _⟩ => show win7_2.index t (1 : Fin 2) * 1 + 1 * z.val = z.val; omega

/-- The head bias' block, entry (u, z), is the bias' array there. -/
theorem bias_blk (c : Dev nD) (t : Fin cfg7.N) (u z : Fin 1) :
    (iblk7 V c 3 t : Vec Ideal S1x1 .f32) (ix2 u z)
      = (V c (Pipeline.arrRef spec7 3) : S1x1.Idx → Elt Ideal .f32) (ix2 u z) := by
  obtain ⟨-, -, -, -, -, -, e0, e1, -⟩ := whole_blocks t
  show V c (Pipeline.arrRef spec7 3) (((cfg7.win 3).blk t).view.emb (ix2 u z)) = _
  refine congrArg _ (funext fun a => Fin.ext ?_)
  match a with
  | ⟨0, _⟩ => show win7_3.index t (0 : Fin 2) * 1 + 1 * u.val = u.val; omega
  | ⟨1, _⟩ => show win7_3.index t (1 : Fin 2) * 1 + 1 * z.val = z.val; omega

/-- The output's block sits at the array's origin: entry (g, z) of the block is entry (g, z) of the array. -/
theorem out_blk_emb (t : Fin cfg7.N) (g : Fin 4000) (z : Fin 1) :
    ((cfg7.win 4).blk t).view.emb (ix2 g z) = (ix2 g z : S4000x1.Idx) := by
  obtain ⟨-, -, -, -, -, -, -, -, e0, e1⟩ := whole_blocks t
  refine funext fun a => Fin.ext ?_
  match a with
  | ⟨0, _⟩ => show win7_4.index t (0 : Fin 2) * 4000 + 1 * g.val = g.val; omega
  | ⟨1, _⟩ => show win7_4.index t (1 : Fin 2) * 1 + 1 * z.val = z.val; omega

/-- What the grid point writes back is its block of the pooled-and-headed array of the four arrays the region finds. -/
theorem pool_flushed (c : Dev nD) (t : Fin cfg7.N) :
    (dat7 (F := Ideal) V c).flushed 4 t = ((cfg7.win 4).blk t).view.read (Elt Ideal)
      (Cert.Spec.pool (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero origin2]
  simp only [View.ld_unit_zero (S := S4000x128) origin2, View.ld_unit_zero (S := S4000x1) origin2,
    View.ld_unit_zero (S := S128x1) origin2, View.ld_unit_zero (S := S1x1) origin2]
  funext j
  obtain ⟨g, z, rfl⟩ : ∃ (g : Fin 4000) (z : Fin 1), j = ix2 g z := ⟨j 0, j 1, eq_ix2 j⟩
  show k7_pay1 (iblk7 V c 0 t) (iblk7 V c 1 t) (iblk7 V c 2 t) (iblk7 V c 3 t) (ix2 g z)
    = Cert.Spec.pool (V c (Pipeline.arrRef spec7 0)) (V c (Pipeline.arrRef spec7 1)) (V c (Pipeline.arrRef spec7 2)) (V c (Pipeline.arrRef spec7 3))
        (((cfg7.win 4).blk t).view.emb (ix2 g z))
  refine (pool_payload_apply _ _ _ _ g z).trans ?_
  rw [out_blk_emb t g z]
  show _ = (∑ k : Fin 128, Ideal.div ((V c (Pipeline.arrRef spec7 0) : S4000x128.Idx → Elt Ideal .f32) (ix2 g k))
        (max ((V c (Pipeline.arrRef spec7 1) : S4000x1.Idx → Elt Ideal .f32) (ix2 g 0)) (Scalar.ofBits (F := Ideal) .f32 0x3F800000#32))
        * (V c (Pipeline.arrRef spec7 2) : S128x1.Idx → Elt Ideal .f32) (ix2 k z))
      + (V c (Pipeline.arrRef spec7 3) : S1x1.Idx → Elt Ideal .f32) (ix2 0 z)
  rw [counts_blk V c t g 0, bias_blk V c t 0 z]
  refine congrArg (· + _) (Finset.sum_congr rfl fun k _ => ?_)
  rw [sums_blk V c t g k, weights_blk V c t k z]

/-- An entry of the output array lies in the grid point's block iff each coordinate lies in the block's range. -/
theorem mem_out_blk (t : Fin cfg7.N) (i : S4000x1.Idx) :
    i ∈ ((cfg7.win 4).blk t).view.set ↔ ∀ a : Fin 2, win7_4.index t a * S4000x1.size a ≤ (i a).val ∧ (i a).val < win7_4.index t a * S4000x1.size a + S4000x1.size a := by
  show i ∈ ((View.whole main_v96).slice (win7_4.rect t)).set ↔ _
  rw [View.set_slice_whole, Rect.mem_set_unit]
  exact Iff.rfl

/-- The one grid point's block is the whole output array. -/
theorem out_covered (i : S4000x1.Idx) : ∃ t : Fin cfg7.N, (cfg7.win 4).flush t = true ∧ i ∈ ((cfg7.win 4).blk t).view.set := by
  refine ⟨t7_0, flush7_4 t7_0, ?_⟩
  rw [mem_out_blk]
  obtain ⟨-, -, -, -, -, -, -, -, e0, e1⟩ := whole_blocks t7_0
  have h0 : (i 0).val < 4000 := (i 0).isLt
  have h1 : (i 1).val < 1 := (i 1).isLt
  intro a
  match a with
  | ⟨0, _⟩ => show win7_4.index t7_0 (0 : Fin 2) * 4000 ≤ (i 0).val ∧ (i 0).val < win7_4.index t7_0 (0 : Fin 2) * 4000 + 4000; omega
  | ⟨1, _⟩ => show win7_4.index t7_0 (1 : Fin 2) * 1 ≤ (i 1).val ∧ (i 1).val < win7_4.index t7_0 (1 : Fin 2) * 1 + 1; omega

end Pool7

/-- REGION 7, mean pooling and the head (one grid point), from ANY entry contents `V`. -/
theorem pool_value7 (c : Dev nD) :
    (dat7 (F := Ideal) V c).arrAt 4 cfg7.N = Cert.Spec.pool (V c (Pipeline.arrRef spec7 0)) (V c (Pipeline.arrRef spec7 1)) (V c (Pipeline.arrRef spec7 2)) (V c (Pipeline.arrRef spec7 3)) :=
  (dat7 V c).arrAt_eq_of_cover 4 _ (fun t _ => Pool7.pool_flushed V c t) Pool7.out_covered

end Cert.KernelIdeal.Gen

end
-- ==== Proof.ChainC.lean ====
import proofs.«418650_j59313498358439_1_alg».proof.Proof.Gen.KernelIdeal.Frame
import proofs.«418650_j59313498358439_1_alg».proof.Proof.KOut
import proofs.«418650_j59313498358439_1_alg».proof.Proof.ChainB
import proofs.«418650_j59313498358439_1_alg».proof.Proof.RegMM5
import proofs.«418650_j59313498358439_1_alg».proof.Proof.RegBias6
import proofs.«418650_j59313498358439_1_alg».proof.Proof.RegPool7
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.SL.Sem Cert.KernelIdeal
open Idealize.ShloMosaic.Pipeline (Dat Cfg Window)

variable (m : (ℓ : Loc nD τ sig) → Buf (Elt Ideal) ℓ) (ρ : Dev nD → PrngReg)

/-! ## A buffer that no operation of a stretch of host operations writes holds after the stretch what it held before -/

local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments where the later boundaries read them

An argument is written by nobody, so it holds at the run's end what it held at the launch; a boundary in between holds
what the end holds, step by step upward: a region leaves a buffer that is no array of its windows, and an input
window's array, as entered; a stretch of host operations leaves a buffer it does not write. -/

/-- The head's weights at the last region's entry. -/
theorem C_arg18 (c : Dev nD) : W13 m ρ c (Proc.devRef .tc main_arg18) = m ((c : Thread nD τ).loc main_arg18) :=
  calc W13 m ρ c (Proc.devRef .tc main_arg18)
    _ = W14 m ρ c (Proc.devRef .tc main_arg18) :=
        ((W14_arr m ρ c 2).trans (((dat7 (V13 m ρ) c).arrAt_in 2 rfl _).trans (A_eq7 (V13 m ρ) c 2))).symm
    _ = m ((c : Thread nD τ).loc main_arg18) := W14_main_arg18 m ρ c

/-- The graph ids at region 6's exit. -/
theorem C_arg2 (c : Dev nD) : W12 m ρ c (Proc.devRef .tc main_arg2) = m ((c : Thread nD τ).loc main_arg2) :=
  calc W12 m ρ c (Proc.devRef .tc main_arg2)
    _ = W13 m ρ c (Proc.devRef .tc main_arg2) := Eq.symm (by not_written hostOps7)
    _ = W14 m ρ c (Proc.devRef .tc main_arg2) := (W14_of_ne m ρ c main_arg2 (by decide)).symm
    _ = m ((c : Thread nD τ).loc main_arg2) := W14_main_arg2 m ρ c

/-- The head's bias at region 6's exit. -/
theorem C_arg19 (c : Dev nD) : W12 m ρ c (Proc.devRef .tc main_arg19) = m ((c : Thread nD τ).loc main_arg19) :=
  calc W12 m ρ c (Proc.devRef .tc main_arg19)
    _ = W13 m ρ c (Proc.devRef .tc main_arg19) := Eq.symm (by not_written hostOps7)
    _ = W14 m ρ c (Proc.devRef .tc main_arg19) := (W14_of_ne m ρ c main_arg19 (by decide)).symm
    _ = m ((c : Thread nD τ).loc main_arg19) := W14_main_arg19 m ρ c

/-- The last layer's bias at region 5's exit. -/
theorem C_arg17 (c : Dev nD) : W10 m ρ c (Proc.devRef .tc main_arg17) = m ((c : Thread nD τ).loc main_arg17) :=
  calc W10 m ρ c (Proc.devRef .tc main_arg17)
    _ = W11 m ρ c (Proc.devRef .tc main_arg17) := Eq.symm (by not_written hostOps6)
    _ = W12 m ρ c (Proc.devRef .tc main_arg17) := (W12_of_ne m ρ c main_arg17 (by decide)).symm
    _ = W13 m ρ c (Proc.devRef .tc main_arg17) := Eq.symm (by not_written hostOps7)
    _ = W14 m ρ c (Proc.devRef .tc main_arg17) := (W14_of_ne m ρ c main_arg17 (by decide)).symm
    _ = m ((c : Thread nD τ).loc main_arg17) := W14_main_arg17 m ρ c

/-- The last layer's weights at region 4's exit. -/
theorem C_arg16 (c : Dev nD) : W9 m ρ c (Proc.devRef .tc main_arg16) = m ((c : Thread nD τ).loc main_arg16) :=
  calc W9 m ρ c (Proc.devRef .tc main_arg16)
    _ = W10 m ρ c (Proc.devRef .tc main_arg16) :=
        ((W10_arr m ρ c 1).trans (((dat5 (V9 m ρ) c).arrAt_in 1 rfl _).trans (A_eq5 (V9 m ρ) c 1))).symm
    _ = W11 m ρ c (Proc.devRef .tc main_arg16) := Eq.symm (by not_written hostOps6)
    _ = W12 m ρ c (Proc.devRef .tc main_arg16) := (W12_of_ne m ρ c main_arg16 (by decide)).symm
    _ = W13 m ρ c (Proc.devRef .tc main_arg16) := Eq.symm (by not_written hostOps7)
    _ = W14 m ρ c (Proc.devRef .tc main_arg16) := (W14_of_ne m ρ c main_arg16 (by decide)).symm
    _ = m ((c : Thread nD τ).loc main_arg16) := W14_main_arg16 m ρ c

/-! ## The augmented edge list and its weights at region 5's exit: unchanged since region 3's exit -/

theorem C_src (c : Dev nD) : W10 m ρ c (Proc.devRef .tc main_v5) = KL.srcAug (m ((c : Thread nD τ).loc main_arg1)) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := by not_written hostOps4
    _ = KL.srcAug (m ((c : Thread nD τ).loc main_arg1)) := B_src m ρ c

theorem C_dst (c : Dev nD) : W10 m ρ c (Proc.devRef .tc main_v6) = KL.dstAug (m ((c : Thread nD τ).loc main_arg1)) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by not_written hostOps4
    _ = KL.dstAug (m ((c : Thread nD τ).loc main_arg1)) := B_dst m ρ c

theorem C_norm (c : Dev nD) :
    W10 m ρ c (Proc.devRef .tc main_v28) = KL.normAug (F := Ideal) (m ((c : Thread nD τ).loc main_arg1)) :=
  calc W10 m ρ c (Proc.devRef .tc main_v28)
    _ = W9 m ρ c (Proc.devRef .tc main_v28) := W10_of_ne m ρ c main_v28 (by decide)
    _ = W8 m ρ c (Proc.devRef .tc main_v28) := W9_of_ne m ρ c main_v28 (by decide)
    _ = W7 m ρ c (Proc.devRef .tc main_v28) := by not_written hostOps4
    _ = KL.normAug (F := Ideal) (m ((c : Thread nD τ).loc main_arg1)) := B_norm m ρ c

/-! ## What the last two stretches of host operations write, over what they read -/

/-- Region 6's first input: the aggregation of region 5's output over the augmented edges. -/
theorem C_host_agg (c : Dev nD) : W11 m ρ c (Proc.devRef .tc main_v84)
    = KL.aggF (F := Ideal) (W10 m ρ c (Proc.devRef .tc main_v71)) (W10 m ρ c (Proc.devRef .tc main_v5))
        (W10 m ρ c (Proc.devRef .tc main_v6)) (W10 m ρ c (Proc.devRef .tc main_v28)) := by
  show StableHlo.after hostOps6 (W10 m ρ c) (Proc.devRef .tc main_v84) = _
  dsimp only [hostOps6]
  after_results_simp
  rfl

/-- Region 6's second input: the last layer's bias as a row. -/
theorem C_host_row (c : Dev nD) : W11 m ρ c (Proc.devRef .tc main_v85)
    = KL.row (F := Ideal) (W10 m ρ c (Proc.devRef .tc main_arg17)) := by
  show StableHlo.after hostOps6 (W10 m ρ c) (Proc.devRef .tc main_v85) = _
  dsimp only [hostOps6]
  after_results
  rfl

/-- Region 7's first input: the node rows summed per graph. -/
theorem C_host_sums (c : Dev nD) : W13 m ρ c (Proc.devRef .tc main_v93)
    = KL.sums (F := Ideal) (W12 m ρ c (Proc.devRef .tc main_v86)) (W12 m ρ c (Proc.devRef .tc main_arg2)) := by
  show StableHlo.after hostOps7 (W12 m ρ c) (Proc.devRef .tc main_v93) = _
  dsimp only [hostOps7]
  after_results
  rfl

/-- Region 7's second input: the node counts per graph, as a column. -/
theorem C_host_counts (c : Dev nD) : W13 m ρ c (Proc.devRef .tc main_v94)
    = KL.countsCol (F := Ideal) (W12 m ρ c (Proc.devRef .tc main_arg2)) := by
  show StableHlo.after hostOps7 (W12 m ρ c) (Proc.devRef .tc main_v94) = _
  dsimp only [hostOps7]
  after_results
  rfl

/-- Region 7's fourth input: the head's bias as a one-by-one matrix. -/
theorem C_host_bias (c : Dev nD) : W13 m ρ c (Proc.devRef .tc main_v95)
    = KL.bias11 (F := Ideal) (W12 m ρ c (Proc.devRef .tc main_arg19)) := by
  show StableHlo.after hostOps7 (W12 m ρ c) (Proc.devRef .tc main_v95) = _
  dsimp only [hostOps7]
  after_results
  rfl

/-! ## The three regions' outputs -/

/-- Region 5's output: the dense layer of region 4's output. -/
theorem C_mm (c : Dev nD) : W10 m ρ c (Proc.devRef .tc main_v71)
    = Cert.Spec.mm (W9 m ρ c (Proc.devRef .tc main_v70)) (m ((c : Thread nD τ).loc main_arg16)) :=
  calc W10 m ρ c (Proc.devRef .tc main_v71)
    _ = (dat5 (V9 m ρ) c).arrAt 2 cfg5.N := W10_arr m ρ c 2
    _ = Cert.Spec.mm (W9 m ρ c (Proc.devRef .tc main_v70)) (W9 m ρ c (Proc.devRef .tc main_arg16)) := mm_value5 (V9 m ρ) c
    _ = Cert.Spec.mm (W9 m ρ c (Proc.devRef .tc main_v70)) (m ((c : Thread nD τ).loc main_arg16)) := by
        rw [C_arg16 m ρ c]

/-- Region 6's first input is the third layer before its bias. -/
theorem C_layer (c : Dev nD) : W11 m ρ c (Proc.devRef .tc main_v84)
    = KO.layer (W9 m ρ c (Proc.devRef .tc main_v70)) (m ((c : Thread nD τ).loc main_arg16))
        (m ((c : Thread nD τ).loc main_arg1)) := by
  rw [C_host_agg m ρ c, C_mm m ρ c, C_src m ρ c, C_dst m ρ c, C_norm m ρ c]
  rfl

/-- Region 6's output: the third layer with its bias. -/
theorem C_bias (c : Dev nD) : W12 m ρ c (Proc.devRef .tc main_v86)
    = Cert.Spec.bias (KO.layer (W9 m ρ c (Proc.devRef .tc main_v70)) (m ((c : Thread nD τ).loc main_arg16))
        (m ((c : Thread nD τ).loc main_arg1))) (KL.row (F := Ideal) (m ((c : Thread nD τ).loc main_arg17))) :=
  calc W12 m ρ c (Proc.devRef .tc main_v86)
    _ = (dat6 (V11 m ρ) c).arrAt 2 cfg6.N := W12_arr m ρ c 2
    _ = Cert.Spec.bias (W11 m ρ c (Proc.devRef .tc main_v84)) (W11 m ρ c (Proc.devRef .tc main_v85)) := bias_value6 (V11 m ρ) c
    _ = _ := by rw [C_layer m ρ c, C_host_row m ρ c, C_arg17 m ρ c]

/-- At the run's end the result array holds `KO.out` of region 4's output array at region 4's exit. -/
theorem C_out (c : Dev nD) : W14 m ρ c (Proc.devRef .tc main_v96)
    = KO.out (W9 m ρ c (Proc.devRef .tc main_v70)) (m ((c : Thread nD τ).loc main_arg1)) (m ((c : Thread nD τ).loc main_arg2)) (m ((c : Thread nD τ).loc main_arg16)) (m ((c : Thread nD τ).loc main_arg17)) (m ((c : Thread nD τ).loc main_arg18)) (m ((c : Thread nD τ).loc main_arg19)) := by
  have h : W14 m ρ c (Proc.devRef .tc main_v96)
      = Cert.Spec.pool (W13 m ρ c (Proc.devRef .tc main_v93)) (W13 m ρ c (Proc.devRef .tc main_v94))
          (W13 m ρ c (Proc.devRef .tc main_arg18)) (W13 m ρ c (Proc.devRef .tc main_v95)) :=
    (W14_arr m ρ c 4).trans (pool_value7 (V13 m ρ) c)
  rw [h, C_host_sums m ρ c, C_host_counts m ρ c, C_arg18 m ρ c, C_host_bias m ρ c, C_bias m ρ c, C_arg2 m ρ c,
    C_arg19 m ρ c]
  rfl

end Cert.KernelIdeal.Gen

end
-- ==== Proof.RLayers.lean ====
/-
  The reference program's layers, as functions of what each reads.

  The atom embedding emb[f, x[n, f], :] summed over the nine features (embF); the degree normalisation dinv; one
  graph convolution's aggregation Σ_{e : dst e = n} hw[src e] · dinv[src e] · dinv[dst e] + hw[n] · dinv[n]² (aggF);
  bias, batch normalisation and the rectifier (bnF); the last layer's bias (biasF); the mean pooling and the head.
-/
import proofs.«418650_j59313498358439_1_alg».proof.ReferenceIdeal

noncomputable section

namespace Cert.ReferenceIdeal.RL

open Idealize.ShloMosaic Cert.ReferenceIdeal Cert.ReferenceIdeal.Facts₀ Cert.ReferenceIdeal.Facts

variable [Cert.ReferenceIdeal.Facts] {F : FTy → Type} [FloatOps F]

/-- The source node of each edge. -/
def src (x1 : IVec S2x640000 32) : IVec S640000 32 := (shapeCast _ (extractStridedSlice S1x640000 ![0, 0] x1 slices_S2x640000_S1x640000_0_0) shapeCasts_S1x640000_S640000)
/-- The target node of each edge. -/
def dst (x1 : IVec S2x640000 32) : IVec S640000 32 := (shapeCast _ (extractStridedSlice S1x640000 ![1, 0] x1 slices_S2x640000_S1x640000_1_0) shapeCasts_S1x640000_S640000)
/-- (1 + in-degree)^(-1/2) per node. -/
def dinv (x1 : IVec S2x640000 32) : FVec F S200000 .f32 := (Host.rsqrt (addf (broadcastInDim S200000 ![] bcast_S_S200000 (constant S_ .f32 0x3F800000#32)) (Host.scatterAdd scatter_S200000_S640000x1_S640000_n_0_0_1 (broadcastInDim S200000 ![] bcast_S_S200000 (constant S_ .f32 0x00000000#32)) (broadcastInDim S640000x1 ![0] bcast_S640000_S640000x1_0 (dst x1)) (broadcastInDim S640000 ![] bcast_S_S640000 (constant S_ .f32 0x3F800000#32)))))
/-- A negative index wraps once by the node count; the result as a column of start indices. -/
def nidx (v : IVec S640000 32) : IVec S640000x1 32 := (broadcastInDim S640000x1 ![0] bcast_S640000_S640000x1_0 (select (cmpi .slt v (broadcastInDim S640000 ![] bcast_S_S640000 (constantI S_ 32 0#32))) (addi v (broadcastInDim S640000 ![] bcast_S_S640000 (constantI S_ 32 200000#32))) v))
/-- The weight of each edge: dinv at its source times dinv at its target. -/
def norm (x1 : IVec S2x640000 32) : FVec F S640000 .f32 := (mulf (Host.gather gather_S200000_S640000x1_S640000_n_0_n_n_0_1_1 (dinv (F := F) x1) (nidx (src x1))) (Host.gather gather_S200000_S640000x1_S640000_n_0_n_n_0_1_1 (dinv (F := F) x1) (nidx (dst x1))))
/-- One graph convolution's aggregation with the self-loop term added apart. -/
def aggF (hw : FVec F S200000x128 .f32) (x1 : IVec S2x640000 32) : FVec F S200000x128 .f32 :=
  (addf (Host.scatterAdd scatter_S200000x128_S640000x1_S640000x128_1_0_0_1 (broadcastInDim S200000x128 ![] bcast_S_S200000x128 (constant S_ .f32 0x00000000#32)) (broadcastInDim S640000x1 ![0] bcast_S640000_S640000x1_0 (dst x1)) (mulf (Host.gather gather_S200000x128_S640000x1_S640000x128_1_0_n_n_0_1_1128 hw (nidx (src x1))) (broadcastInDim S640000x128 ![0, 1] bcast_S640000x1_S640000x128_0_1 (broadcastInDim S640000x1 ![0] bcast_S640000_S640000x1_0 (norm (F := F) x1))))) (mulf hw (broadcastInDim S200000x128 ![0, 1] bcast_S200000x1_S200000x128_0_1 (broadcastInDim S200000x1 ![0] bcast_S200000_S200000x1_0 (mulf (dinv (F := F) x1) (dinv (F := F) x1))))))
/-- Bias, batch normalisation with the stored statistics, and the rectifier. -/
def bnF (agg : FVec F S200000x128 .f32) (b g be mu var : FVec F S128 .f32) : FVec F S200000x128 .f32 :=
  (maximumf (addf (mulf (mulf (broadcastInDim S200000x128 ![0, 1] bcast_S1x128_S200000x128_0_1 (broadcastInDim S1x128 ![1] bcast_S128_S1x128_1 g)) (subf (addf agg (broadcastInDim S200000x128 ![0, 1] bcast_S1x128_S200000x128_0_1 (broadcastInDim S1x128 ![1] bcast_S128_S1x128_1 b))) (broadcastInDim S200000x128 ![0, 1] bcast_S1x128_S200000x128_0_1 (broadcastInDim S1x128 ![1] bcast_S128_S1x128_1 mu)))) (broadcastInDim S200000x128 ![0, 1] bcast_S1x128_S200000x128_0_1 (broadcastInDim S1x128 ![1] bcast_S128_S1x128_1 (Host.rsqrt (addf var (broadcastInDim S128 ![] bcast_S_S128 (constant S_ .f32 0x3727C5AC#32))))))) (broadcastInDim S200000x128 ![0, 1] bcast_S1x128_S200000x128_0_1 (broadcastInDim S1x128 ![1] bcast_S128_S1x128_1 be))) (broadcastInDim S200000x128 ![] bcast_S_S200000x128 (constant S_ .f32 0x00000000#32)))
/-- The last layer adds its bias only. -/
def biasF (agg : FVec F S200000x128 .f32) (b : FVec F S128 .f32) : FVec F S200000x128 .f32 := (addf agg (broadcastInDim S200000x128 ![0, 1] bcast_S1x128_S200000x128_0_1 (broadcastInDim S1x128 ![1] bcast_S128_S1x128_1 b)))
/-- The atom embedding: per node the nine looked-up rows summed. -/
def embF (x0 : IVec S200000x9 32) (x3 : FVec F S9x119x128 .f32) : FVec F S200000x128 .f32 := (Host.reduceAdd (Host.gather gather_S9x119x128_S200000x9x2_S200000x9x128_2_01_n_n_01_2_11128 x3 (concatenate S200000x9x2 2 [⟨S200000x9x1, (broadcastInDim S200000x9x1 ![0, 1] bcast_S200000x9_S200000x9x1_0_1 (broadcastInDim S200000x9 ![0, 1] bcast_S1x9_S200000x9_0_1 (select (cmpi .slt (broadcastInDim S1x9 ![1] bcast_S9_S1x9_1 (iotaInDim S9 32 0)) (broadcastInDim S1x9 ![] bcast_S_S1x9 (constantI S_ 32 0#32))) (addi (broadcastInDim S1x9 ![1] bcast_S9_S1x9_1 (iotaInDim S9 32 0)) (broadcastInDim S1x9 ![] bcast_S_S1x9 (constantI S_ 32 9#32))) (broadcastInDim S1x9 ![1] bcast_S9_S1x9_1 (iotaInDim S9 32 0)))))⟩, ⟨S200000x9x1, (broadcastInDim S200000x9x1 ![0, 1] bcast_S200000x9_S200000x9x1_0_1 (select (cmpi .slt x0 (broadcastInDim S200000x9 ![] bcast_S_S200000x9 (constantI S_ 32 0#32))) (addi x0 (broadcastInDim S200000x9 ![] bcast_S_S200000x9 (constantI S_ 32 119#32))) x0))⟩] concatenates_S200000x9x1_S200000x9x1_S200000x9x2_d2)) (constant S_ .f32 0x00000000#32) reducesTo_S200000x9x128_S200000x128_d1 h_S_)
/-- How many nodes carry each graph id. -/
def counts (x2 : IVec S200000 32) : FVec F S4000 .f32 := (Host.scatterAdd scatter_S4000_S200000x1_S200000_n_0_0_1 (broadcastInDim S4000 ![] bcast_S_S4000 (constant S_ .f32 0x00000000#32)) (broadcastInDim S200000x1 ![0] bcast_S200000_S200000x1_0 x2) (broadcastInDim S200000 ![] bcast_S_S200000 (constant S_ .f32 0x3F800000#32)))
/-- The node rows summed per graph id. -/
def sums (h : FVec F S200000x128 .f32) (x2 : IVec S200000 32) : FVec F S4000x128 .f32 := (Host.scatterAdd scatter_S4000x128_S200000x1_S200000x128_1_0_0_1 (broadcastInDim S4000x128 ![] bcast_S_S4000x128 (constant S_ .f32 0x00000000#32)) (broadcastInDim S200000x1 ![0] bcast_S200000_S200000x1_0 x2) h)
/-- Mean pooling (sums over counts, at least one) and the linear head. -/
def poolF (s : FVec F S4000x128 .f32) (cnt : FVec F S4000 .f32) (x18 : FVec F S128x1 .f32) (x19 : FVec F S1 .f32) : FVec F S4000x1 .f32 := (addf (Host.dotGeneral dot_S4000x128_S128x1_S4000x1_1_0_0_1_n_n none (Host.divf s (broadcastInDim S4000x128 ![0, 1] bcast_S4000x1_S4000x128_0_1 (broadcastInDim S4000x1 ![0] bcast_S4000_S4000x1_0 (maximumf cnt (broadcastInDim S4000 ![] bcast_S_S4000 (constant S_ .f32 0x3F800000#32)))))) x18) (broadcastInDim S4000x1 ![0, 1] bcast_S1x1_S4000x1_0_1 (broadcastInDim S1x1 ![1] bcast_S1_S1x1_1 x19)))
/-- A dense layer. -/
def mmF (h : FVec F S200000x128 .f32) (w : FVec F S128x128 .f32) : FVec F S200000x128 .f32 := (Host.dotGeneral dot_S200000x128_S128x128_S200000x128_1_0_0_1_n_n none h w)

end Cert.ReferenceIdeal.RL

end
-- ==== Proof.ROut.lean ====
/-
  The reference program's value as a composition of its layers.
-/
import proofs.«418650_j59313498358439_1_alg».proof.Proof.RLayers

noncomputable section

namespace Cert.ReferenceIdeal.RO

open Idealize.ShloMosaic Cert.ReferenceIdeal

variable [Cert.ReferenceIdeal.Facts] {F : FTy → Type} [FloatOps F]

/-- One graph convolution before its bias. -/
def layer (h : FVec F S200000x128 .f32) (w : FVec F S128x128 .f32) (x1 : IVec S2x640000 32) : FVec F S200000x128 .f32 :=
  RL.aggF (RL.mmF h w) x1

/-- The first hidden state. -/
def h1 (x0 : IVec S200000x9 32) (x1 : IVec S2x640000 32) (x3 : FVec F S9x119x128 .f32) (x4 : FVec F S128x128 .f32)
    (x5 x6 x7 x8 x9 : FVec F S128 .f32) : FVec F S200000x128 .f32 :=
  RL.bnF (layer (RL.embF x0 x3) x4 x1) x5 x6 x7 x8 x9

/-- A further hidden state from the one before it. -/
def h2 (h : FVec F S200000x128 .f32) (x1 : IVec S2x640000 32) (x10 : FVec F S128x128 .f32)
    (x11 x12 x13 x14 x15 : FVec F S128 .f32) : FVec F S200000x128 .f32 :=
  RL.bnF (layer h x10 x1) x11 x12 x13 x14 x15

/-- The result from the second hidden state. -/
def out (h : FVec F S200000x128 .f32) (x1 : IVec S2x640000 32) (x2 : IVec S200000 32) (x16 : FVec F S128x128 .f32)
    (x17 : FVec F S128 .f32) (x18 : FVec F S128x1 .f32) (x19 : FVec F S1 .f32) : FVec F S4000x1 .f32 :=
  RL.poolF (RL.sums (RL.biasF (layer h x16 x1) x17) x2) (RL.counts x2) x18 x19

end Cert.ReferenceIdeal.RO

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.BrAtom.lean ====
import proofs.«418650_j59313498358439_1_alg».proof.Proof.KLayers
import proofs.«418650_j59313498358439_1_alg».proof.Proof.RLayers
import proofs.«418650_j59313498358439_1_alg».proof.Proof.Spec
import proofs.«418650_j59313498358439_1_alg».proof.Proof.LibIndexing
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.Bridge

open Idealize.ShloMosaic Idealize.ShloMosaic.ValueIdx

namespace Atom

/-! ## A table lookup: `x[i0, i1, :]` of a table `x : [A, B, D]` at pairs of start indices `idx : [N, K, 2]`

Result element `(n, f, h)` is the table at the two start indices `idx[n, f, 0]` and `idx[n, f, 1]`, each read as a
signed integer and clamped into its axis, at column `h`. -/

section TableGather
variable {α : Type}

private theorem mem0 : (0 : Fin 3) ∈ ([0, 1] : List (Fin 3)) := by decide
private theorem mem1 : (1 : Fin 3) ∈ ([0, 1] : List (Fin 3)) := by decide
private theorem nmem2 : (2 : Fin 3) ∉ ([0, 1] : List (Fin 3)) := by decide

/-- The dimension numbers of the lookup: operand `[A, B, D]`, start indices `[N, K, 2]`, result `[N, K, D]`; the
    result's axis 2 is the offset axis, the operand's axes 0 and 1 are collapsed and are the ones the two components
    of a start index name, slices `[1, 1, D]`. -/
abbrev tblGatherDims (A B D N K : Nat)
    (wf : GatherDims.WF ⟨3, ![A, B, D]⟩ ⟨3, ![N, K, 2]⟩ ⟨3, ![N, K, D]⟩ [2] [0, 1] [] [0, 1] [] 2 ![1, 1, D]) :
    GatherDims ⟨3, ![A, B, D]⟩ ⟨3, ![N, K, 2]⟩ ⟨3, ![N, K, D]⟩ where
  offsetDims := [2]
  collapsedSliceDims := [0, 1]
  operandBatchingDims := []
  startIndicesBatchingDims := []
  startIndexMap := [0, 1]
  indexVectorDim := 2
  sliceSizes := ![1, 1, D]
  wf := wf

/-- The lookup read at `(n, f, h)`: the table at `idx[n, f, 0]` (signed, clamped into `[0, A − 1]`),
    `idx[n, f, 1]` (signed, clamped into `[0, B − 1]`) and column `h`. -/
theorem gather_tbl_apply {A B D N K w : Nat} (hA : 0 < A) (hB : 0 < B)
    (wf : GatherDims.WF ⟨3, ![A, B, D]⟩ ⟨3, ![N, K, 2]⟩ ⟨3, ![N, K, D]⟩ [2] [0, 1] [] [0, 1] [] 2 ![1, 1, D])
    (x : (⟨3, ![A, B, D]⟩ : Shape).Idx → α) (idx : IVec ⟨3, ![N, K, 2]⟩ w) (n : Fin N) (f : Fin K) (h : Fin D) :
    Host.gather (tblGatherDims A B D N K wf) x idx (ix3 n f h)
      = x (ix3 ⟨min (idx (ix3 n f 0)).toInt.toNat (A - 1), by omega⟩
            ⟨min (idx (ix3 n f 1)).toInt.toNat (B - 1), by omega⟩ h) := by
  unfold Host.gather
  congr 1
  funext a
  refine Fin.ext ?_
  match a with
  | ⟨0, _⟩ =>
    show (tblGatherDims A B D N K wf).start (ix3 n f h) idx 0 + (tblGatherDims A B D N K wf).batchCoord (ix3 n f h) 0
        + (tblGatherDims A B D N K wf).offCoord (ix3 n f h) 0 = _
    rw [GatherDims.batchCoord_eq_zero _ _ _ List.not_mem_nil,
      GatherDims.offCoord_eq_zero _ _ _ (fun hm => ((GatherDims.mem_sKept _ _).mp hm).1 mem0)]
    simp only [Nat.add_zero]
    unfold GatherDims.start
    rw [dif_pos (show (0 : Fin 3) ∈ (tblGatherDims A B D N K wf).startIndexMap from mem0)]
    have hsi : (tblGatherDims A B D N K wf).siIdx (ix3 n f h)
        ⟨List.idxOf (0 : Fin 3) (tblGatherDims A B D N K wf).startIndexMap,
          List.idxOf_lt_length_iff.2 mem0⟩ = ix3 n f 0 := by
      funext b; refine Fin.ext ?_
      match b with
      | ⟨0, _⟩ => rfl
      | ⟨1, _⟩ => rfl
      | ⟨2, _⟩ => rfl
    rw [hsi]
    rfl
  | ⟨1, _⟩ =>
    show (tblGatherDims A B D N K wf).start (ix3 n f h) idx 1 + (tblGatherDims A B D N K wf).batchCoord (ix3 n f h) 1
        + (tblGatherDims A B D N K wf).offCoord (ix3 n f h) 1 = _
    rw [GatherDims.batchCoord_eq_zero _ _ _ List.not_mem_nil,
      GatherDims.offCoord_eq_zero _ _ _ (fun hm => ((GatherDims.mem_sKept _ _).mp hm).1 mem1)]
    simp only [Nat.add_zero]
    unfold GatherDims.start
    rw [dif_pos (show (1 : Fin 3) ∈ (tblGatherDims A B D N K wf).startIndexMap from mem1)]
    have hsi : (tblGatherDims A B D N K wf).siIdx (ix3 n f h)
        ⟨List.idxOf (1 : Fin 3) (tblGatherDims A B D N K wf).startIndexMap,
          List.idxOf_lt_length_iff.2 mem1⟩ = ix3 n f 1 := by
      funext b; refine Fin.ext ?_
      match b with
      | ⟨0, _⟩ => rfl
      | ⟨1, _⟩ => rfl
      | ⟨2, _⟩ => rfl
    rw [hsi]
    rfl
  | ⟨2, _⟩ =>
    show (tblGatherDims A B D N K wf).start (ix3 n f h) idx 2 + (tblGatherDims A B D N K wf).batchCoord (ix3 n f h) 2
        + (tblGatherDims A B D N K wf).offCoord (ix3 n f h) 2 = _
    rw [GatherDims.batchCoord_eq_zero _ _ _ List.not_mem_nil]
    unfold GatherDims.start
    rw [dif_neg (show (2 : Fin 3) ∉ (tblGatherDims A B D N K wf).startIndexMap from nmem2)]
    simp only [Nat.add_zero, Nat.zero_add]
    rfl

end TableGather

/-! ## Words in `[0, 119)` -/

/-- A word whose signed reading is non-negative reads the same unsigned. -/
theorem toNat_of_toInt_nonneg (b : BitVec 32) (h0 : 0 ≤ b.toInt) : b.toInt.toNat = b.toNat := by
  have hc := BitVec.toInt_eq_toNat_cond b
  have hl := b.isLt
  split at hc <;> omega

/-- A word whose signed reading is in `[0, 119)` is below `119` unsigned. -/
theorem toNat_lt_of_toInt (b : BitVec 32) (h0 : 0 ≤ b.toInt) (h1 : b.toInt < 119) : b.toNat < 119 := by
  have hc := BitVec.toInt_eq_toNat_cond b
  have hl := b.isLt
  split at hc <;> omega

/-- A small number as a word reads back signed as itself. -/
theorem toInt_ofNat_lt (a : Nat) (ha : a < 2 ^ 31) : (BitVec.ofNat 32 a).toInt = (a : Int) := by
  have hc := BitVec.toInt_eq_toNat_cond (BitVec.ofNat 32 a)
  have hm : a % 2 ^ 32 = a := Nat.mod_eq_of_lt (by omega)
  rw [BitVec.toNat_ofNat, hm] at hc
  split at hc <;> omega

/-- The one-hot row of a word in `[0, 119)` against any 128 values picks the value at the word. -/
theorem onehot_sum (b : BitVec 32) (h0 : 0 ≤ b.toInt) (h1 : b.toInt < 119) (g : Fin 128 → EReal) :
    ∑ v : Fin 128, (if BitVec.ofNat 32 v.val = b then (1 : EReal) else 0) * g v
      = g ⟨b.toNat, by have := toNat_lt_of_toInt b h0 h1; omega⟩ := by
  have hb := toNat_lt_of_toInt b h0 h1
  rw [Finset.sum_eq_single (⟨b.toNat, by omega⟩ : Fin 128)]
  · rw [if_pos (BitVec.eq_of_toNat_eq (by rw [BitVec.toNat_ofNat]; exact Nat.mod_eq_of_lt b.isLt)), one_mul]
  · intro v _ hv
    rw [if_neg, zero_mul]
    intro he
    apply hv
    apply Fin.ext
    have := congrArg BitVec.toNat he
    rw [BitVec.toNat_ofNat] at this
    have hv2 := v.isLt
    show v.val = b.toNat
    omega
  · intro hn; exact absurd (Finset.mem_univ _) hn

/-! ## The kernel's side: one-hot rows against the padded tables -/

section KernelSide
variable [Cert.KernelIdeal.Facts]

/-- The padded table below row `119` is the table. -/
theorem padEmb_apply_lt (x3 : FVec Ideal Cert.KernelIdeal.S9x119x128 .f32) (f : Fin 9) (v : Fin 128) (h : Fin 128)
    (hv : v.val < 119) :
    KernelIdeal.KL.padEmb x3 (ix3 f v h) = x3 (ix3 f ⟨v.val, hv⟩ h) := by
  unfold KernelIdeal.KL.padEmb
  refine pad_apply_of_inside _ _ _ _ _ _ _ _ (ix3 f ⟨v.val, hv⟩ h) (fun a => ?_)
  match a with
  | ⟨0, _⟩ => show f.val = 0 + f.val * (0 + 1); omega
  | ⟨1, _⟩ => show v.val = 0 + v.val * (0 + 1); omega
  | ⟨2, _⟩ => show h.val = 0 + h.val * (0 + 1); omega

/-- The atom encoder's row at `(n, h)`: per feature the table's row the feature's value names, summed. -/
theorem atom_apply (x0 : IVec Cert.KernelIdeal.S200000x9 32) (x3 : FVec Ideal Cert.KernelIdeal.S9x119x128 .f32)
    (hx : ∀ i : Cert.KernelIdeal.S200000x9.Idx, 0 ≤ (x0 i).toInt ∧ (x0 i).toInt < 119) (n : Fin 200000) (h : Fin 128) :
    Cert.Spec.atom x0 (KernelIdeal.KL.padEmb x3) (ix2 n h)
      = ∑ f : Fin 9, x3 (ix3 f ⟨(x0 (ix2 n f)).toNat, toNat_lt_of_toInt _ (hx _).1 (hx _).2⟩ h) := by
  show ∑ f : Fin 9, ∑ v : Fin 128, (if BitVec.ofNat 32 v.val = x0 (ix2 n f) then (1 : EReal) else 0)
      * KernelIdeal.KL.padEmb x3 (ix3 f v h) = _
  refine Finset.sum_congr rfl fun f _ => ?_
  rw [onehot_sum (x0 (ix2 n f)) (hx _).1 (hx _).2 (fun v => KernelIdeal.KL.padEmb x3 (ix3 f v h))]
  exact padEmb_apply_lt x3 f _ h _

end KernelSide

/-! ## A sum over the middle axis of a rank-3 array -/

/-- The host's sum over axis 1 of `x : [N, K, D]` at `(n, h)`: the initial value plus `Σ_f x[n, f, h]`. -/
theorem reduce_mid_apply {N K D : Nat} (hR' : (⟨3, ![N, K, D]⟩ : Shape).ReducesTo [1] ⟨2, ![N, D]⟩)
    (x : (⟨3, ![N, K, D]⟩ : Shape).Idx → EReal) (init : EReal) (n : Fin N) (h : Fin D) :
    Ideal.hostReduceAdd hR' x init (ix2 n h) = init + ∑ f : Fin K, x (ix3 n f h) := by
  have hR : (⟨3, ![N, K, D]⟩ : Shape).Reduces [1] ⟨2, ![N, D]⟩ :=
    ⟨rfl, Nat.zero_lt_two, fun b => by match b with | ⟨0, _⟩ => rfl | ⟨1, _⟩ => rfl⟩
  rw [Ideal.hostReduceAdd_single hR' hR]
  congr 1
  show ∑ f : Fin K, x (hR.lift (ix2 n h) f) = _
  refine Finset.sum_congr rfl fun f _ => ?_
  congr 1
  funext c; refine Fin.ext ?_
  match c with
  | ⟨0, _⟩ => rfl
  | ⟨1, _⟩ => rfl
  | ⟨2, _⟩ => rfl

/-! ## The reference's side: the looked-up rows summed over the features -/

/-- A non-negative word is not wrapped: `select (b < 0) (b + e) b = b`. -/
theorem wrap_nonneg (b e : BitVec 32) (h0 : 0 ≤ b.toInt) :
    Scalar.select (IntOp.cmpi .slt b 0#32) (IntOp.addi b e) b = b := by
  have hs : b.slt 0#32 = false := by
    rw [BitVec.slt]
    simp only [BitVec.toInt_zero, decide_eq_false_iff_not, not_lt]
    exact h0
  show (if BitVec.ofBool (b.slt 0#32) = 1 then _ else _) = _
  rw [hs]
  rfl

section ReferenceSide
variable [Cert.ReferenceIdeal.Facts]
open Cert.ReferenceIdeal Cert.ReferenceIdeal.Facts₀ Cert.ReferenceIdeal.Facts

/-- The first component of the start index at `(n, f)`: the feature's number `f`. -/
theorem featIdx_apply (n : Fin 200000) (f : Fin 9) :
    (broadcastInDim S200000x9x1 ![0, 1] bcast_S200000x9_S200000x9x1_0_1 (broadcastInDim S200000x9 ![0, 1] bcast_S1x9_S200000x9_0_1 (select (cmpi .slt (broadcastInDim S1x9 ![1] bcast_S9_S1x9_1 (iotaInDim S9 32 0)) (broadcastInDim S1x9 ![] bcast_S_S1x9 (constantI S_ 32 0#32))) (addi (broadcastInDim S1x9 ![1] bcast_S9_S1x9_1 (iotaInDim S9 32 0)) (broadcastInDim S1x9 ![] bcast_S_S1x9 (constantI S_ 32 9#32))) (broadcastInDim S1x9 ![1] bcast_S9_S1x9_1 (iotaInDim S9 32 0)))))
      (ix3 n f 0) = BitVec.ofNat 32 f.val := by
  rw [broadcastInDim_apply _ _ _ _ (ix2 n f) (fun a => by match a with | ⟨0, _⟩ => rfl | ⟨1, _⟩ => rfl)]
  rw [broadcastInDim_apply _ _ _ _ (ix2 (0 : Fin 1) f) (fun a => by match a with | ⟨0, _⟩ => rfl | ⟨1, _⟩ => rfl)]
  show Scalar.select (IntOp.cmpi .slt (BitVec.ofNat 32 f.val) 0#32) (IntOp.addi (BitVec.ofNat 32 f.val) 9#32)
    (BitVec.ofNat 32 f.val) = _
  refine wrap_nonneg _ _ ?_
  rw [toInt_ofNat_lt f.val (by have := f.isLt; omega)]
  exact Int.natCast_nonneg _

/-- The second component of the start index at `(n, f)`: the feature's value, when it is not negative. -/
theorem valIdx_apply (x0 : IVec S200000x9 32) (n : Fin 200000) (f : Fin 9) (h0 : 0 ≤ (x0 (ix2 n f)).toInt) :
    (broadcastInDim S200000x9x1 ![0, 1] bcast_S200000x9_S200000x9x1_0_1 (select (cmpi .slt x0 (broadcastInDim S200000x9 ![] bcast_S_S200000x9 (constantI S_ 32 0#32))) (addi x0 (broadcastInDim S200000x9 ![] bcast_S_S200000x9 (constantI S_ 32 119#32))) x0))
      (ix3 n f 0) = x0 (ix2 n f) := by
  rw [broadcastInDim_apply _ _ _ _ (ix2 n f) (fun a => by match a with | ⟨0, _⟩ => rfl | ⟨1, _⟩ => rfl)]
  show Scalar.select (IntOp.cmpi .slt (x0 (ix2 n f)) 0#32) (IntOp.addi (x0 (ix2 n f)) 119#32) (x0 (ix2 n f)) = _
  exact wrap_nonneg _ _ h0

/-- The reference's embedding at `(n, h)`: per feature the table's row the feature's value names, summed. -/
theorem embF_apply (x0 : IVec S200000x9 32) (x3 : FVec Ideal S9x119x128 .f32)
    (hx : ∀ i : S200000x9.Idx, 0 ≤ (x0 i).toInt ∧ (x0 i).toInt < 119) (n : Fin 200000) (h : Fin 128) :
    RL.embF x0 x3 (ix2 n h)
      = ∑ f : Fin 9, x3 (ix3 f ⟨(x0 (ix2 n f)).toNat, toNat_lt_of_toInt _ (hx _).1 (hx _).2⟩ h) := by
  unfold RL.embF
  show Ideal.hostReduceAdd reducesTo_S200000x9x128_S200000x128_d1 _ _ (ix2 n h) = _
  rw [reduce_mid_apply, constant_apply, Ideal.ofBits_zero_f32, zero_add]
  refine Finset.sum_congr rfl fun f _ => ?_
  refine (gather_tbl_apply (A := 9) (B := 119) (by decide) (by decide)
    gather_S9x119x128_S200000x9x2_S200000x9x128_2_01_n_n_01_2_11128_wf x3 _ n f h).trans ?_
  have hb := toNat_lt_of_toInt _ (hx (ix2 n f)).1 (hx (ix2 n f)).2
  congr 1
  funext c; refine Fin.ext ?_
  match c with
  | ⟨0, _⟩ =>
    show min (BitVec.toInt _).toNat (9 - 1) = f.val
    rw [concatenate_pair_apply_left (s₁ := S200000x9x1) (s₂ := S200000x9x1) (2 : Fin 3) _ _ _ (ix3 n f (0 : Fin 2)) rfl (ix3 n f (0 : Fin 1))
      (fun b => by match b with | ⟨0, _⟩ => rfl | ⟨1, _⟩ => rfl | ⟨2, _⟩ => rfl)]
    rw [featIdx_apply, toInt_ofNat_lt f.val (by have := f.isLt; omega)]
    have := f.isLt
    omega
  | ⟨1, _⟩ =>
    show min (BitVec.toInt _).toNat (119 - 1) = (x0 (ix2 n f)).toNat
    rw [concatenate_pair_apply_right (s₁ := S200000x9x1) (s₂ := S200000x9x1) (2 : Fin 3) _ _ _ (ix3 n f (1 : Fin 2)) rfl rfl (ix3 n f (0 : Fin 1))
      (fun b hb => by
        match b with
        | ⟨0, _⟩ => rfl
        | ⟨1, _⟩ => rfl
        | ⟨2, _⟩ => exact absurd rfl hb) rfl]
    rw [valIdx_apply x0 n f (hx _).1, toNat_of_toInt_nonneg _ (hx _).1]
    omega
  | ⟨2, _⟩ => rfl

end ReferenceSide

end Atom

variable [Cert.KernelIdeal.Facts] [Cert.ReferenceIdeal.Facts]

/-- With every feature value in `[0, 119)`, the one-hot rows against the zero-padded tables pick exactly the rows the
    reference looks up: the atom encoder's array is the reference's summed embedding. -/
theorem atom_bridge (x0 : IVec Cert.KernelIdeal.S200000x9 32) (x3 : FVec Ideal Cert.KernelIdeal.S9x119x128 .f32)
    (hx : ∀ i : Cert.KernelIdeal.S200000x9.Idx, 0 ≤ (x0 i).toInt ∧ (x0 i).toInt < 119) :
    Cert.Spec.atom x0 (KernelIdeal.KL.padEmb x3) = ReferenceIdeal.RL.embF x0 x3 := by
  funext i
  obtain ⟨n, h, rfl⟩ : ∃ (n : Fin 200000) (h : Fin 128), i = ix2 n h := ⟨i 0, i 1, eq_ix2 i⟩
  rw [Atom.atom_apply x0 x3 hx n h, Atom.embF_apply x0 x3 hx n h]

end Cert.Bridge

end
-- ==== Proof.BrMM.lean ====
import proofs.«418650_j59313498358439_1_alg».proof.Proof.KLayers
import proofs.«418650_j59313498358439_1_alg».proof.Proof.RLayers
import proofs.«418650_j59313498358439_1_alg».proof.Proof.Spec
import proofs.«418650_j59313498358439_1_alg».proof.Proof.LibIndexing
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.Bridge

open Idealize.ShloMosaic Idealize.ShloMosaic.ValueIdx

variable [Cert.KernelIdeal.Facts] [Cert.ReferenceIdeal.Facts]

/-! ## The reference's dense layer read at an index

The dimension numbers contract the left operand's axis 1 with the right operand's axis 0 and keep the left's axis 0 and
the right's axis 1. The four lemmas below read the two operand indices axis by axis; the contraction's index set is
one axis of extent 128, re-indexed by its coordinate. -/

/-- The left operand's axis 0 is the result's row. -/
theorem lhs_mm_0 (i : Cert.ReferenceIdeal.S200000x128.Idx) (q : Cert.ReferenceIdeal.dot_S200000x128_S128x128_S200000x128_1_0_0_1_n_n.contr.Idx) :
    (Cert.ReferenceIdeal.dot_S200000x128_S128x128_S200000x128_1_0_0_1_n_n.lhsIdx i q 0).val = (i 0).val := by
  unfold DotDims.lhsIdx
  rw [dif_neg (show ¬(0 : Fin Cert.ReferenceIdeal.S200000x128.rank) ∈ Cert.ReferenceIdeal.dot_S200000x128_S128x128_S200000x128_1_0_0_1_n_n.lhsBatch from List.not_mem_nil),
    dif_pos (show (0 : Fin Cert.ReferenceIdeal.S200000x128.rank) ∈ Cert.ReferenceIdeal.dot_S200000x128_S128x128_S200000x128_1_0_0_1_n_n.lhsNonContracting from List.mem_singleton_self _)]
  rfl
/-- The left operand's axis 1 is the contracted coordinate. -/
theorem lhs_mm_1 (i : Cert.ReferenceIdeal.S200000x128.Idx) (q : Cert.ReferenceIdeal.dot_S200000x128_S128x128_S200000x128_1_0_0_1_n_n.contr.Idx) :
    (Cert.ReferenceIdeal.dot_S200000x128_S128x128_S200000x128_1_0_0_1_n_n.lhsIdx i q 1).val = (q ⟨0, Nat.one_pos⟩).val :=
  Cert.ReferenceIdeal.dot_S200000x128_S128x128_S200000x128_1_0_0_1_n_n.lhsIdx_val_of_single rfl i q
/-- The right operand's axis 0 is the contracted coordinate. -/
theorem rhs_mm_0 (i : Cert.ReferenceIdeal.S200000x128.Idx) (q : Cert.ReferenceIdeal.dot_S200000x128_S128x128_S200000x128_1_0_0_1_n_n.contr.Idx) :
    (Cert.ReferenceIdeal.dot_S200000x128_S128x128_S200000x128_1_0_0_1_n_n.rhsIdx i q 0).val = (q ⟨0, Nat.one_pos⟩).val :=
  Cert.ReferenceIdeal.dot_S200000x128_S128x128_S200000x128_1_0_0_1_n_n.rhsIdx_val_of_single rfl i q
/-- The right operand's axis 1 is the result's column. -/
theorem rhs_mm_1 (i : Cert.ReferenceIdeal.S200000x128.Idx) (q : Cert.ReferenceIdeal.dot_S200000x128_S128x128_S200000x128_1_0_0_1_n_n.contr.Idx) :
    (Cert.ReferenceIdeal.dot_S200000x128_S128x128_S200000x128_1_0_0_1_n_n.rhsIdx i q 1).val = (i 1).val := by
  unfold DotDims.rhsIdx
  rw [dif_neg (show ¬(1 : Fin Cert.ReferenceIdeal.S128x128.rank) ∈ Cert.ReferenceIdeal.dot_S200000x128_S128x128_S200000x128_1_0_0_1_n_n.rhsBatch from List.not_mem_nil),
    dif_pos (show (1 : Fin Cert.ReferenceIdeal.S128x128.rank) ∈ Cert.ReferenceIdeal.dot_S200000x128_S128x128_S200000x128_1_0_0_1_n_n.rhsNonContracting from List.mem_singleton_self _)]
  rfl

/-- The reference's dense layer at (n, j): the sum over the contracted coordinate k of h (n, k) · w (k, j). -/
theorem mmF_apply (h : FVec Ideal Cert.ReferenceIdeal.S200000x128 .f32) (w : FVec Ideal Cert.ReferenceIdeal.S128x128 .f32)
    (n : Fin 200000) (j : Fin 128) :
    ReferenceIdeal.RL.mmF h w (ix2 n j) = ∑ k : Fin 128, h (ix2 n k) * w (ix2 k j) := by
  unfold ReferenceIdeal.RL.mmF
  simp only [Host.dotGeneral]
  rw [Ideal.dotGeneral_apply, ← Equiv.sum_comp (contrEquiv1 Cert.ReferenceIdeal.dot_S200000x128_S128x128_S200000x128_1_0_0_1_n_n 128 rfl rfl).symm]
  refine Finset.sum_congr rfl fun k _ => ?_
  have hk := contrEquiv1_symm_val Cert.ReferenceIdeal.dot_S200000x128_S128x128_S200000x128_1_0_0_1_n_n 128 rfl rfl k
  have el : Cert.ReferenceIdeal.dot_S200000x128_S128x128_S200000x128_1_0_0_1_n_n.lhsIdx (ix2 n j) ((contrEquiv1 Cert.ReferenceIdeal.dot_S200000x128_S128x128_S200000x128_1_0_0_1_n_n 128 rfl rfl).symm k) = ix2 n k := funext fun a => Fin.ext (by
    match a with
    | ⟨0, _⟩ => exact lhs_mm_0 _ _
    | ⟨1, _⟩ => exact (lhs_mm_1 _ _).trans hk)
  have er : Cert.ReferenceIdeal.dot_S200000x128_S128x128_S200000x128_1_0_0_1_n_n.rhsIdx (ix2 n j) ((contrEquiv1 Cert.ReferenceIdeal.dot_S200000x128_S128x128_S200000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-- A dense layer's sum over the contracted axis is the reference's `dot_general`. -/
theorem mm_bridge (h : FVec Ideal Cert.KernelIdeal.S200000x128 .f32) (w : FVec Ideal Cert.KernelIdeal.S128x128 .f32) :
    Cert.Spec.mm h w = ReferenceIdeal.RL.mmF h w := by
  funext i
  obtain ⟨n, j, rfl⟩ : ∃ (n : Fin 200000) (j : Fin 128), i = ix2 n j := ⟨i 0, i 1, eq_ix2 i⟩
  rw [mmF_apply]
  rfl

end Cert.Bridge

end
-- ==== Proof.BrAgg.lean ====
import proofs.«418650_j59313498358439_1_alg».proof.Proof.KLayers
import proofs.«418650_j59313498358439_1_alg».proof.Proof.RLayers
import proofs.«418650_j59313498358439_1_alg».proof.Proof.Spec
import proofs.«418650_j59313498358439_1_alg».proof.Proof.LibIndexing
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.IdealHost
import Idealize.ShloMosaic.Lib.StableHlo.Predicate

noncomputable section

open scoped BigOperators

namespace Cert.Bridge

open Idealize.ShloMosaic Idealize.ShloMosaic.ValueIdx

variable [Cert.KernelIdeal.Facts] [Cert.ReferenceIdeal.Facts]

/-! ## The pieces of the self-loop law

Both aggregations are read at an element `(n, j)` as a sum over edge positions of `hw[clamp (wrap src), j] · weight`,
restricted to the positions whose target word, read signed, is `n`. The kernel's sum runs over the 640000 edges followed
by 200000 self-loops; it splits there. On the edges the two programs agree term by term. On the self-loops the target of
position `640000 + p` is the word `p`, so only `p = n` contributes, and its term is `hw[n, j] · (dinv n · dinv n)`. -/

namespace Agg

/-- The wrap of a node index word: a negative word is moved up by the node count. -/
def wrapW (v : BitVec 32) : BitVec 32 := Scalar.select (IntOp.cmpi .slt v 0#32) (IntOp.addi v 200000#32) v

/-- A word read signed and clamped into the node range. -/
def clampN (v : BitVec 32) : Fin 200000 := ⟨min v.toInt.toNat (200000 - 1), by omega⟩

theorem src_eq (x1 : IVec Cert.KernelIdeal.S2x640000 32) : KernelIdeal.KL.src x1 = ReferenceIdeal.RL.src x1 := rfl
theorem dst_eq (x1 : IVec Cert.KernelIdeal.S2x640000 32) : KernelIdeal.KL.dst x1 = ReferenceIdeal.RL.dst x1 := rfl
theorem dinv_eq (x1 : IVec Cert.KernelIdeal.S2x640000 32) :
    KernelIdeal.KL.dinv (F := Ideal) x1 = ReferenceIdeal.RL.dinv (F := Ideal) x1 := rfl

/-- A vector as a one-column matrix reads, at row e, the vector at e. -/
theorem col_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e 0) = v (ix1 e) := by
  refine broadcastInDim_apply _ h v (ix2 e 0) (ix1 e) fun a => ?_
  have he := e.isLt
  match a with
  | ⟨0, _⟩ =>
    show e.val = if n = 1 then 0 else e.val
    split
    · omega
    · rfl

/-- A vector laid along the rows of a matrix reads, at (e, j), the vector at e. -/
theorem rows_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (e : Fin n) (j : Fin m) :
    broadcastInDim ⟨2, ![n, m]⟩ ![0, 1] h₂ (broadcastInDim ⟨2, ![n, 1]⟩ ![0] h₁ v) (ix2 e j) = v (ix1 e) := by
  refine (broadcastInDim_apply _ h₂ _ (ix2 e j) (ix2 e 0) fun a => ?_).trans (col_apply h₁ v e)
  have he := e.isLt
  match a with
  | ⟨0, _⟩ =>
    show e.val = if n = 1 then 0 else e.val
    split
    · omega
    · rfl
  | ⟨1, _⟩ =>
    show (0 : Nat) = if (1 : Nat) = 1 then 0 else j.val
    rfl

/-- The kernel's column of start indices reads, at row e, the wrapped word. -/
theorem k_nidx_apply (v : IVec KernelIdeal.S840000 32) (e : Fin 840000) :
    KernelIdeal.KL.nidx v (ix2 e 0) = wrapW (v (ix1 e)) := by
  unfold KernelIdeal.KL.nidx
  rw [col_apply]
  rfl

/-- The reference's column of start indices reads, at row e, the wrapped word. -/
theorem r_nidx_apply (v : IVec ReferenceIdeal.S640000 32) (e : Fin 640000) :
    ReferenceIdeal.RL.nidx v (ix2 e 0) = wrapW (v (ix1 e)) := by
  unfold ReferenceIdeal.RL.nidx
  rw [col_apply]
  rfl

/-- The weight of an augmented edge: the normalisation at its wrapped, clamped source times that at its target. -/
theorem k_norm_apply (x1 : IVec Cert.KernelIdeal.S2x640000 32) (e : Fin 840000) :
    KernelIdeal.KL.normAug (F := Ideal) x1 (ix1 e)
      = KernelIdeal.KL.dinv (F := Ideal) x1 (ix1 (clampN (wrapW (KernelIdeal.KL.srcAug x1 (ix1 e)))))
        * KernelIdeal.KL.dinv (F := Ideal) x1 (ix1 (clampN (wrapW (KernelIdeal.KL.dstAug x1 (ix1 e))))) := by
  have g : ∀ idx : IVec KernelIdeal.S840000x1 32,
      Host.gather KernelIdeal.gather_S200000_S840000x1_S840000_n_0_n_n_0_1_1 (KernelIdeal.KL.dinv (F := Ideal) x1) idx (ix1 e)
        = KernelIdeal.KL.dinv (F := Ideal) x1 (ix1 (clampN (idx (ix2 e 0)))) :=
    fun idx => LibIndexing.gather_vec_apply (by omega) _ _ idx e
  unfold KernelIdeal.KL.normAug
  rw [mulf_apply, g, g, k_nidx_apply, k_nidx_apply]

/-- The weight of an edge in the reference. -/
theorem r_norm_apply (x1 : IVec Cert.ReferenceIdeal.S2x640000 32) (e : Fin 640000) :
    ReferenceIdeal.RL.norm (F := Ideal) x1 (ix1 e)
      = ReferenceIdeal.RL.dinv (F := Ideal) x1 (ix1 (clampN (wrapW (ReferenceIdeal.RL.src x1 (ix1 e)))))
        * ReferenceIdeal.RL.dinv (F := Ideal) x1 (ix1 (clampN (wrapW (ReferenceIdeal.RL.dst x1 (ix1 e))))) := by
  have g : ∀ idx : IVec ReferenceIdeal.S640000x1 32,
      Host.gather ReferenceIdeal.gather_S200000_S640000x1_S640000_n_0_n_n_0_1_1 (ReferenceIdeal.RL.dinv (F := Ideal) x1) idx (ix1 e)
        = ReferenceIdeal.RL.dinv (F := Ideal) x1 (ix1 (clampN (idx (ix2 e 0)))) :=
    fun idx => LibIndexing.gather_vec_apply (by omega) _ _ idx e
  unfold ReferenceIdeal.RL.norm
  rw [mulf_apply, g, g, r_nidx_apply, r_nidx_apply]

/-- The augmented sources at an edge's position are the sources. -/
theorem srcAug_left (x1 : IVec Cert.KernelIdeal.S2x640000 32) (e : Fin 640000) :
    KernelIdeal.KL.srcAug x1 (ix1 ⟨e.val, Nat.lt_of_lt_of_le e.isLt (by omega)⟩) = KernelIdeal.KL.src x1 (ix1 e) := by
  unfold KernelIdeal.KL.srcAug
  refine concatenate_pair_apply_left (t := KernelIdeal.S840000) (s₁ := KernelIdeal.S640000) (s₂ := KernelIdeal.S200000) 0 _ _ _ _
    (rfl : KernelIdeal.S640000.rank = KernelIdeal.S840000.rank) (ix1 e) fun b => ?_
  match b with
  | ⟨0, _⟩ => rfl

/-- The augmented targets at an edge's position are the targets. -/
theorem dstAug_left (x1 : IVec Cert.KernelIdeal.S2x640000 32) (e : Fin 640000) :
    KernelIdeal.KL.dstAug x1 (ix1 ⟨e.val, Nat.lt_of_lt_of_le e.isLt (by omega)⟩) = KernelIdeal.KL.dst x1 (ix1 e) := by
  unfold KernelIdeal.KL.dstAug
  refine concatenate_pair_apply_left (t := KernelIdeal.S840000) (s₁ := KernelIdeal.S640000) (s₂ := KernelIdeal.S200000) 0 _ _ _ _
    (rfl : KernelIdeal.S640000.rank = KernelIdeal.S840000.rank) (ix1 e) fun b => ?_
  match b with
  | ⟨0, _⟩ => rfl

/-- The augmented sources past the edges are the nodes in order: the self-loop of node p starts at p. -/
theorem srcAug_right (x1 : IVec Cert.KernelIdeal.S2x640000 32) (p : Fin 200000) :
    KernelIdeal.KL.srcAug x1 (ix1 ⟨640000 + p.val, by have := p.isLt; omega⟩) = BitVec.ofNat 32 p.val := by
  unfold KernelIdeal.KL.srcAug
  refine (concatenate_pair_apply_right (t := KernelIdeal.S840000) (s₁ := KernelIdeal.S640000) (s₂ := KernelIdeal.S200000) 0 _ _ _ _
    (rfl : KernelIdeal.S640000.rank = KernelIdeal.S840000.rank) (rfl : KernelIdeal.S200000.rank = KernelIdeal.S840000.rank)
    (ix1 p) (fun b hb => ?_) ?_).trans rfl
  · match b with
    | ⟨0, _⟩ => exact absurd (Fin.ext rfl) hb
  · show p.val + 640000 = 640000 + p.val
    omega

/-- The augmented targets past the edges are the nodes in order: the self-loop of node p ends at p. -/
theorem dstAug_right (x1 : IVec Cert.KernelIdeal.S2x640000 32) (p : Fin 200000) :
    KernelIdeal.KL.dstAug x1 (ix1 ⟨640000 + p.val, by have := p.isLt; omega⟩) = BitVec.ofNat 32 p.val := by
  unfold KernelIdeal.KL.dstAug
  refine (concatenate_pair_apply_right (t := KernelIdeal.S840000) (s₁ := KernelIdeal.S640000) (s₂ := KernelIdeal.S200000) 0 _ _ _ _
    (rfl : KernelIdeal.S640000.rank = KernelIdeal.S840000.rank) (rfl : KernelIdeal.S200000.rank = KernelIdeal.S840000.rank)
    (ix1 p) (fun b hb => ?_) ?_).trans rfl
  · match b with
    | ⟨0, _⟩ => exact absurd (Fin.ext rfl) hb
  · show p.val + 640000 = 640000 + p.val
    omega

/-- A node's own word is not negative: the wrap leaves it alone. -/
theorem wrapW_ofNat (p : Nat) (hp : p < 200000) : wrapW (BitVec.ofNat 32 p) = BitVec.ofNat 32 p := by
  unfold wrapW Scalar.select
  refine if_neg fun h => ?_
  exact Nat.not_lt_zero p ((StableHlo.Predicate.slt_ofNat_iff p 0 (by omega) (by omega)).mp h)

/-- A node's own word, read signed, is the node. -/
theorem toInt_ofNat_node (p : Nat) (hp : p < 200000) : (BitVec.ofNat 32 p).toInt = (p : Int) :=
  StableHlo.Predicate.toInt_ofNat_small p (by omega)

/-- A node's own word clamps to the node. -/
theorem clampN_ofNat (p : Nat) (hp : p < 200000) : clampN (BitVec.ofNat 32 p) = ⟨p, hp⟩ := by
  apply Fin.ext
  show min (BitVec.ofNat 32 p).toInt.toNat (200000 - 1) = p
  rw [toInt_ofNat_node p hp, Int.toNat_natCast]
  omega

/-- A sum over a range splits at any point into the sum below and the sum from there on. -/
theorem sum_split {M : Type*} [AddCommMonoid M] (A B C : Nat) (hC : A + B = C) (f : Fin C → M) :
    ∑ e : Fin C, f e
      = ∑ e : Fin A, f ⟨e.val, by have := e.isLt; omega⟩ + ∑ p : Fin B, f ⟨A + p.val, by have := p.isLt; omega⟩ := by
  subst hC
  exact Fin.sum_univ_add f

/-- One aggregation read at (n, j), at any number of edges: the sum, over the edges whose target word read signed is n,
    of the table's row at the clamped start index times the edge's weight. -/
theorem agg_read {E : Nat}
    (wfS : ScatterDims.WF ⟨2, ![200000, 128]⟩ ⟨2, ![E, 1]⟩ ⟨2, ![E, 128]⟩ [1] [0] [0] 1)
    (wfG : GatherDims.WF ⟨2, ![200000, 128]⟩ ⟨2, ![E, 1]⟩ ⟨2, ![E, 128]⟩ [1] [0] [] [0] [] 1 ![1, 128])
    (hz : (⟨0, ![]⟩ : Shape).BroadcastsInDim ⟨2, ![200000, 128]⟩ ![])
    (h1 h1' : (⟨1, ![E]⟩ : Shape).BroadcastsInDim ⟨2, ![E, 1]⟩ ![0])
    (h2 : (⟨2, ![E, 1]⟩ : Shape).BroadcastsInDim ⟨2, ![E, 128]⟩ ![0, 1])
    (hw : FVec Ideal ⟨2, ![200000, 128]⟩ .f32) (sCol : IVec ⟨2, ![E, 1]⟩ 32) (dA : IVec ⟨1, ![E]⟩ 32)
    (nA : FVec Ideal ⟨1, ![E]⟩ .f32) (n : Fin 200000) (j : Fin 128) :
    Host.scatterAdd (LibIndexing.rowScatterDims 200000 128 E wfS)
        (broadcastInDim ⟨2, ![200000, 128]⟩ ![] hz (constant (F := Ideal) ⟨0, ![]⟩ .f32 0x00000000#32))
        (broadcastInDim ⟨2, ![E, 1]⟩ ![0] h1 dA)
        (mulf (Host.gather (LibIndexing.rowGatherDims 200000 128 E wfG) hw sCol)
          (broadcastInDim ⟨2, ![E, 128]⟩ ![0, 1] h2 (broadcastInDim ⟨2, ![E, 1]⟩ ![0] h1' nA))) (ix2 n j)
      = ∑ e : Fin E, if (dA (ix1 e)).toInt = (n.val : Int) then hw (ix2 (clampN (sCol (ix2 e 0))) j) * nA (ix1 e) else 0 := by
  rw [LibIndexing.scatterAdd_rows_apply, broadcastInDim_scalar_apply, constant_apply, Ideal.ofBits_zero_f32, zero_add,
    Finset.sum_filter]
  refine Finset.sum_congr rfl fun e _ => ?_
  rw [col_apply, mulf_apply, rows_apply, LibIndexing.gather_rows_apply (by omega)]
  rfl

/-- The kernel's aggregation read at (n, j). -/
theorem k_agg_apply (hw : FVec Ideal KernelIdeal.S200000x128 .f32) (sA dA : IVec KernelIdeal.S840000 32)
    (nA : FVec Ideal KernelIdeal.S840000 .f32) (n : Fin 200000) (j : Fin 128) :
    KernelIdeal.KL.aggF hw sA dA nA (ix2 n j)
      = ∑ e : Fin 840000, if (dA (ix1 e)).toInt = (n.val : Int)
          then hw (ix2 (clampN (wrapW (sA (ix1 e)))) j) * nA (ix1 e) else 0 := by
  unfold KernelIdeal.KL.aggF
  refine (agg_read _ _ _ _ _ _ hw (KernelIdeal.KL.nidx sA) dA nA n j).trans ?_
  refine Finset.sum_congr rfl fun e _ => ?_
  rw [k_nidx_apply]

/-- The reference's aggregation read at (n, j): the sum over the edges, and the node's own row scaled apart. -/
theorem r_agg_apply (hw : FVec Ideal ReferenceIdeal.S200000x128 .f32) (x1 : IVec ReferenceIdeal.S2x640000 32)
    (n : Fin 200000) (j : Fin 128) :
    ReferenceIdeal.RL.aggF hw x1 (ix2 n j)
      = (∑ e : Fin 640000, if (ReferenceIdeal.RL.dst x1 (ix1 e)).toInt = (n.val : Int)
          then hw (ix2 (clampN (wrapW (ReferenceIdeal.RL.src x1 (ix1 e)))) j) * ReferenceIdeal.RL.norm (F := Ideal) x1 (ix1 e)
          else 0)
        + hw (ix2 n j)
          * (ReferenceIdeal.RL.dinv (F := Ideal) x1 (ix1 n) * ReferenceIdeal.RL.dinv (F := Ideal) x1 (ix1 n)) := by
  unfold ReferenceIdeal.RL.aggF
  rw [addf_apply, mulf_apply, rows_apply, mulf_apply]
  refine congrArg₂ (· + ·) ?_ rfl
  refine (agg_read _ _ _ _ _ _ hw (ReferenceIdeal.RL.nidx (ReferenceIdeal.RL.src x1)) (ReferenceIdeal.RL.dst x1)
    (ReferenceIdeal.RL.norm (F := Ideal) x1) n j).trans ?_
  refine Finset.sum_congr rfl fun e _ => ?_
  rw [r_nidx_apply]

end Agg

/-- THE SELF-LOOP LAW. The aggregation over the edge list with one self-loop per node appended is the aggregation over
    the edges plus, at each node, its own row scaled by `dinv²`: a sum over a concatenated index set splits, and the
    appended edge `(n, n)` has weight `dinv n · dinv n` and lands on row `n`. -/
theorem agg_bridge (hw : FVec Ideal Cert.KernelIdeal.S200000x128 .f32) (x1 : IVec Cert.KernelIdeal.S2x640000 32) :
    KernelIdeal.KL.aggF hw (KernelIdeal.KL.srcAug x1) (KernelIdeal.KL.dstAug x1) (KernelIdeal.KL.normAug x1) = ReferenceIdeal.RL.aggF hw x1 := by
  funext i
  obtain ⟨n, j, rfl⟩ : ∃ (n : Fin 200000) (j : Fin 128), i = ix2 n j := ⟨i 0, i 1, eq_ix2 i⟩
  rw [Agg.k_agg_apply, Agg.r_agg_apply, Agg.sum_split 640000 200000 840000 rfl]
  refine congrArg₂ (· + ·) ?_ ?_
  · -- the edges: the two programs' terms are the same
    refine Finset.sum_congr rfl fun e _ => ?_
    rw [Agg.k_norm_apply, Agg.r_norm_apply, Agg.srcAug_left, Agg.dstAug_left, Agg.src_eq, Agg.dst_eq, Agg.dinv_eq]
  · -- the self-loops: position 640000 + p carries the edge (p, p), and only p = n lands on row n
    refine (Finset.sum_congr rfl fun p _ => ?_).trans
      ((Finset.sum_ite_eq' Finset.univ n fun p => hw (ix2 p j)
        * (ReferenceIdeal.RL.dinv (F := Ideal) x1 (ix1 p) * ReferenceIdeal.RL.dinv (F := Ideal) x1 (ix1 p))).trans
        (if_pos (Finset.mem_univ n)))
    rw [Agg.k_norm_apply, Agg.srcAug_right, Agg.dstAug_right, Agg.wrapW_ofNat _ p.isLt, Agg.clampN_ofNat _ p.isLt,
      Agg.toInt_ofNat_node _ p.isLt, Agg.dinv_eq]
    by_cases hpn : p = n
    · rw [if_pos hpn, if_pos (by rw [hpn])]
    · rw [if_neg hpn, if_neg (fun h => hpn (Fin.ext (by omega)))]

end Cert.Bridge

end
-- ==== Proof.BrBN.lean ====
import proofs.«418650_j59313498358439_1_alg».proof.Proof.KLayers
import proofs.«418650_j59313498358439_1_alg».proof.Proof.RLayers
import proofs.«418650_j59313498358439_1_alg».proof.Proof.Spec
import proofs.«418650_j59313498358439_1_alg».proof.Proof.LibIndexing
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.Bridge

open Idealize.ShloMosaic Idealize.ShloMosaic.ValueIdx

variable [Cert.KernelIdeal.Facts] [Cert.ReferenceIdeal.Facts]

/-! ## The parameters read at a column

The kernel holds each per-column parameter as a one-row matrix (the cast of the vector); the reference broadcasts the
vector first to one row and then down all rows. Both read the vector's entry at the column. -/

/-- A vector cast to one row: the entry at (0, j) is the vector's entry j (same row-major position). -/
theorem row_apply (v : FVec Ideal Cert.KernelIdeal.S128 .f32) (j : Fin 128) :
    KernelIdeal.KL.row v (ix2 (0 : Fin 1) j) = v (ix1 j) := by
  unfold KernelIdeal.KL.row
  exact shapeCast_apply v _ (ix2 (0 : Fin 1) j) (ix1 j) (by
    rw [Shape.rowMajor_val_one, Shape.rowMajor_val_two]
    show j.val = 0 * 128 + j.val
    omega)

/-- A vector broadcast to one row and then down the rows: the entry at (n, j) is the vector's entry j. -/
theorem bcastRows_apply (v : FVec Ideal Cert.ReferenceIdeal.S128 .f32) (n : Fin 200000) (j : Fin 128) :
    broadcastInDim Cert.ReferenceIdeal.S200000x128 ![0, 1] Cert.ReferenceIdeal.Facts₀.bcast_S1x128_S200000x128_0_1
      (broadcastInDim Cert.ReferenceIdeal.S1x128 ![1] Cert.ReferenceIdeal.Facts₀.bcast_S128_S1x128_1 v) (ix2 n j) = v (ix1 j) := by
  rw [broadcastInDim_oneRow_apply]
  refine broadcastInDim_apply ![1] _ v (ix2 (0 : Fin 1) j) (ix1 j) ?_
  intro a
  match a with
  | ⟨0, _⟩ =>
    show j.val = if (128 : ℕ) = 1 then 0 else j.val
    rw [if_neg (by decide)]

/-- The scalar zero broadcast over the whole array reads zero's word everywhere. -/
theorem bcastZero_apply (i : Cert.ReferenceIdeal.S200000x128.Idx) :
    broadcastInDim Cert.ReferenceIdeal.S200000x128 ![] Cert.ReferenceIdeal.Facts₀.bcast_S_S200000x128
      (constant (F := Ideal) Cert.ReferenceIdeal.S_ .f32 0x00000000#32) i = Ideal.ofBits .f32 0x00000000#32 :=
  broadcastInDim_apply ![] _ _ i ix0 (fun a => a.elim0)

/-! ## The reciprocal square root of the shifted variance at a column

On the extended reals the kernel's and the host's reciprocal square root are one function; the shift ε is the same word
on both sides, a splat on the kernel's row and a broadcast scalar on the reference's vector. -/

/-- The kernel's side: the one-row variance plus ε, under the reciprocal square root, at (0, j). -/
theorem rsqrtRow_apply (var : FVec Ideal Cert.KernelIdeal.S128 .f32) (j : Fin 128) :
    (rsqrt (F := Ideal) (addf (KernelIdeal.KL.row var) (broadcast ⟨2, ![1, 128]⟩ (Scalar.ofBits .f32 0x3727C5AC#32)))) (ix2 (0 : Fin 1) j)
      = Ideal.rsqrt (var (ix1 j) + Ideal.ofBits .f32 0x3727C5AC#32) := by
  show Ideal.rsqrt (KernelIdeal.KL.row var (ix2 (0 : Fin 1) j) + Ideal.ofBits .f32 0x3727C5AC#32) = _
  rw [row_apply]

/-- The reference's side: the variance vector plus the broadcast ε, under the host's reciprocal square root, at j. -/
theorem rsqrtVec_apply (var : FVec Ideal Cert.ReferenceIdeal.S128 .f32) (j : Fin 128) :
    Host.rsqrt (addf var (broadcastInDim Cert.ReferenceIdeal.S128 ![] Cert.ReferenceIdeal.Facts₀.bcast_S_S128
        (constant (F := Ideal) Cert.ReferenceIdeal.S_ .f32 0x3727C5AC#32))) (ix1 j)
      = Ideal.rsqrt (var (ix1 j) + Ideal.ofBits .f32 0x3727C5AC#32) := by
  show Ideal.rsqrt (var (ix1 j) + broadcastInDim Cert.ReferenceIdeal.S128 ![] Cert.ReferenceIdeal.Facts₀.bcast_S_S128
        (constant (F := Ideal) Cert.ReferenceIdeal.S_ .f32 0x3727C5AC#32) (ix1 j)) = _
  rw [broadcastInDim_apply ![] _ _ (ix1 j) ix0 (fun a => a.elim0)]
  rfl

/-- Bias, batch normalisation and rectifier: the kernel's one-row parameters read at a column are the reference's
    vectors broadcast along the rows, and the arithmetic is the same term. -/
theorem bn_bridge (agg : FVec Ideal Cert.KernelIdeal.S200000x128 .f32) (b g be mu var : FVec Ideal Cert.KernelIdeal.S128 .f32) :
    Cert.Spec.bnrelu agg (KernelIdeal.KL.row b) (KernelIdeal.KL.row g) (KernelIdeal.KL.row be) (KernelIdeal.KL.row mu) (KernelIdeal.KL.row var) = ReferenceIdeal.RL.bnF agg b g be mu var := by
  funext i
  obtain ⟨n, j, rfl⟩ : ∃ (n : Fin 200000) (j : Fin 128), i = ix2 n j := ⟨i 0, i 1, eq_ix2 i⟩
  -- the kernel's side at (n, j), its parameters read at (0, j)
  have hk : Cert.Spec.bnrelu agg (KernelIdeal.KL.row b) (KernelIdeal.KL.row g) (KernelIdeal.KL.row be) (KernelIdeal.KL.row mu)
        (KernelIdeal.KL.row var) (ix2 n j)
      = max (g (ix1 j) * (agg (ix2 n j) + b (ix1 j) - mu (ix1 j)) * Ideal.rsqrt (var (ix1 j) + Ideal.ofBits .f32 0x3727C5AC#32)
          + be (ix1 j)) (Ideal.ofBits .f32 0x00000000#32) := by
    show max (KernelIdeal.KL.row g (ix2 (0 : Fin 1) j) * (agg (ix2 n j) + KernelIdeal.KL.row b (ix2 (0 : Fin 1) j)
            - KernelIdeal.KL.row mu (ix2 (0 : Fin 1) j))
          * (rsqrt (F := Ideal) (addf (KernelIdeal.KL.row var) (broadcast ⟨2, ![1, 128]⟩ (Scalar.ofBits .f32 0x3727C5AC#32))))
              (ix2 (0 : Fin 1) j)
          + KernelIdeal.KL.row be (ix2 (0 : Fin 1) j)) (Ideal.ofBits .f32 0x00000000#32) = _
    rw [rsqrtRow_apply, row_apply, row_apply, row_apply, row_apply]
  rw [hk]
  unfold ReferenceIdeal.RL.bnF
  rw [maximumf_apply, addf_apply, mulf_apply, mulf_apply, subf_apply, addf_apply, bcastZero_apply, bcastRows_apply, bcastRows_apply,
    bcastRows_apply, bcastRows_apply, bcastRows_apply, rsqrtVec_apply]

/-- The last layer's bias. -/
theorem bias_bridge (agg : FVec Ideal Cert.KernelIdeal.S200000x128 .f32) (b : FVec Ideal Cert.KernelIdeal.S128 .f32) :
    Cert.Spec.bias agg (KernelIdeal.KL.row b) = ReferenceIdeal.RL.biasF agg b := by
  funext i
  obtain ⟨n, j, rfl⟩ : ∃ (n : Fin 200000) (j : Fin 128), i = ix2 n j := ⟨i 0, i 1, eq_ix2 i⟩
  show agg (ix2 n j) + KernelIdeal.KL.row b (ix2 (0 : Fin 1) j) = _
  unfold ReferenceIdeal.RL.biasF
  rw [addf_apply, bcastRows_apply, row_apply]

end Cert.Bridge

end
-- ==== Proof.BrPool.lean ====
import proofs.«418650_j59313498358439_1_alg».proof.Proof.KLayers
import proofs.«418650_j59313498358439_1_alg».proof.Proof.RLayers
import proofs.«418650_j59313498358439_1_alg».proof.Proof.Spec
import proofs.«418650_j59313498358439_1_alg».proof.Proof.LibIndexing
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

noncomputable section

open scoped BigOperators

namespace Cert.Bridge

open Idealize.ShloMosaic Idealize.ShloMosaic.ValueIdx

variable [Cert.KernelIdeal.Facts] [Cert.ReferenceIdeal.Facts]

/-! ## The two programs' scatter-adds are the same functions -/

/-- The per-graph row sums: both programs scatter-add the node rows into a zero [4000, 128] array by the graph ids,
    with the same dimension numbers. -/
theorem sums_eq (h : FVec Ideal Cert.KernelIdeal.S200000x128 .f32) (x2 : IVec Cert.KernelIdeal.S200000 32) :
    KernelIdeal.KL.sums (F := Ideal) h x2 = ReferenceIdeal.RL.sums (F := Ideal) h x2 := rfl

/-- The per-graph node counts: both programs scatter-add ones into a zero [4000] array by the graph ids. -/
theorem counts_eq (x2 : IVec Cert.KernelIdeal.S200000 32) :
    KernelIdeal.KL.counts (F := Ideal) x2 = ReferenceIdeal.RL.counts (F := Ideal) x2 := rfl

/-! ## The kernel side's two reshapes read at an index -/

/-- The counts as a column: element (g, 0) is the count of graph g. -/
theorem countsCol_apply (x2 : IVec Cert.KernelIdeal.S200000 32) (g : Fin 4000) (c : Fin 1) :
    KernelIdeal.KL.countsCol (F := Ideal) x2 (ix2 g c) = KernelIdeal.KL.counts (F := Ideal) x2 (ix1 g) := by
  unfold KernelIdeal.KL.countsCol
  generalize KernelIdeal.KL.counts (F := Ideal) x2 = y
  exact shapeCast_apply y _ (ix2 g c) (ix1 g) (by
    have hc : c.val = 0 := by omega
    rw [Shape.rowMajor_val_two, Shape.rowMajor_val_one]
    show g.val = g.val * 1 + c.val
    rw [hc, Nat.mul_one, Nat.add_zero])

/-- The head's bias as a one-by-one matrix: its one element is the bias. -/
theorem bias11_apply (x19 : FVec Ideal Cert.KernelIdeal.S1 .f32) (u c : Fin 1) :
    KernelIdeal.KL.bias11 (F := Ideal) x19 (ix2 u c) = x19 (ix1 0) := by
  unfold KernelIdeal.KL.bias11
  rw [Subsingleton.elim c 0]
  exact shapeCast_a_1a_apply x19 _ u 0

/-! ## The reference's head read at an index -/

/-- The divisor of the mean: the count, at least one, spread along a graph's row. -/
theorem denom_apply (cnt : FVec Ideal Cert.ReferenceIdeal.S4000 .f32) (g : Fin 4000) (k : Fin 128) :
    broadcastInDim Cert.ReferenceIdeal.S4000x128 ![0, 1] Cert.ReferenceIdeal.Facts₀.bcast_S4000x1_S4000x128_0_1
      (broadcastInDim Cert.ReferenceIdeal.S4000x1 ![0] Cert.ReferenceIdeal.Facts₀.bcast_S4000_S4000x1_0
        (maximumf cnt (broadcastInDim Cert.ReferenceIdeal.S4000 ![] Cert.ReferenceIdeal.Facts₀.bcast_S_S4000
          (constant (F := Ideal) Cert.ReferenceIdeal.S_ .f32 0x3F800000#32)))) (ix2 g k)
      = max (cnt (ix1 g)) (Scalar.ofBits (F := Ideal) .f32 0x3F800000#32) := by
  rw [broadcastInDim_apply _ Cert.ReferenceIdeal.Facts₀.bcast_S4000x1_S4000x128_0_1 _ (ix2 g k) (ix2 g (0 : Fin 1))
      (fun a => match a with
        | ⟨0, _⟩ => by show g.val = if (4000 : Nat) = 1 then 0 else g.val; rw [if_neg (by decide)]
        | ⟨1, _⟩ => by show 0 = if (1 : Nat) = 1 then 0 else k.val; rw [if_pos rfl]),
    broadcastInDim_apply _ Cert.ReferenceIdeal.Facts₀.bcast_S4000_S4000x1_0 _ (ix2 g (0 : Fin 1)) (ix1 g)
      (fun a => match a with
        | ⟨0, _⟩ => by show g.val = if (4000 : Nat) = 1 then 0 else g.val; rw [if_neg (by decide)]),
    maximumf_apply,
    broadcastInDim_apply _ Cert.ReferenceIdeal.Facts₀.bcast_S_S4000 _ (ix1 g) ix0 (fun a => a.elim0)]
  rfl

/-- The head's bias spread over the result: every element reads the bias. -/
theorem biasB_apply (x19 : FVec Ideal Cert.ReferenceIdeal.S1 .f32) (g : Fin 4000) (c : Fin 1) :
    broadcastInDim Cert.ReferenceIdeal.S4000x1 ![0, 1] Cert.ReferenceIdeal.Facts₀.bcast_S1x1_S4000x1_0_1
      (broadcastInDim Cert.ReferenceIdeal.S1x1 ![1] Cert.ReferenceIdeal.Facts₀.bcast_S1_S1x1_1 x19) (ix2 g c)
      = x19 (ix1 0) := by
  rw [broadcastInDim_apply _ Cert.ReferenceIdeal.Facts₀.bcast_S1x1_S4000x1_0_1 _ (ix2 g c) (ix2 (0 : Fin 1) (0 : Fin 1))
      (fun a => match a with
        | ⟨0, _⟩ => by show 0 = if (1 : Nat) = 1 then 0 else g.val; rw [if_pos rfl]
        | ⟨1, _⟩ => by show 0 = if (1 : Nat) = 1 then 0 else c.val; rw [if_pos rfl]),
    broadcastInDim_apply _ Cert.ReferenceIdeal.Facts₀.bcast_S1_S1x1_1 _ (ix2 (0 : Fin 1) (0 : Fin 1)) (ix1 (0 : Fin 1))
      (fun a => match a with
        | ⟨0, _⟩ => by show 0 = if (1 : Nat) = 1 then 0 else 0; rw [if_pos rfl])]

/-- The head's contraction, left operand, row axis: the result's row. -/
theorem head_lhs_0 (i : Cert.ReferenceIdeal.S4000x1.Idx)
    (q : Cert.ReferenceIdeal.dot_S4000x128_S128x1_S4000x1_1_0_0_1_n_n.contr.Idx) :
    (Cert.ReferenceIdeal.dot_S4000x128_S128x1_S4000x1_1_0_0_1_n_n.lhsIdx i q 0).val = (i 0).val := by
  unfold DotDims.lhsIdx
  rw [dif_neg (show ¬(0 : Fin Cert.ReferenceIdeal.S4000x128.rank) ∈ Cert.ReferenceIdeal.dot_S4000x128_S128x1_S4000x1_1_0_0_1_n_n.lhsBatch from fun hm => by cases hm),
    dif_pos (show (0 : Fin Cert.ReferenceIdeal.S4000x128.rank) ∈ Cert.ReferenceIdeal.dot_S4000x128_S128x1_S4000x1_1_0_0_1_n_n.lhsNonContracting from List.mem_singleton.mpr rfl)]
  rfl

/-- Left operand, column axis: the contracted coordinate. -/
theorem head_lhs_1 (i : Cert.ReferenceIdeal.S4000x1.Idx)
    (q : Cert.ReferenceIdeal.dot_S4000x128_S128x1_S4000x1_1_0_0_1_n_n.contr.Idx) :
    (Cert.ReferenceIdeal.dot_S4000x128_S128x1_S4000x1_1_0_0_1_n_n.lhsIdx i q 1).val = (q ⟨0, Nat.one_pos⟩).val :=
  Cert.ReferenceIdeal.dot_S4000x128_S128x1_S4000x1_1_0_0_1_n_n.lhsIdx_val_of_single rfl i q

/-- Right operand, row axis: the contracted coordinate. -/
theorem head_rhs_0 (i : Cert.ReferenceIdeal.S4000x1.Idx)
    (q : Cert.ReferenceIdeal.dot_S4000x128_S128x1_S4000x1_1_0_0_1_n_n.contr.Idx) :
    (Cert.ReferenceIdeal.dot_S4000x128_S128x1_S4000x1_1_0_0_1_n_n.rhsIdx i q 0).val = (q ⟨0, Nat.one_pos⟩).val :=
  Cert.ReferenceIdeal.dot_S4000x128_S128x1_S4000x1_1_0_0_1_n_n.rhsIdx_val_of_single rfl i q

/-- Right operand, column axis: the result's column. -/
theorem head_rhs_1 (i : Cert.ReferenceIdeal.S4000x1.Idx)
    (q : Cert.ReferenceIdeal.dot_S4000x128_S128x1_S4000x1_1_0_0_1_n_n.contr.Idx) :
    (Cert.ReferenceIdeal.dot_S4000x128_S128x1_S4000x1_1_0_0_1_n_n.rhsIdx i q 1).val = (i 1).val := by
  unfold DotDims.rhsIdx
  rw [dif_neg (show ¬(1 : Fin Cert.ReferenceIdeal.S128x1.rank) ∈ Cert.ReferenceIdeal.dot_S4000x128_S128x1_S4000x1_1_0_0_1_n_n.rhsBatch from fun hm => by cases hm),
    dif_pos (show (1 : Fin Cert.ReferenceIdeal.S128x1.rank) ∈ Cert.ReferenceIdeal.dot_S4000x128_S128x1_S4000x1_1_0_0_1_n_n.rhsNonContracting from List.mem_singleton.mpr rfl)]
  rfl

/-- The head's contraction at (g, c): the sum over the 128 features of the left operand's row g times the right
    operand's column c. -/
theorem head_dot_apply (y : FVec Ideal Cert.ReferenceIdeal.S4000x128 .f32) (x18 : FVec Ideal Cert.ReferenceIdeal.S128x1 .f32)
    (g : Fin 4000) (c : Fin 1) :
    Host.dotGeneral Cert.ReferenceIdeal.dot_S4000x128_S128x1_S4000x1_1_0_0_1_n_n none y x18 (ix2 g c)
      = ∑ k : Fin 128, y (ix2 g k) * x18 (ix2 k c) := by
  simp only [Host.dotGeneral]
  rw [Ideal.dotGeneral_apply,
    ← Equiv.sum_comp (contrEquiv1 Cert.ReferenceIdeal.dot_S4000x128_S128x1_S4000x1_1_0_0_1_n_n 128 rfl rfl).symm]
  refine Finset.sum_congr rfl fun k _ => ?_
  have hk := contrEquiv1_symm_val Cert.ReferenceIdeal.dot_S4000x128_S128x1_S4000x1_1_0_0_1_n_n 128 rfl rfl k
  have el : Cert.ReferenceIdeal.dot_S4000x128_S128x1_S4000x1_1_0_0_1_n_n.lhsIdx (ix2 g c)
      ((contrEquiv1 Cert.ReferenceIdeal.dot_S4000x128_S128x1_S4000x1_1_0_0_1_n_n 128 rfl rfl).symm k) = ix2 g k :=
    funext fun a => Fin.ext (by
      match a with
      | ⟨0, _⟩ => exact head_lhs_0 _ _
      | ⟨1, _⟩ => exact (head_lhs_1 _ _).trans hk)
  have er : Cert.ReferenceIdeal.dot_S4000x128_S128x1_S4000x1_1_0_0_1_n_n.rhsIdx (ix2 g c)
      ((contrEquiv1 Cert.ReferenceIdeal.dot_S4000x128_S128x1_S4000x1_1_0_0_1_n_n 128 rfl rfl).symm k) = ix2 k c :=
    funext fun a => Fin.ext (by
      match a with
      | ⟨0, _⟩ => exact (head_rhs_0 _ _).trans hk
      | ⟨1, _⟩ => exact head_rhs_1 _ _)
  rw [el, er]

/-- The reference's mean pooling and head at (g, c): the sum over the features of the graph's row sum divided by its
    count (at least one) times the head's weight, plus the bias. -/
theorem poolF_apply (s : FVec Ideal Cert.ReferenceIdeal.S4000x128 .f32) (cnt : FVec Ideal Cert.ReferenceIdeal.S4000 .f32)
    (x18 : FVec Ideal Cert.ReferenceIdeal.S128x1 .f32) (x19 : FVec Ideal Cert.ReferenceIdeal.S1 .f32)
    (g : Fin 4000) (c : Fin 1) :
    ReferenceIdeal.RL.poolF (F := Ideal) s cnt x18 x19 (ix2 g c)
      = (∑ k : Fin 128, Ideal.div (s (ix2 g k)) (max (cnt (ix1 g)) (Scalar.ofBits (F := Ideal) .f32 0x3F800000#32))
          * x18 (ix2 k c)) + x19 (ix1 0) := by
  unfold ReferenceIdeal.RL.poolF
  rw [addf_apply, head_dot_apply, biasB_apply]
  congr 1
  refine Finset.sum_congr rfl fun k _ => ?_
  show Ideal.div (s (ix2 g k)) _ * _ = _
  rw [denom_apply]

/-! ## The bridge -/

/-- Mean pooling and the head: the two programs scatter-add the same rows by the same graph ids, divide by the same
    counts and contract with the same head. -/
theorem pool_bridge (h : FVec Ideal Cert.KernelIdeal.S200000x128 .f32) (x2 : IVec Cert.KernelIdeal.S200000 32)
    (x18 : FVec Ideal Cert.KernelIdeal.S128x1 .f32) (x19 : FVec Ideal Cert.KernelIdeal.S1 .f32) :
    Cert.Spec.pool (KernelIdeal.KL.sums h x2) (KernelIdeal.KL.countsCol x2) x18 (KernelIdeal.KL.bias11 x19) = ReferenceIdeal.RL.poolF (ReferenceIdeal.RL.sums h x2) (ReferenceIdeal.RL.counts x2) x18 x19 := by
  funext i
  obtain ⟨g, c, rfl⟩ : ∃ (g : Fin 4000) (c : Fin 1), i = ix2 g c := ⟨i 0, i 1, eq_ix2 i⟩
  rw [poolF_apply, ← sums_eq, ← counts_eq]
  show (∑ k : Fin 128, Ideal.div (KernelIdeal.KL.sums (F := Ideal) h x2 (ix2 g k))
      (max (KernelIdeal.KL.countsCol (F := Ideal) x2 (ix2 g 0)) (Scalar.ofBits (F := Ideal) .f32 0x3F800000#32)) * x18 (ix2 k c))
      + KernelIdeal.KL.bias11 (F := Ideal) x19 (ix2 0 c) = _
  rw [countsCol_apply, bias11_apply]

end Cert.Bridge

end
-- ==== Proof.Final.lean ====
/-
  The kernel program's result as ONE function of its arguments, and that function is the reference's.

  `kernel_value`: the three stretches of the run chain up: the result array after the last region holds
  `KO.out (KO.h2 (KO.h1 …) …) …` of the launch contents of the arguments.
  `ko_eq_ro`: with every feature value in `[0, 119)` that composition is the reference's composition of layers: the atom
  encoder's one-hot products are the embedding lookups, each dense layer is the `dot_general`, each aggregation over the
  self-loop-augmented edge list is the aggregation over the edges plus the `dinv²` self term, the pointwise layers and
  the pooled head are the same terms.
-/
import proofs.«418650_j59313498358439_1_alg».proof.Proof.ChainC
import proofs.«418650_j59313498358439_1_alg».proof.Proof.ROut
import proofs.«418650_j59313498358439_1_alg».proof.Proof.BrAtom
import proofs.«418650_j59313498358439_1_alg».proof.Proof.BrMM
import proofs.«418650_j59313498358439_1_alg».proof.Proof.BrAgg
import proofs.«418650_j59313498358439_1_alg».proof.Proof.BrBN
import proofs.«418650_j59313498358439_1_alg».proof.Proof.BrPool

noncomputable section

namespace Cert.Bridge

open Idealize.ShloMosaic Idealize.ShloMosaic.ValueIdx

/-- THE TWO PROGRAMS COMPUTE ONE FUNCTION: with every feature value in `[0, 119)`, the kernel's composition of region
    functions and host aggregations is the reference's composition of its layers, layer by layer. -/
theorem ko_eq_ro [Cert.KernelIdeal.Facts] [Cert.ReferenceIdeal.Facts]
    (x0 : IVec Cert.KernelIdeal.S200000x9 32) (x1 : IVec Cert.KernelIdeal.S2x640000 32) (x2 : IVec Cert.KernelIdeal.S200000 32)
    (x3 : FVec Ideal Cert.KernelIdeal.S9x119x128 .f32) (x4 x10 x16 : FVec Ideal Cert.KernelIdeal.S128x128 .f32)
    (x5 x6 x7 x8 x9 x11 x12 x13 x14 x15 x17 : FVec Ideal Cert.KernelIdeal.S128 .f32)
    (x18 : FVec Ideal Cert.KernelIdeal.S128x1 .f32) (x19 : FVec Ideal Cert.KernelIdeal.S1 .f32)
    (hx : ∀ i : Cert.KernelIdeal.S200000x9.Idx, 0 ≤ (x0 i).toInt ∧ (x0 i).toInt < 119) :
    Cert.KernelIdeal.KO.out (Cert.KernelIdeal.KO.h2 (Cert.KernelIdeal.KO.h1 x0 x1 x3 x4 x5 x6 x7 x8 x9) x1 x10 x11 x12 x13 x14 x15) x1 x2 x16 x17 x18 x19
      = Cert.ReferenceIdeal.RO.out (F := Ideal) (Cert.ReferenceIdeal.RO.h2 (Cert.ReferenceIdeal.RO.h1 x0 x1 x3 x4 x5 x6 x7 x8 x9) x1 x10 x11 x12 x13 x14 x15) x1 x2 x16 x17 x18 x19 := by
  unfold Cert.KernelIdeal.KO.out Cert.KernelIdeal.KO.h2 Cert.KernelIdeal.KO.h1 Cert.KernelIdeal.KO.layer
    Cert.ReferenceIdeal.RO.out Cert.ReferenceIdeal.RO.h2 Cert.ReferenceIdeal.RO.h1 Cert.ReferenceIdeal.RO.layer
  rw [atom_bridge x0 x3 hx, mm_bridge, agg_bridge, bn_bridge, mm_bridge, agg_bridge, bn_bridge, mm_bridge, agg_bridge,
    bias_bridge, pool_bridge]

end Cert.Bridge

namespace Cert.KernelIdeal.Gen

open Idealize.ShloMosaic Idealize.ShloMosaic.TcCoe Idealize.SL.Sem Cert.KernelIdeal

variable (m : (ℓ : Loc nD τ sig) → Buf (Elt Ideal) ℓ) (ρ : Dev nD → PrngReg)

/-- THE KERNEL'S RESULT: the result array's contents at the run's end, as the composition of the region functions and
    the host aggregations at the launch contents of the arguments. -/
theorem kernel_value (c : Dev nD) : W14 m ρ c (Proc.devRef .tc main_v96)
    = KO.out (KO.h2 (KO.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
      (m ((c : Thread nD τ).loc main_arg1)) (m ((c : Thread nD τ).loc main_arg2)) (m ((c : Thread nD τ).loc main_arg16)) (m ((c : Thread nD τ).loc main_arg17)) (m ((c : Thread nD τ).loc main_arg18)) (m ((c : Thread nD τ).loc main_arg19)) := by
  rw [C_out, B_out, A_out]

end Cert.KernelIdeal.Gen

end
-- ==== Proof.RefStages.lean ====
/-
  The reference's run, stage by stage, is the composition of its layers: each named stage of its read-back run is the
  layer function applied to the stage before it, so its result is `RO.out (RO.h2 (RO.h1 …) …) …` of the arguments.
-/
import proofs.«418650_j59313498358439_1_alg».proof.Proof.Gen.ReferenceIdeal.Read
import proofs.«418650_j59313498358439_1_alg».proof.Proof.ROut

noncomputable section

namespace Cert.ReferenceIdeal.RefStages

open Cert.ReferenceIdeal Cert.ReferenceIdeal.Gen Cert.ReferenceIdeal.Read Idealize.ShloMosaic

variable {F : FTy → Type} [FloatOps F]
variable (x0 : (⟨S200000x9, .i32⟩ : BufTy).Contents (Elt F)) (x1 : (⟨S2x640000, .i32⟩ : BufTy).Contents (Elt F))
  (x2 : (⟨S200000, .i32⟩ : BufTy).Contents (Elt F)) (x3 : (⟨S9x119x128, .f32⟩ : BufTy).Contents (Elt F))
  (x4 x10 x16 : (⟨S128x128, .f32⟩ : BufTy).Contents (Elt F))
  (x5 x6 x7 x8 x9 x11 x12 x13 x14 x15 x17 : (⟨S128, .f32⟩ : BufTy).Contents (Elt F))
  (x18 : (⟨S128x1, .f32⟩ : BufTy).Contents (Elt F)) (x19 : (⟨S1, .f32⟩ : BufTy).Contents (Elt F))

/-- The summed atom embedding. -/
theorem s28 : val_main_v28 (F := F) x0 x3 = RL.embF x0 x3 := rfl
/-- The first dense layer. -/
theorem s29 : val_main_v29 (F := F) x0 x3 x4 = RL.mmF (val_main_v28 (F := F) x0 x3) x4 := rfl
/-- The first aggregation. -/
theorem s62 : val_main_v62 (F := F) x0 x1 x3 x4 = RL.aggF (val_main_v29 (F := F) x0 x3 x4) x1 := rfl
/-- The first hidden state. -/
theorem s81 : val_main_v81 (F := F) x0 x1 x3 x4 x5 x6 x7 x8 x9 = RL.bnF (val_main_v62 (F := F) x0 x1 x3 x4) x5 x6 x7 x8 x9 := rfl
/-- The second dense layer. -/
theorem s82 : val_main_v82 (F := F) x0 x1 x3 x4 x5 x6 x7 x8 x9 x10 = RL.mmF (val_main_v81 (F := F) x0 x1 x3 x4 x5 x6 x7 x8 x9) x10 := rfl
/-- The second aggregation. -/
theorem s115 : val_main_v115 (F := F) x0 x1 x3 x4 x5 x6 x7 x8 x9 x10 = RL.aggF (val_main_v82 (F := F) x0 x1 x3 x4 x5 x6 x7 x8 x9 x10) x1 := rfl
/-- The second hidden state. -/
theorem s134 : val_main_v134 (F := F) x0 x1 x3 x4 x5 x6 x7 x8 x9 x10 x11 x12 x13 x14 x15 = RL.bnF (val_main_v115 (F := F) x0 x1 x3 x4 x5 x6 x7 x8 x9 x10) x11 x12 x13 x14 x15 := rfl
/-- The third dense layer. -/
theorem s135 : val_main_v135 (F := F) x0 x1 x3 x4 x5 x6 x7 x8 x9 x10 x11 x12 x13 x14 x15 x16 = RL.mmF (val_main_v134 (F := F) x0 x1 x3 x4 x5 x6 x7 x8 x9 x10 x11 x12 x13 x14 x15) x16 := rfl
/-- The third aggregation. -/
theorem s168 : val_main_v168 (F := F) x0 x1 x3 x4 x5 x6 x7 x8 x9 x10 x11 x12 x13 x14 x15 x16 = RL.aggF (val_main_v135 (F := F) x0 x1 x3 x4 x5 x6 x7 x8 x9 x10 x11 x12 x13 x14 x15 x16) x1 := rfl
/-- The third layer's bias. -/
theorem s171 : val_main_v171 (F := F) x0 x1 x3 x4 x5 x6 x7 x8 x9 x10 x11 x12 x13 x14 x15 x16 x17 = RL.biasF (val_main_v168 (F := F) x0 x1 x3 x4 x5 x6 x7 x8 x9 x10 x11 x12 x13 x14 x15 x16) x17 := rfl
/-- The nodes counted per graph. -/
theorem s175 : val_main_v175 (F := F) x2 = RL.counts x2 := rfl
/-- The node rows summed per graph. -/
theorem s178 : val_main_v178 (F := F) x0 x1 x2 x3 x4 x5 x6 x7 x8 x9 x10 x11 x12 x13 x14 x15 x16 x17 = RL.sums (val_main_v171 (F := F) x0 x1 x3 x4 x5 x6 x7 x8 x9 x10 x11 x12 x13 x14 x15 x16 x17) x2 := rfl
/-- The pooled mean through the head. -/
theorem s187 : val_main_v187 (F := F) x0 x1 x2 x3 x4 x5 x6 x7 x8 x9 x10 x11 x12 x13 x14 x15 x16 x17 x18 x19 = RL.poolF (val_main_v178 (F := F) x0 x1 x2 x3 x4 x5 x6 x7 x8 x9 x10 x11 x12 x13 x14 x15 x16 x17) (val_main_v175 (F := F) x2) x18 x19 := rfl

/-- THE REFERENCE'S RESULT is the composition of its layers at the arguments. -/
theorem out_eq : val_main_v187 (F := F) x0 x1 x2 x3 x4 x5 x6 x7 x8 x9 x10 x11 x12 x13 x14 x15 x16 x17 x18 x19
    = RO.out (RO.h2 (RO.h1 x0 x1 x3 x4 x5 x6 x7 x8 x9) x1 x10 x11 x12 x13 x14 x15) x1 x2 x16 x17 x18 x19 := by
  rw [s187, s178, s175, s171, s168, s135, s134, s115, s82, s81, s62, s29, s28]
  rfl

end Cert.ReferenceIdeal.RefStages

end
-- ==== Proof.PreX.lean ====
import proofs.«418650_j59313498358439_1_alg».proof.Proof.Gen.Pre_finite_inputs
import Idealize.ShloMosaic.Lib.ValueIdx
import Idealize.ShloMosaic.Lib.ReduceAll
import Idealize.ShloMosaic.Lib.StableHlo.Predicate

noncomputable section

namespace Cert.PreX

open Idealize.ShloMosaic Idealize.ShloMosaic.ValueIdx Cert.Pre_finite_inputs

/-- The rank-0 shape has exactly one index: an index is a function out of the empty set of axes. -/
theorem subsingleton_S_ : Subsingleton S_.Idx := ⟨fun a b => funext fun d => d.elim0⟩

/-- One word in range. The bit `(w ≥ 0) and (w < 119)`, both comparisons signed, is set exactly when both
    comparison bits are set; a signed comparison bit is set when the integers the words read as compare so; and
    the literals `0` and `119` read as the integers 0 and 119. -/
theorem word_range (w : BitVec 32)
    (e : IntOp.andi (IntOp.cmpi .sge w 0#32) (IntOp.cmpi .slt w 119#32) = 1#1) :
    0 ≤ w.toInt ∧ w.toInt < 119 := by
  obtain ⟨hge, hlt⟩ := IntOp.andi_eq_one.1 e
  rw [IntOp.cmpi_sge] at hge
  rw [IntOp.cmpi_slt] at hlt
  have z : (0#32 : BitVec 32).toInt = 0 := by decide
  have n : (119#32 : BitVec 32).toInt = 119 := by decide
  rw [z] at hge
  rw [n] at hlt
  exact ⟨hge, hlt⟩

/-- The last part of the predicate read back, with the two names it takes from the earlier parts left general:
    `v83` (the conjunction of the finiteness tests, not needed here) and `v84`, of which only "zero everywhere" is
    used. The part's result is `v83 and all(p)`, where `p = (a0 ≥ v84) and (a0 < 119)` elementwise and `all` is the
    reduction by `and` over both axes from the constant 1. If the result is 1 then `all(p)` is 1; a reduction by `and`
    into a result of one index that came out 1 met a 1 at every operand index; so `p i = 1`, which is `word_range`'s
    hypothesis at the word `a0 i` (the comparisons, the conjunction, the broadcast of the scalar 119 and the constants
    all read at an index by unfolding). -/
theorem part5_range (a0 : IVec S200000x9 32) (v83 : IVec S_ 1) (v84 : IVec S200000x9 32)
    (hv : ∀ i, v84 i = 0#32) (j : S_.Idx)
    (e : fn_part5 (F := Ideal) a0 v83 v84 j = 1#1) (i : S200000x9.Idx) :
    0 ≤ (a0 i).toInt ∧ (a0 i).toInt < 119 := by
  haveI := subsingleton_S_
  dsimp only [fn_part5] at e
  obtain ⟨-, hall⟩ := IntOp.andi_eq_one.1 e
  have hb := Host.reduce_andi_all _ _ _ _ j hall i
  apply word_range
  rw [← hv i]
  exact hb

/-- The precondition's last conjunct read back: every feature value lies in `[0, 119)`, as a signed integer. -/
theorem x_range (a0 : IVec S200000x9 32) (a1 : IVec S2x640000 32) (a2 : IVec S200000 32) (a3 : FVec Ideal S9x119x128 .f32)
    (a4 : FVec Ideal S128x128 .f32) (a5 a6 a7 a8 a9 : FVec Ideal S128 .f32) (a10 : FVec Ideal S128x128 .f32)
    (a11 a12 a13 a14 a15 : FVec Ideal S128 .f32) (a16 : FVec Ideal S128x128 .f32) (a17 : FVec Ideal S128 .f32)
    (a18 : FVec Ideal S128x1 .f32) (a19 : FVec Ideal S1 .f32)
    (h : Cert.Pre_finite_inputs.fn (F := Ideal) a0 a1 a2 a3 a4 a5 a6 a7 a8 a9 a10 a11 a12 a13 a14 a15 a16 a17 a18 a19 = fun _ => 1#1) :
    ∀ i : S200000x9.Idx, 0 ≤ (a0 i).toInt ∧ (a0 i).toInt < 119 := by
  intro i
  -- the predicate's one result word is 1
  have h0 := congrFun h ValueIdx.ix0
  -- the predicate is its first four parts' lets, then the call of the last part: the feature array, the earlier
  -- conjunction, and the scalar 0 broadcast to the array's shape (which reads 0 at every index, by unfolding)
  dsimp only [fn, fn_part1, fn_part2, fn_part3, fn_part4] at h0
  exact part5_range a0 _ _ (fun _ => rfl) _ h0 i

end Cert.PreX

end
-- ==== Proof.lean ====
/-
  A graph network — atom embedding, three graph-convolution layers with self-loops and symmetric degree normalisation,
  mean pooling by graph, a linear head — computed by eight kernel regions among host gathers and scatter-adds, against a
  plain reference; both read over the extended reals.

  The three frames are the generated ones (the reference's is its run with the result dropped); the idealization rewrote
  nothing, so `preserves` is trivial. The value claim: the kernel's run ends with its result array at the last boundary's
  contents (`run_main`), which is the composition `KO.out (KO.h2 (KO.h1 …))` of the arguments (`kernel_value`); the
  reference's run ends at the composition of its layers (`RefStages.out_eq`); and under the precondition — every float
  finite, every feature value in `[0, 119)`, of which only the second is used — the two compositions are one function
  (`Bridge.ko_eq_ro`). The feature range is what makes the one-hot rows of the kernel's atom encoder select the rows the
  reference looks up; everything else holds for all inputs, with sums regrouped in a commutative monoid.
-/
import proofs.«418650_j59313498358439_1_alg».proof.Defs
import proofs.«418650_j59313498358439_1_alg».proof.Proof.Gen.Kernel
import proofs.«418650_j59313498358439_1_alg».proof.Proof.Gen.Kernel.Skeleton
import proofs.«418650_j59313498358439_1_alg».proof.Proof.Gen.Kernel.Launch
import proofs.«418650_j59313498358439_1_alg».proof.Proof.Gen.Kernel.Points
import proofs.«418650_j59313498358439_1_alg».proof.Proof.Gen.Kernel.Frame
import proofs.«418650_j59313498358439_1_alg».proof.Proof.Gen.KernelIdeal
import proofs.«418650_j59313498358439_1_alg».proof.Proof.Gen.KernelIdeal.Skeleton
import proofs.«418650_j59313498358439_1_alg».proof.Proof.Gen.KernelIdeal.Launch
import proofs.«418650_j59313498358439_1_alg».proof.Proof.Gen.KernelIdeal.Points
import proofs.«418650_j59313498358439_1_alg».proof.Proof.Gen.KernelIdeal.Frame
import proofs.«418650_j59313498358439_1_alg».proof.Proof.Gen.ReferenceIdeal
import proofs.«418650_j59313498358439_1_alg».proof.Proof.Gen.ReferenceIdeal.Run
import proofs.«418650_j59313498358439_1_alg».proof.Proof.Gen.ReferenceIdeal.Read
import proofs.«418650_j59313498358439_1_alg».proof.Proof.Gen.Pre_finite_inputs
import proofs.«418650_j59313498358439_1_alg».proof.Proof.KernelRun
import proofs.«418650_j59313498358439_1_alg».proof.Proof.Final
import proofs.«418650_j59313498358439_1_alg».proof.Proof.RefStages
import proofs.«418650_j59313498358439_1_alg».proof.Proof.PreX
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel's result array at the composition of its regions and aggregations, the reference's at the
    composition of its layers, of arguments that agree; under the feature range the two are one function. -/
theorem algebraic : Cert.algebraic_KernelIdeal_ReferenceIdeal := by
  intro m ρ m' ρ' hpre hagree
  refine ⟨fun c => Cert.KernelIdeal.Gen.W14 m ρ c (Proc.devRef .tc Cert.KernelIdeal.main_v96),
    Cert.KernelIdeal.Gen.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v187_eq, Cert.ReferenceIdeal.RefStages.out_eq, h0, h1, h2, h3, h4, h5, h6, h7, h8, h9, h10, h11, h12, h13, h14, h15, h16, h17, h18, h19]
  refine ((Cert.KernelIdeal.Gen.kernel_value m ρ c).trans (Cert.Bridge.ko_eq_ro _ _ _ _ _ _ _ _ _ _ _ _ _ _ _ _ _ _ _ _ ?_)).symm
  exact Cert.PreX.x_range _ _ _ _ _ _ _ _ _ _ _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
